-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1000000x2 : Shape := ⟨2, ![1000000, 2]⟩
abbrev S2x1000000 : Shape := ⟨2, ![2, 1000000]⟩
abbrev S32x128 : Shape := ⟨2, ![32, 128]⟩
abbrev S128 : Shape := ⟨1, ![128]⟩
abbrev S2x128 : Shape := ⟨2, ![2, 128]⟩
abbrev S256x256 : Shape := ⟨2, ![256, 256]⟩
abbrev S256 : Shape := ⟨1, ![256]⟩
abbrev S2x256 : Shape := ⟨2, ![2, 256]⟩
abbrev S512x512 : Shape := ⟨2, ![512, 512]⟩
abbrev S512 : Shape := ⟨1, ![512]⟩
abbrev S512x2 : Shape := ⟨2, ![512, 2]⟩
abbrev S2 : Shape := ⟨1, ![2]⟩
abbrev S_ : Shape := ⟨0, ![]⟩
abbrev S1x1000000 : Shape := ⟨2, ![1, 1000000]⟩
abbrev S1000000 : Shape := ⟨1, ![1000000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1000000x2 : S_.BroadcastsInDim S1000000x2 (![] : Fin 0 → Fin S1000000x2.rank)
  reducesTo_S1000000x2_S_d0_1 : S1000000x2.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part4 {F : FTy → Type} [FloatOps F] (main_arg2 : IVec S2x1000000 32) (main_v63 : IVec S_ 1) (main_v67 : IVec S_ 1) : IVec S_ 1 :=
  let main_v68 : IVec S_ 1 := andi main_v63 main_v67
  let main_v69 : IVec S1x1000000 32 := (extractStridedSlice S1x1000000 ![0, 0] · slices_S2x1000000_S1x1000000_0_0) main_arg2
  let main_v70 : IVec S1000000 32 := shapeCast S1000000 main_v69 shapeCasts_S1x1000000_S1000000
  let main_c_26 : IVec S_ 32 := constantI S_ 32 4294867296#32
  let main_v71 : IVec S1000000 32 := broadcastInDim S1000000 ![] bcast_S_S1000000 main_c_26
  let main_v72 : IVec S1000000 1 := cmpi .sge main_v70 main_v71
  let main_c_27 : IVec S_ 1 := constantI S_ 1 1#1
  let main_v73 : IVec S_ 1 := (fun x v => Host.reduce IntOp.andi x v reducesTo_S1000000_S_d0 h_S_) main_v72 main_c_27
  let main_v74 : IVec S_ 1 := andi main_v68 main_v73
  let main_v75 : IVec S1x1000000 32 := (extractStridedSlice S1x1000000 ![0, 0] · slices_S2x1000000_S1x1000000_0_0) main_arg2
  let main_v76 : IVec S1000000 32 := shapeCast S1000000 main_v75 shapeCasts_S1x1000000_S1000000
  let main_c_28 : IVec S_ 32 := constantI S_ 32 100000#32
  let main_v77 : IVec S1000000 32 := broadcastInDim S1000000 ![] bcast_S_S1000000 main_c_28
  let main_v78 : IVec S1000000 1 := cmpi .slt main_v76 main_v77
  let main_c_29 : IVec S_ 1 := constantI S_ 1 1#1
  let main_v79 : IVec S_ 1 := (fun x v => Host.reduce IntOp.andi x v reducesTo_S1000000_S_d0 h_S_) main_v78 main_c_29
  let main_v80 : IVec S_ 1 := andi main_v74 main_v79
  main_v80

def fn_part3 {F : FTy → Type} [FloatOps F] (main_arg2 : IVec S2x1000000 32) (main_arg12 : FVec F S512 .f32) (main_arg13 : FVec F S512x2 .f32) (main_arg14 : FVec F S2 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x2 .f32 := Host.absf main_arg13
  let main_cst_22 : FVec F S_ .f32 := constant S_ .f32 0x7F800000#32
  let main_v60 : FVec F S512x2 .f32 := broadcastInDim S512x2 ![] bcast_S_S512x2 main_cst_22
  let main_v61 : IVec S512x2 1 := cmpf .olt main_v59 main_v60
  let main_c_23 : IVec S_ 1 := constantI S_ 1 1#1
  let main_v62 : IVec S_ 1 := (fun x v => Host.reduce IntOp.andi x v reducesTo_S512x2_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg2 main_v63 main_v67

def fn_part2 {F : FTy → Type} [FloatOps F] (main_arg2 : IVec S2x1000000 32) (main_arg8 : FVec F S256 .f32) (main_arg9 : FVec F S2x256 .f32) (main_arg10 : FVec F S256 .f32) (main_arg11 : FVec F S512x512 .f32) (main_arg12 : FVec F S512 .f32) (main_arg13 : FVec F S512x2 .f32) (main_arg14 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S2x256 .f32 := Host.absf main_arg9
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S512x512 .f32 := Host.absf main_arg11
  let main_cst_18 : FVec F S_ .f32 := constant S_ .f32 0x7F800000#32
  let main_v50 : FVec F S512x512 .f32 := broadcastInDim S512x512 ![] bcast_S_S512x512 main_cst_18
  fn_part3 (F := F) main_arg2 main_arg12 main_arg13 main_arg14 main_v48 main_v49 main_v50

def fn_part1 {F : FTy → Type} [FloatOps F] (main_arg2 : IVec S2x1000000 32) (main_arg5 : FVec F S2x128 .f32) (main_arg6 : FVec F S128 .f32) (main_arg7 : FVec F S256x256 .f32) (main_arg8 : FVec F S256 .f32) (main_arg9 : FVec F S2x256 .f32) (main_arg10 : FVec F S256 .f32) (main_arg11 : FVec F S512x512 .f32) (main_arg12 : FVec F S512 .f32) (main_arg13 : FVec F S512x2 .f32) (main_arg14 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S100000x32 .f32) (main_arg1 : FVec F S1000000x2 .f32) (main_arg2 : IVec S2x1000000 32) (main_arg3 : FVec F S32x128 .f32) (main_arg4 : FVec F S128 .f32) (main_arg5 : FVec F S2x128 .f32) (main_arg6 : FVec F S128 .f32) (main_arg7 : FVec F S256x256 .f32) (main_arg8 : FVec F S256 .f32) (main_arg9 : FVec F S2x256 .f32) (main_arg10 : FVec F S256 .f32) (main_arg11 : FVec F S512x512 .f32) (main_arg12 : FVec F S512 .f32) (main_arg13 : FVec F S512x2 .f32) (main_arg14 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1000000x2 .f32 := Host.absf main_arg1
  let main_cst_0 : FVec F S_ .f32 := constant S_ .f32 0x7F800000#32
  let main_v5 : FVec F S1000000x2 .f32 := broadcastInDim S1000000x2 ![] bcast_S_S1000000x2 main_cst_0
  let main_v6 : IVec S1000000x2 1 := cmpf .olt main_v4 main_v5
  let main_c_1 : IVec S_ 1 := constantI S_ 1 1#1
  let main_v7 : IVec S_ 1 := (fun x v => Host.reduce IntOp.andi x v reducesTo_S1000000x2_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S100000x32 : Shape := ⟨2, ![100000, 32]⟩
abbrev S1000000x2 : Shape := ⟨2, ![1000000, 2]⟩
abbrev S2x1000000 : Shape := ⟨2, ![2, 1000000]⟩
abbrev S32x128 : Shape := ⟨2, ![32, 128]⟩
abbrev S128 : Shape := ⟨1, ![128]⟩
abbrev S2x128 : Shape := ⟨2, ![2, 128]⟩
abbrev S256x256 : Shape := ⟨2, ![256, 256]⟩
abbrev S256 : Shape := ⟨1, ![256]⟩
abbrev S2x256 : Shape := ⟨2, ![2, 256]⟩
abbrev S512x512 : Shape := ⟨2, ![512, 512]⟩
abbrev S512 : Shape := ⟨1, ![512]⟩
abbrev S512x2 : Shape := ⟨2, ![512, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S100000x128 : Shape := ⟨2, ![100000, 128]⟩
abbrev S2000x32 : Shape := ⟨2, ![2000, 32]⟩
abbrev S2000x128 : Shape := ⟨2, ![2000, 128]⟩
abbrev S1x128 : Shape := ⟨2, ![1, 128]⟩
abbrev S1 : Shape := ⟨1, ![1]⟩
abbrev S1x1 : Shape := ⟨2, ![1, 1]⟩
abbrev S1000000x128 : Shape := ⟨2, ![1000000, 128]⟩
abbrev S4000x128 : Shape := ⟨2, ![4000, 128]⟩
abbrev S4000x2 : Shape := ⟨2, ![4000, 2]⟩
abbrev S128x256 : Shape := ⟨2, ![128, 256]⟩
abbrev S100000x256 : Shape := ⟨2, ![100000, 256]⟩
abbrev S2000x1 : Shape := ⟨2, ![2000, 1]⟩
abbrev S2000x256 : Shape := ⟨2, ![2000, 256]⟩
abbrev S1x256 : Shape := ⟨2, ![1, 256]⟩
abbrev S1000000x256 : Shape := ⟨2, ![1000000, 256]⟩
abbrev S4000x256 : Shape := ⟨2, ![4000, 256]⟩
abbrev S256x512 : Shape := ⟨2, ![256, 512]⟩
abbrev S100000x512 : Shape := ⟨2, ![100000, 512]⟩
abbrev S2000x512 : Shape := ⟨2, ![2000, 512]⟩
abbrev S1x512 : Shape := ⟨2, ![1, 512]⟩
abbrev S100000x2 : Shape := ⟨2, ![100000, 2]⟩
abbrev S2000x2 : Shape := ⟨2, ![2000, 2]⟩
abbrev S1x2 : Shape := ⟨2, ![1, 2]⟩

abbrev nBuf : Space → Nat
  | .hbm => 90
  | .vmem => 50
  | .smem => 0
  | _ => 0

abbrev bufTy : (tb : Table) → Fin (tcTables nBuf tb) → BufTy
  | .hbm, ⟨0, _⟩ => ⟨S100000x32, .f32⟩
  | .hbm, ⟨1, _⟩ => ⟨S1000000x2, .f32⟩
  | .hbm, ⟨2, _⟩ => ⟨S2x1000000, .i32⟩
  | .hbm, ⟨3, _⟩ => ⟨S32x128, .f32⟩
  | .hbm, ⟨4, _⟩ => ⟨S128, .f32⟩
  | .hbm, ⟨5, _⟩ => ⟨S2x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S2x256, .f32⟩
  | .hbm, ⟨10, _⟩ => ⟨S256, .f32⟩
  | .hbm, ⟨11, _⟩ => ⟨S512x512, .f32⟩
  | .hbm, ⟨12, _⟩ => ⟨S512, .f32⟩
  | .hbm, ⟨13, _⟩ => ⟨S512x2, .f32⟩
  | .hbm, ⟨14, _⟩ => ⟨S2, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S_, .f32⟩
  | .hbm, ⟨20, _⟩ => ⟨S1000000, .f32⟩
  | .hbm, ⟨21, _⟩ => ⟨S_, .f32⟩
  | .hbm, ⟨22, _⟩ => ⟨S100000, .f32⟩
  | .hbm, ⟨23, _⟩ => ⟨S1000000x1, .i32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1, .i32⟩
  | .hbm, ⟨36, _⟩ => ⟨S_, .i32⟩
  | .hbm, ⟨37, _⟩ => ⟨S1000000x1, .i32⟩
  | .hbm, ⟨38, _⟩ => ⟨S1000000x1, .i1⟩
  | .hbm, ⟨39, _⟩ => ⟨S1x1, .i32⟩
  | .hbm, ⟨40, _⟩ => ⟨S1000000x1, .i32⟩
  | .hbm, ⟨41, _⟩ => ⟨S1000000x1, .i1⟩
  | .hbm, ⟨42, _⟩ => ⟨S1000000x1, .i1⟩
  | .hbm, ⟨43, _⟩ => ⟨S_, .i1⟩
  | .hbm, ⟨44, _⟩ => ⟨S1000000, .i1⟩
  | .hbm, ⟨45, _⟩ => ⟨S1000000x128, .f32⟩
  | .hbm, ⟨46, _⟩ => ⟨S1000000x128, .i1⟩
  | .hbm, ⟨47, _⟩ => ⟨S_, .f32⟩
  | .hbm, ⟨48, _⟩ => ⟨S1000000x128, .f32⟩
  | .hbm, ⟨49, _⟩ => ⟨S1000000x128, .f32⟩
  | .hbm, ⟨50, _⟩ => ⟨S1000000x128, .f32⟩
  | .hbm, ⟨51, _⟩ => ⟨S_, .f32⟩
  | .hbm, ⟨52, _⟩ => ⟨S100000x128, .f32⟩
  | .hbm, ⟨53, _⟩ => ⟨S1000000x1, .i32⟩
  | .hbm, ⟨54, _⟩ => ⟨S100000x128, .f32⟩
  | .hbm, ⟨55, _⟩ => ⟨S128x256, .f32⟩
  | .hbm, ⟨56, _⟩ => ⟨S128x256, .f32⟩
  | .hbm, ⟨57, _⟩ => ⟨S100000x256, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1, .i32⟩
  | .hbm, ⟨67, _⟩ => ⟨S_, .i32⟩
  | .hbm, ⟨68, _⟩ => ⟨S1000000x1, .i32⟩
  | .hbm, ⟨69, _⟩ => ⟨S1000000x1, .i1⟩
  | .hbm, ⟨70, _⟩ => ⟨S1x1, .i32⟩
  | .hbm, ⟨71, _⟩ => ⟨S1000000x1, .i32⟩
  | .hbm, ⟨72, _⟩ => ⟨S1000000x1, .i1⟩
  | .hbm, ⟨73, _⟩ => ⟨S1000000x1, .i1⟩
  | .hbm, ⟨74, _⟩ => ⟨S_, .i1⟩
  | .hbm, ⟨75, _⟩ => ⟨S1000000, .i1⟩
  | .hbm, ⟨76, _⟩ => ⟨S1000000x256, .f32⟩
  | .hbm, ⟨77, _⟩ => ⟨S1000000x256, .i1⟩
  | .hbm, ⟨78, _⟩ => ⟨S_, .f32⟩
  | .hbm, ⟨79, _⟩ => ⟨S1000000x256, .f32⟩
  | .hbm, ⟨80, _⟩ => ⟨S1000000x256, .f32⟩
  | .hbm, ⟨81, _⟩ => ⟨S1000000x256, .f32⟩
  | .hbm, ⟨82, _⟩ => ⟨S_, .f32⟩
  | .hbm, ⟨83, _⟩ => ⟨S100000x256, .f32⟩
  | .hbm, ⟨84, _⟩ => ⟨S1000000x1, .i32⟩
  | .hbm, ⟨85, _⟩ => ⟨S100000x256, .f32⟩
  | .hbm, ⟨86, _⟩ => ⟨S256x512, .f32⟩
  | .hbm, ⟨87, _⟩ => ⟨S256x512, .f32⟩
  | .hbm, ⟨88, _⟩ => ⟨S100000x512, .f32⟩
  | .hbm, ⟨89, _⟩ => ⟨S100000x2, .f32⟩
  | .local _ .vmem, ⟨0, _⟩ => ⟨S2000x32, .f32⟩
  | .local _ .vmem, ⟨1, _⟩ => ⟨S2000x32, .f32⟩
  | .local _ .vmem, ⟨2, _⟩ => ⟨S32x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S4000x128, .f32⟩
  | .local _ .vmem, ⟨7, _⟩ => ⟨S4000x128, .f32⟩
  | .local _ .vmem, ⟨8, _⟩ => ⟨S4000x2, .f32⟩
  | .local _ .vmem, ⟨9, _⟩ => ⟨S4000x2, .f32⟩
  | .local _ .vmem, ⟨10, _⟩ => ⟨S2x128, .f32⟩
  | .local _ .vmem, ⟨11, _⟩ => ⟨S128, .f32⟩
  | .local _ .vmem, ⟨12, _⟩ => ⟨S4000x128, .f32⟩
  | .local _ .vmem, ⟨13, _⟩ => ⟨S4000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S128x256, .f32⟩
  | .local _ .vmem, ⟨21, _⟩ => ⟨S128x256, .f32⟩
  | .local _ .vmem, ⟨22, _⟩ => ⟨S256, .f32⟩
  | .local _ .vmem, ⟨23, _⟩ => ⟨S2000x256, .f32⟩
  | .local _ .vmem, ⟨24, _⟩ => ⟨S2000x256, .f32⟩
  | .local _ .vmem, ⟨25, _⟩ => ⟨S4000x256, .f32⟩
  | .local _ .vmem, ⟨26, _⟩ => ⟨S4000x256, .f32⟩
  | .local _ .vmem, ⟨27, _⟩ => ⟨S4000x2, .f32⟩
  | .local _ .vmem, ⟨28, _⟩ => ⟨S4000x2, .f32⟩
  | .local _ .vmem, ⟨29, _⟩ => ⟨S2x256, .f32⟩
  | .local _ .vmem, ⟨30, _⟩ => ⟨S256, .f32⟩
  | .local _ .vmem, ⟨31, _⟩ => ⟨S4000x256, .f32⟩
  | .local _ .vmem, ⟨32, _⟩ => ⟨S4000x256, .f32⟩
  | .local _ .vmem, ⟨33, _⟩ => ⟨S2000x256, .f32⟩
  | .local _ .vmem, ⟨34, _⟩ => ⟨S2000x256, .f32⟩
  | .local _ .vmem, ⟨35, _⟩ => ⟨S2000x1, .f32⟩
  | .local _ .vmem, ⟨36, _⟩ => ⟨S2000x1, .f32⟩
  | .local _ .vmem, ⟨37, _⟩ => ⟨S2000x256, .f32⟩
  | .local _ .vmem, ⟨38, _⟩ => ⟨S2000x256, .f32⟩
  | .local _ .vmem, ⟨39, _⟩ => ⟨S256x512, .f32⟩
  | .local _ .vmem, ⟨40, _⟩ => ⟨S256x512, .f32⟩
  | .local _ .vmem, ⟨41, _⟩ => ⟨S512, .f32⟩
  | .local _ .vmem, ⟨42, _⟩ => ⟨S2000x512, .f32⟩
  | .local _ .vmem, ⟨43, _⟩ => ⟨S2000x512, .f32⟩
  | .local _ .vmem, ⟨44, _⟩ => ⟨S2000x512, .f32⟩
  | .local _ .vmem, ⟨45, _⟩ => ⟨S2000x512, .f32⟩
  | .local _ .vmem, ⟨46, _⟩ => ⟨S512x2, .f32⟩
  | .local _ .vmem, ⟨47, _⟩ => ⟨S2, .f32⟩
  | .local _ .vmem, ⟨48, _⟩ => ⟨S2000x2, .f32⟩
  | .local _ .vmem, ⟨49, _⟩ => ⟨S2000x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v18 : Ref sig .tc := ⟨.hbm, 80, rfl⟩
abbrev main_v19 : Ref sig .tc := ⟨.hbm, 81, rfl⟩
abbrev main_cst_2 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  inb_S2000x32_S2000x32_0_0 : ∀ a, (![0, 0] : Fin 2 → Nat) a + S2000x32.size a ≤ S2000x32.size a
  h_S2000x32 : 0 < S2000x32.numel
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  inb_S4000x2_S4000x2_0_0 : ∀ a, (![0, 0] : Fin 2 → Nat) a + S4000x2.size a ≤ S4000x2.size a
  h_S4000x2 : 0 < S4000x2.numel
  inb_S2x128_S2x128_0_0 : ∀ a, (![0, 0] : Fin 2 → Nat) a + S2x128.size a ≤ S2x128.size a
  h_S2x128 : 0 < S2x128.numel
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S100000x128 : S_.BroadcastsInDim S100000x128 (![] : Fin 0 → Fin S100000x128.rank)
  slices_S256x256_S128x256_0_0 : S256x256.Slices ![0, 0] S128x256
  slices_S256x256_S128x256_128_0 : S256x256.Slices ![128, 0] S128x256
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S1000000_S1000000x256_0 : S1000000.BroadcastsInDim S1000000x256 (![0] : Fin 1 → Fin S1000000x256.rank)
  bcast_S_S1000000x256 : S_.BroadcastsInDim S1000000x256 (![] : Fin 0 → Fin S1000000x256.rank)
  inb_S2x256_S2x256_0_0 : ∀ a, (![0, 0] : Fin 2 → Nat) a + S2x256.size a ≤ S2x256.size a
  h_S2x256 : 0 < S2x256.numel
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bcast_S_S100000x256 : S_.BroadcastsInDim S100000x256 (![] : Fin 0 → Fin S100000x256.rank)
  slices_S512x512_S256x512_0_0 : S512x512.Slices ![0, 0] S256x512
  slices_S512x512_S256x512_256_0 : S512x512.Slices ![256, 0] S256x512
  shapeCasts_S2000x256_S2000x256 : S2000x256.ShapeCasts S2000x256
  broadcasts_S2000x1_S2000x256 : S2000x1.Broadcasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x2_S512x2_0_0 : ∀ a, (![0, 0] : Fin 2 → Nat) a + S512x2.size a ≤ S512x2.size a
  h_S512x2 : 0 < S512x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S100000_S1000000x1_S1000000_n_0_0_1_wf : ScatterDims.WF S100000 S1000000x1 S1000000 [] [0] [0] 1
  dot_S2000x32_S32x128_S2000x128_1_0_0_1_n_n_wf : DotDims.WF S2000x32 S32x128 S2000x128 [1] [0] [0] [1] [] []
  gather_S100000x128_S1000000x1_S1000000x128_1_0_n_n_0_1_1128_wf : GatherDims.WF S100000x128 S1000000x1 S1000000x128 [1] [0] [] [0] [] 1 ![1, 128]
  dot_S4000x2_S2x128_S4000x128_1_0_0_1_n_n_wf : DotDims.WF S4000x2 S2x128 S4000x128 [1] [0] [0] [1] [] []
  scatter_S100000x128_S1000000x1_S1000000x128_1_0_0_1_wf : ScatterDims.WF S100000x128 S1000000x1 S1000000x128 [1] [0] [0] 1
  dot_S2000x128_S128x256_S2000x256_1_0_0_1_n_n_wf : DotDims.WF S2000x128 S128x256 S2000x256 [1] [0] [0] [1] [] []
  gather_S100000x256_S1000000x1_S1000000x256_1_0_n_n_0_1_1256_wf : GatherDims.WF S100000x256 S1000000x1 S1000000x256 [1] [0] [] [0] [] 1 ![1, 256]
  dot_S4000x2_S2x256_S4000x256_1_0_0_1_n_n_wf : DotDims.WF S4000x2 S2x256 S4000x256 [1] [0] [0] [1] [] []
  scatter_S100000x256_S1000000x1_S1000000x256_1_0_0_1_wf : ScatterDims.WF S100000x256 S1000000x1 S1000000x256 [1] [0] [0] 1
  dot_S2000x256_S256x512_S2000x512_1_0_0_1_n_n_wf : DotDims.WF S2000x256 S256x512 S2000x512 [1] [0] [0] [1] [] []
  dot_S2000x512_S512x2_S2000x2_1_0_0_1_n_n_wf : DotDims.WF S2000x512 S512x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S1000000x128.size a
  hwx1_0 : ∀ i : grid1.Coords, EltTy.bits .f32 = 32 ∨ (Rect.block (s := S1000000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x2.size a ≤ S1000000x2.size a
  hwx1_1 : ∀ i : grid1.Coords, EltTy.bits .f32 = 32 ∨ (Rect.block (s := S1000000x2) S4000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S1000000x128.size a
  hwx1_4 : ∀ i : grid1.Coords, EltTy.bits .f32 = 32 ∨ (Rect.block (s := S1000000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S100000x256.size a
  hwx2_6 : ∀ i : grid2.Coords, EltTy.bits .f32 = 32 ∨ (Rect.block (s := S100000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S1000000x256.size a
  hwx3_0 : ∀ i : grid3.Coords, EltTy.bits .f32 = 32 ∨ (Rect.block (s := S1000000x256) S4000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x2.size a ≤ S1000000x2.size a
  hwx3_1 : ∀ i : grid3.Coords, EltTy.bits .f32 = 32 ∨ (Rect.block (s := S1000000x2) S4000x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2x256.size a ≤ S2x256.size a
  hwx3_2 : ∀ i : grid3.Coords, EltTy.bits .f32 = 32 ∨ (Rect.block (s := S2x256) S2x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x256.size a ≤ S1000000x256.size a
  hwx3_4 : ∀ i : grid3.Coords, EltTy.bits .f32 = 32 ∨ (Rect.block (s := S1000000x256) S4000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x512.size a ≤ S256x512.size a
  hwx4_3 : ∀ i : grid4.Coords, EltTy.bits .f32 = 32 ∨ (Rect.block (s := S256x512) S256x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x512.size a ≤ S256x512.size a
  hwx4_4 : ∀ i : grid4.Coords, EltTy.bits .f32 = 32 ∨ (Rect.block (s := S256x512) S256x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512.size a ≤ S512.size a
  hwx4_5 : ∀ i : grid4.Coords, EltTy.bits .f32 = 32 ∨ (Rect.block (s := S512) S512.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x512.size a ≤ S100000x512.size a
  hwx4_6 : ∀ i : grid4.Coords, EltTy.bits .f32 = 32 ∨ (Rect.block (s := S100000x512) S2000x512.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S100000x512.size a
  hwx5_0 : ∀ i : grid5.Coords, EltTy.bits .f32 = 32 ∨ (Rect.block (s := S100000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x2.size a ≤ S512x2.size a
  hwx5_1 : ∀ i : grid5.Coords, EltTy.bits .f32 = 32 ∨ (Rect.block (s := S512x2) S512x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2.size a ≤ S2.size a
  hwx5_2 : ∀ i : grid5.Coords, EltTy.bits .f32 = 32 ∨ (Rect.block (s := S2) S2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x2.size a ≤ S100000x2.size a
  hwx5_3 : ∀ i : grid5.Coords, EltTy.bits .f32 = 32 ∨ (Rect.block (s := S100000x2) S2000x2.size (cc5_transform_3 i) (hinb5_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S4000x2_S2x128_S4000x128_1_0_0_1_n_n : DotDims S4000x2 S2x128 S4000x128 where
  lhsContracting := [1]
  rhsContracting := [0]
  lhsNonContracting := [0]
  rhsNonContracting := [1]
  lhsBatch := []
  rhsBatch := []
  wf := dot_S4000x2_S2x128_S4000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def dot_S4000x2_S2x256_S4000x256_1_0_0_1_n_n : DotDims S4000x2 S2x256 S4000x256 where
  lhsContracting := [1]
  rhsContracting := [0]
  lhsNonContracting := [0]
  rhsNonContracting := [1]
  lhsBatch := []
  rhsBatch := []
  wf := dot_S4000x2_S2x256_S4000x256_1_0_0_1_n_n_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x2_S2000x2_1_0_0_1_n_n : DotDims S2000x512 S512x2 S2000x2 where
  lhsContracting := [1]
  rhsContracting := [0]
  lhsNonContracting := [0]
  rhsNonContracting := [1]
  lhsBatch := []
  rhsBatch := []
  wf := dot_S2000x512_S512x2_S2000x2_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v14) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v18) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S4000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S2x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S4000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v22) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v17) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v23) S256x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v24) S256x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v25) S2000x512.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v25) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S512x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v26) S2000x2.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x32 : Shape := ⟨2, ![100000, 32]⟩
abbrev S1000000x2 : Shape := ⟨2, ![1000000, 2]⟩
abbrev S2x1000000 : Shape := ⟨2, ![2, 1000000]⟩
abbrev S32x128 : Shape := ⟨2, ![32, 128]⟩
abbrev S128 : Shape := ⟨1, ![128]⟩
abbrev S2x128 : Shape := ⟨2, ![2, 128]⟩
abbrev S256x256 : Shape := ⟨2, ![256, 256]⟩
abbrev S256 : Shape := ⟨1, ![256]⟩
abbrev S2x256 : Shape := ⟨2, ![2, 256]⟩
abbrev S512x512 : Shape := ⟨2, ![512, 512]⟩
abbrev S512 : Shape := ⟨1, ![512]⟩
abbrev S512x2 : Shape := ⟨2, ![512, 2]⟩
abbrev S2 : Shape := ⟨1, ![2]⟩
abbrev S1x1000000 : Shape := ⟨2, ![1, 1000000]⟩
abbrev S1000000 : Shape := ⟨1, ![1000000]⟩
abbrev S100000x128 : Shape := ⟨2, ![100000, 128]⟩
abbrev S1x128 : Shape := ⟨2, ![1, 128]⟩
abbrev S_ : Shape := ⟨0, ![]⟩
abbrev S1000000x128 : Shape := ⟨2, ![1000000, 128]⟩
abbrev S1000000x1 : Shape := ⟨2, ![1000000, 1]⟩
abbrev S100000x1 : Shape := ⟨2, ![100000, 1]⟩
abbrev S100000x256 : Shape := ⟨2, ![100000, 256]⟩
abbrev S1x256 : Shape := ⟨2, ![1, 256]⟩
abbrev S1000000x256 : Shape := ⟨2, ![1000000, 256]⟩
abbrev S100000x512 : Shape := ⟨2, ![100000, 512]⟩
abbrev S1x512 : Shape := ⟨2, ![1, 512]⟩
abbrev S100000x2 : Shape := ⟨2, ![100000, 2]⟩
abbrev S1x2 : Shape := ⟨2, ![1, 2]⟩

abbrev nBuf : Space → Nat
  | .hbm => 104
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1000000x2, .f32⟩
  | .hbm, ⟨2, _⟩ => ⟨S2x1000000, .i32⟩
  | .hbm, ⟨3, _⟩ => ⟨S32x128, .f32⟩
  | .hbm, ⟨4, _⟩ => ⟨S128, .f32⟩
  | .hbm, ⟨5, _⟩ => ⟨S2x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S2x256, .f32⟩
  | .hbm, ⟨10, _⟩ => ⟨S256, .f32⟩
  | .hbm, ⟨11, _⟩ => ⟨S512x512, .f32⟩
  | .hbm, ⟨12, _⟩ => ⟨S512, .f32⟩
  | .hbm, ⟨13, _⟩ => ⟨S512x2, .f32⟩
  | .hbm, ⟨14, _⟩ => ⟨S2, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S1000000x128, .f32⟩
  | .hbm, ⟨27, _⟩ => ⟨S1x128, .f32⟩
  | .hbm, ⟨28, _⟩ => ⟨S1000000x128, .f32⟩
  | .hbm, ⟨29, _⟩ => ⟨S1000000x128, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x128, .f32⟩
  | .hbm, ⟨39, _⟩ => ⟨S1000000x128, .f32⟩
  | .hbm, ⟨40, _⟩ => ⟨S_, .f32⟩
  | .hbm, ⟨41, _⟩ => ⟨S100000x128, .f32⟩
  | .hbm, ⟨42, _⟩ => ⟨S1000000x1, .i32⟩
  | .hbm, ⟨43, _⟩ => ⟨S100000x128, .f32⟩
  | .hbm, ⟨44, _⟩ => ⟨S_, .f32⟩
  | .hbm, ⟨45, _⟩ => ⟨S1000000x1, .f32⟩
  | .hbm, ⟨46, _⟩ => ⟨S_, .f32⟩
  | .hbm, ⟨47, _⟩ => ⟨S100000x1, .f32⟩
  | .hbm, ⟨48, _⟩ => ⟨S1000000x1, .i32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x256, .f32⟩
  | .hbm, ⟨56, _⟩ => ⟨S100000x256, .f32⟩
  | .hbm, ⟨57, _⟩ => ⟨S1x256, .f32⟩
  | .hbm, ⟨58, _⟩ => ⟨S100000x256, .f32⟩
  | .hbm, ⟨59, _⟩ => ⟨S100000x256, .f32⟩
  | .hbm, ⟨60, _⟩ => ⟨S_, .f32⟩
  | .hbm, ⟨61, _⟩ => ⟨S100000x256, .f32⟩
  | .hbm, ⟨62, _⟩ => ⟨S100000x256, .f32⟩
  | .hbm, ⟨63, _⟩ => ⟨S1000000x256, .f32⟩
  | .hbm, ⟨64, _⟩ => ⟨S1x256, .f32⟩
  | .hbm, ⟨65, _⟩ => ⟨S1000000x256, .f32⟩
  | .hbm, ⟨66, _⟩ => ⟨S1000000x256, .f32⟩
  | .hbm, ⟨67, _⟩ => ⟨S_, .i32⟩
  | .hbm, ⟨68, _⟩ => ⟨S1000000, .i32⟩
  | .hbm, ⟨69, _⟩ => ⟨S1000000, .i1⟩
  | .hbm, ⟨70, _⟩ => ⟨S_, .i32⟩
  | .hbm, ⟨71, _⟩ => ⟨S1000000, .i32⟩
  | .hbm, ⟨72, _⟩ => ⟨S1000000, .i32⟩
  | .hbm, ⟨73, _⟩ => ⟨S1000000, .i32⟩
  | .hbm, ⟨74, _⟩ => ⟨S1000000x1, .i32⟩
  | .hbm, ⟨75, _⟩ => ⟨S1000000x256, .f32⟩
  | .hbm, ⟨76, _⟩ => ⟨S1000000x256, .f32⟩
  | .hbm, ⟨77, _⟩ => ⟨S_, .f32⟩
  | .hbm, ⟨78, _⟩ => ⟨S100000x256, .f32⟩
  | .hbm, ⟨79, _⟩ => ⟨S1000000x1, .i32⟩
  | .hbm, ⟨80, _⟩ => ⟨S100000x256, .f32⟩
  | .hbm, ⟨81, _⟩ => ⟨S_, .f32⟩
  | .hbm, ⟨82, _⟩ => ⟨S1000000x1, .f32⟩
  | .hbm, ⟨83, _⟩ => ⟨S_, .f32⟩
  | .hbm, ⟨84, _⟩ => ⟨S100000x1, .f32⟩
  | .hbm, ⟨85, _⟩ => ⟨S1000000x1, .i32⟩
  | .hbm, ⟨86, _⟩ => ⟨S100000x1, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S100000x256, .f32⟩
  | .hbm, ⟨91, _⟩ => ⟨S100000x256, .f32⟩
  | .hbm, ⟨92, _⟩ => ⟨S100000x512, .f32⟩
  | .hbm, ⟨93, _⟩ => ⟨S100000x512, .f32⟩
  | .hbm, ⟨94, _⟩ => ⟨S1x512, .f32⟩
  | .hbm, ⟨95, _⟩ => ⟨S100000x512, .f32⟩
  | .hbm, ⟨96, _⟩ => ⟨S100000x512, .f32⟩
  | .hbm, ⟨97, _⟩ => ⟨S_, .f32⟩
  | .hbm, ⟨98, _⟩ => ⟨S100000x512, .f32⟩
  | .hbm, ⟨99, _⟩ => ⟨S100000x512, .f32⟩
  | .hbm, ⟨100, _⟩ => ⟨S100000x2, .f32⟩
  | .hbm, ⟨101, _⟩ => ⟨S1x2, .f32⟩
  | .hbm, ⟨102, _⟩ => ⟨S100000x2, .f32⟩
  | .hbm, ⟨103, _⟩ => ⟨S100000x2, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_4 : Ref sig .tc := ⟨.hbm, 67, rfl⟩
abbrev main_v42 : Ref sig .tc := ⟨.hbm, 68, rfl⟩
abbrev main_v43 : Ref sig .tc := ⟨.hbm, 69, rfl⟩
abbrev main_c_5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S1000000x128_0_1 : S1x128.BroadcastsInDim S1000000x128 (![0, 1] : Fin 2 → Fin S1000000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1x256_S1000000x256_0_1 : S1x256.BroadcastsInDim S1000000x256 (![0, 1] : Fin 2 → Fin S1000000x256.rank)
  bcast_S100000x1_S100000x256_0_1 : S100000x1.BroadcastsInDim S100000x256 (![0, 1] : Fin 2 → Fin S100000x256.rank)
  concatenates_S100000x256_S100000x256_S100000x512_d1 : Shape.Concatenates [S100000x256, S100000x256] S100000x512 1
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x32_S32x128_S100000x128_1_0_0_1_n_n_wf : DotDims.WF S100000x32 S32x128 S100000x128 [1] [0] [0] [1] [] []
  dot_S1000000x2_S2x128_S1000000x128_1_0_0_1_n_n_wf : DotDims.WF S1000000x2 S2x128 S1000000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  dot_S100000x256_S256x256_S100000x256_1_0_0_1_n_n_wf : DotDims.WF S100000x256 S256x256 S100000x256 [1] [0] [0] [1] [] []
  dot_S1000000x2_S2x256_S1000000x256_1_0_0_1_n_n_wf : DotDims.WF S1000000x2 S2x256 S1000000x256 [1] [0] [0] [1] [] []
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S100000x512_S512x512_S100000x512_1_0_0_1_n_n_wf : DotDims.WF S100000x512 S512x512 S100000x512 [1] [0] [0] [1] [] []
  dot_S100000x512_S512x2_S100000x2_1_0_0_1_n_n_wf : DotDims.WF S100000x512 S512x2 S100000x2 [1] [0] [0] [1] [] []

variable [Facts₀]

def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S1000000x2_S2x128_S1000000x128_1_0_0_1_n_n : DotDims S1000000x2 S2x128 S1000000x128 where
  lhsContracting := [1]
  rhsContracting := [0]
  lhsNonContracting := [0]
  rhsNonContracting := [1]
  lhsBatch := []
  rhsBatch := []
  wf := dot_S1000000x2_S2x128_S1000000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S1000000x2_S2x256_S1000000x256_1_0_0_1_n_n : DotDims S1000000x2 S2x256 S1000000x256 where
  lhsContracting := [1]
  rhsContracting := [0]
  lhsNonContracting := [0]
  rhsNonContracting := [1]
  lhsBatch := []
  rhsBatch := []
  wf := dot_S1000000x2_S2x256_S1000000x256_1_0_0_1_n_n_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x512_S512x2_S100000x2_1_0_0_1_n_n : DotDims S100000x512 S512x2 S100000x2 where
  lhsContracting := [1]
  rhsContracting := [0]
  lhsNonContracting := [0]
  rhsNonContracting := [1]
  lhsBatch := []
  rhsBatch := []
  wf := dot_S100000x512_S512x2_S100000x2_1_0_0_1_n_n_wf

class Facts : Prop extends Facts₀ where

variable [Facts]
-- ==== Proof.Stages.lean ====
/-
  The kernel program's intermediate arrays as WHOLE-ARRAY functions of @main's arguments, at the extended reals.
  Each pallas_call's output is stated index by index (a row of a matrix product is a finite sum over the
  contracted coordinate); each stretch of host operations between two calls is stated as the operations' own term.
  The graph network: an encoder relu (x · W + b), two message-passing layers (per edge the gathered source
  row times an affine map of the edge attributes, summed onto the destination node, scaled by the reciprocal of
  the clamped in-degree, then relu (agg · Wa + h · Wh + b)) and a linear decoder.
-/
import proofs.«420280_j63763084477189_1_alg».proof.Proof.Gen.KernelIdeal
import Idealize.ShloMosaic.PureOps.Ideal
import Idealize.ShloMosaic.Lib.ValueIdx

noncomputable section

namespace Cert.KernelIdeal.Stage

open Idealize.ShloMosaic Idealize.ShloMosaic.ValueIdx Cert.KernelIdeal

/-- The float patterns of 0.0 and 1.0 as extended reals. -/
abbrev zero : EReal := Ideal.ofBits .f32 0x00000000#32
abbrev one : EReal := Ideal.ofBits .f32 0x3F800000#32

/-! ## The index vectors and the in-degree (host operations before the first call) -/

/-- Row 0 of the edge list: each edge's source node. -/
def src (a2 : IVec S2x1000000 32) : IVec S1000000 32 :=
  shapeCast S1000000 (extractStridedSlice S1x1000000 ![0, 0] a2 Gen.slices_S2x1000000_S1x1000000_0_0) Gen.shapeCasts_S1x1000000_S1000000

/-- Row 1 of the edge list: each edge's destination node. -/
def dst (a2 : IVec S2x1000000 32) : IVec S1000000 32 :=
  shapeCast S1000000 (extractStridedSlice S1x1000000 ![1, 0] a2 Gen.slices_S2x1000000_S1x1000000_1_0) Gen.shapeCasts_S1x1000000_S1000000

/-- The destination indices as a column of index vectors (what a scatter reads). -/
def dstCol (a2 : IVec S2x1000000 32) : IVec S1000000x1 32 :=
  broadcastInDim S1000000x1 ![0] Gen.bcast_S1000000_S1000000x1_0 (dst a2)

/-- The in-degree of every node as a column: ones scattered (added) onto zeros at the destinations. -/
def deg (a2 : IVec S2x1000000 32) : FVec Ideal S100000x1 .f32 :=
  broadcastInDim S100000x1 ![0] Gen.bcast_S100000_S100000x1_0
    (Host.scatterAdd scatter_S100000_S1000000x1_S1000000_n_0_0_1
      (broadcastInDim S100000 ![] Gen.bcast_S_S100000 (constant (F := Ideal) S_ .f32 0x00000000#32))
      (dstCol a2)
      (broadcastInDim S1000000 ![] Gen.bcast_S_S1000000 (constant (F := Ideal) S_ .f32 0x3F800000#32)))

/-! ## The encoder (call 0) -/

/-- relu (x · W + b), index by index. -/
def encode (x : FVec Ideal S100000x32 .f32) (w : FVec Ideal S32x128 .f32) (b : FVec Ideal S128 .f32) : FVec Ideal S100000x128 .f32 :=
  fun i => max ((∑ k : Fin 32, x (ix2 ⟨(i 0).val, (i 0).isLt⟩ k) * w (ix2 k ⟨(i 1).val, (i 1).isLt⟩)) + b (ix1 ⟨(i 1).val, (i 1).isLt⟩)) zero

/-! ## Layer 1 (feature width 128 to 256) -/

/-- The source index with a negative value wrapped once (i < 0 ? i + N : i), as a column. -/
def srcCol (a2 : IVec S2x1000000 32) : IVec S1000000x1 32 :=
  broadcastInDim S1000000x1 ![0] Gen.bcast_S1000000_S1000000x1_0
    (select (cmpi .slt (src a2) (broadcastInDim S1000000 ![] Gen.bcast_S_S1000000 (constantI S_ 32 0#32)))
      (addi (src a2) (broadcastInDim S1000000 ![] Gen.bcast_S_S1000000 (constantI S_ 32 100000#32)))
      (src a2))

/-- Per edge: is the wrapped source index inside [0, 99999]? -/
def srcOk (a2 : IVec S2x1000000 32) : IVec S1000000 1 :=
  Host.reduce IntOp.andi
    (andi (cmpi .sge (srcCol a2) (broadcastInDim S1000000x1 ![] Gen.bcast_S_S1000000x1 (constantI S_ 32 0#32)))
      (cmpi .sle (srcCol a2) (broadcastInDim S1000000x1 ![0, 1] Gen.bcast_S1x1_S1000000x1_0_1
        (broadcastInDim S1x1 ![1] Gen.bcast_S1_S1x1_1 (constantI S1 32 99999#32)))))
    (constantI S_ 1 1#1) Gen.reducesTo_S1000000x1_S1000000_d1 Gen.h_S_

/-- The rows of h at the edges' sources, a row whose index is out of range filled with the not-a-number pattern. -/
def take0 (h : FVec Ideal S100000x128 .f32) (a2 : IVec S2x1000000 32) : FVec Ideal S1000000x128 .f32 :=
  select (broadcastInDim S1000000x128 ![0] Gen.bcast_S1000000_S1000000x128_0 (srcOk a2))
    (Host.gather gather_S100000x128_S1000000x1_S1000000x128_1_0_n_n_0_1_1128 h (srcCol a2))
    (broadcastInDim S1000000x128 ![] Gen.bcast_S_S1000000x128 (constant (F := Ideal) S_ .f32 0x7FC00000#32))

/-- The message of every edge (call 1): the gathered row times (edge_attr · We + be). -/
def message0 (g : FVec Ideal S1000000x128 .f32) (ea : FVec Ideal S1000000x2 .f32) (ew : FVec Ideal S2x128 .f32) (eb : FVec Ideal S128 .f32) :
    FVec Ideal S1000000x128 .f32 :=
  fun i => g i * ((∑ k : Fin 2, ea (ix2 ⟨(i 0).val, (i 0).isLt⟩ k) * ew (ix2 k ⟨(i 1).val, (i 1).isLt⟩)) + eb (ix1 ⟨(i 1).val, (i 1).isLt⟩))

/-- The messages summed onto their destination nodes. -/
def scatter0 (a2 : IVec S2x1000000 32) (msg : FVec Ideal S1000000x128 .f32) : FVec Ideal S100000x128 .f32 :=
  Host.scatterAdd scatter_S100000x128_S1000000x1_S1000000x128_1_0_0_1
    (broadcastInDim S100000x128 ![] Gen.bcast_S_S100000x128 (constant (F := Ideal) S_ .f32 0x00000000#32)) (dstCol a2) msg

/-- The two halves of the layer's weight: rows [0, 128) meet the aggregate, rows [128, 256) the node's own features. -/
def wa0 (w : FVec Ideal S256x256 .f32) : FVec Ideal S128x256 .f32 := extractStridedSlice S128x256 ![0, 0] w Gen.slices_S256x256_S128x256_0_0
def wh0 (w : FVec Ideal S256x256 .f32) : FVec Ideal S128x256 .f32 := extractStridedSlice S128x256 ![128, 0] w Gen.slices_S256x256_S128x256_128_0

/-- Call 2: relu ((s · (1 / max deg 1)) · Wa + h · Wh + b), index by index. -/
def sage0 (s : FVec Ideal S100000x128 .f32) (d : FVec Ideal S100000x1 .f32) (h : FVec Ideal S100000x128 .f32)
    (wa wh : FVec Ideal S128x256 .f32) (b : FVec Ideal S256 .f32) : FVec Ideal S100000x256 .f32 :=
  fun i => max (((∑ k : Fin 128, (s (ix2 ⟨(i 0).val, (i 0).isLt⟩ k) * Ideal.div one (max (d (ix2 ⟨(i 0).val, (i 0).isLt⟩ 0)) one)) * wa (ix2 k ⟨(i 1).val, (i 1).isLt⟩))
      + (∑ k : Fin 128, h (ix2 ⟨(i 0).val, (i 0).isLt⟩ k) * wh (ix2 k ⟨(i 1).val, (i 1).isLt⟩))) + b (ix1 ⟨(i 1).val, (i 1).isLt⟩)) zero

/-! ## Layer 2 (feature width 256 to 512) -/

def take1 (h : FVec Ideal S100000x256 .f32) (a2 : IVec S2x1000000 32) : FVec Ideal S1000000x256 .f32 :=
  select (broadcastInDim S1000000x256 ![0] Gen.bcast_S1000000_S1000000x256_0 (srcOk a2))
    (Host.gather gather_S100000x256_S1000000x1_S1000000x256_1_0_n_n_0_1_1256 h (srcCol a2))
    (broadcastInDim S1000000x256 ![] Gen.bcast_S_S1000000x256 (constant (F := Ideal) S_ .f32 0x7FC00000#32))

def message1 (g : FVec Ideal S1000000x256 .f32) (ea : FVec Ideal S1000000x2 .f32) (ew : FVec Ideal S2x256 .f32) (eb : FVec Ideal S256 .f32) :
    FVec Ideal S1000000x256 .f32 :=
  fun i => g i * ((∑ k : Fin 2, ea (ix2 ⟨(i 0).val, (i 0).isLt⟩ k) * ew (ix2 k ⟨(i 1).val, (i 1).isLt⟩)) + eb (ix1 ⟨(i 1).val, (i 1).isLt⟩))

def scatter1 (a2 : IVec S2x1000000 32) (msg : FVec Ideal S1000000x256 .f32) : FVec Ideal S100000x256 .f32 :=
  Host.scatterAdd scatter_S100000x256_S1000000x1_S1000000x256_1_0_0_1
    (broadcastInDim S100000x256 ![] Gen.bcast_S_S100000x256 (constant (F := Ideal) S_ .f32 0x00000000#32)) (dstCol a2) msg

def wa1 (w : FVec Ideal S512x512 .f32) : FVec Ideal S256x512 .f32 := extractStridedSlice S256x512 ![0, 0] w Gen.slices_S512x512_S256x512_0_0
def wh1 (w : FVec Ideal S512x512 .f32) : FVec Ideal S256x512 .f32 := extractStridedSlice S256x512 ![256, 0] w Gen.slices_S512x512_S256x512_256_0

def sage1 (s : FVec Ideal S100000x256 .f32) (d : FVec Ideal S100000x1 .f32) (h : FVec Ideal S100000x256 .f32)
    (wa wh : FVec Ideal S256x512 .f32) (b : FVec Ideal S512 .f32) : FVec Ideal S100000x512 .f32 :=
  fun i => max (((∑ k : Fin 256, (s (ix2 ⟨(i 0).val, (i 0).isLt⟩ k) * Ideal.div one (max (d (ix2 ⟨(i 0).val, (i 0).isLt⟩ 0)) one)) * wa (ix2 k ⟨(i 1).val, (i 1).isLt⟩))
      + (∑ k : Fin 256, h (ix2 ⟨(i 0).val, (i 0).isLt⟩ k) * wh (ix2 k ⟨(i 1).val, (i 1).isLt⟩))) + b (ix1 ⟨(i 1).val, (i 1).isLt⟩)) zero

/-! ## The decoder (call 5) -/

/-- h · W + b, index by index. -/
def decode (h : FVec Ideal S100000x512 .f32) (w : FVec Ideal S512x2 .f32) (b : FVec Ideal S2 .f32) : FVec Ideal S100000x2 .f32 :=
  fun i => (∑ k : Fin 512, h (ix2 ⟨(i 0).val, (i 0).isLt⟩ k) * w (ix2 k ⟨(i 1).val, (i 1).isLt⟩)) + b (ix1 ⟨(i 1).val, (i 1).isLt⟩)

/-! ## The whole network as the kernel program computes it -/

section Net
variable (a0 : FVec Ideal S100000x32 .f32) (a1 : FVec Ideal S1000000x2 .f32) (a2 : IVec S2x1000000 32)
  (a3 : FVec Ideal S32x128 .f32) (a4 : FVec Ideal S128 .f32) (a5 : FVec Ideal S2x128 .f32) (a6 : FVec Ideal S128 .f32)
  (a7 : FVec Ideal S256x256 .f32) (a8 : FVec Ideal S256 .f32) (a9 : FVec Ideal S2x256 .f32) (a10 : FVec Ideal S256 .f32)
  (a11 : FVec Ideal S512x512 .f32) (a12 : FVec Ideal S512 .f32) (a13 : FVec Ideal S512x2 .f32) (a14 : FVec Ideal S2 .f32)

/-- Node features after the encoder. -/
def h0 : FVec Ideal S100000x128 .f32 := encode a0 a3 a4
/-- Layer 1's messages, their sums per node, and the node features after it. -/
def m0 : FVec Ideal S1000000x128 .f32 := message0 (take0 (h0 a0 a3 a4) a2) a1 a5 a6
def s0 : FVec Ideal S100000x128 .f32 := scatter0 a2 (m0 a0 a1 a2 a3 a4 a5 a6)
def h1 : FVec Ideal S100000x256 .f32 := sage0 (s0 a0 a1 a2 a3 a4 a5 a6) (deg a2) (h0 a0 a3 a4) (wa0 a7) (wh0 a7) a8
/-- Layer 2's. -/
def m1 : FVec Ideal S1000000x256 .f32 := message1 (take1 (h1 a0 a1 a2 a3 a4 a5 a6 a7 a8) a2) a1 a9 a10
def s1 : FVec Ideal S100000x256 .f32 := scatter1 a2 (m1 a0 a1 a2 a3 a4 a5 a6 a7 a8 a9 a10)
def h2 : FVec Ideal S100000x512 .f32 := sage1 (s1 a0 a1 a2 a3 a4 a5 a6 a7 a8 a9 a10) (deg a2) (h1 a0 a1 a2 a3 a4 a5 a6 a7 a8) (wa1 a11) (wh1 a11) a12
/-- The result. -/
def out : FVec Ideal S100000x2 .f32 := decode (h2 a0 a1 a2 a3 a4 a5 a6 a7 a8 a9 a10 a11 a12) a13 a14
end Net

end Cert.KernelIdeal.Stage

end
-- ==== Proof.RunDefs.lean ====
/-
  Names for @main's launch arguments on a core and for the network's intermediate arrays over them.
-/
import proofs.«420280_j63763084477189_1_alg».proof.Proof.Gen.KernelIdeal.Frame
import proofs.«420280_j63763084477189_1_alg».proof.Proof.Stages

noncomputable section

namespace Cert.KernelIdeal.Run

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Argument 0 of @main on core c, as launched. -/
abbrev A0 : FVec Ideal S100000x32 .f32 := m ((c : Thread nD τ).loc main_arg0)
/-- Argument 1 of @main on core c, as launched. -/
abbrev A1 : FVec Ideal S1000000x2 .f32 := m ((c : Thread nD τ).loc main_arg1)
/-- Argument 2 of @main on core c, as launched. -/
abbrev A2 : IVec S2x1000000 32 := m ((c : Thread nD τ).loc main_arg2)
/-- Argument 3 of @main on core c, as launched. -/
abbrev A3 : FVec Ideal S32x128 .f32 := m ((c : Thread nD τ).loc main_arg3)
/-- Argument 4 of @main on core c, as launched. -/
abbrev A4 : FVec Ideal S128 .f32 := m ((c : Thread nD τ).loc main_arg4)
/-- Argument 5 of @main on core c, as launched. -/
abbrev A5 : FVec Ideal S2x128 .f32 := m ((c : Thread nD τ).loc main_arg5)
/-- Argument 6 of @main on core c, as launched. -/
abbrev A6 : FVec Ideal S128 .f32 := m ((c : Thread nD τ).loc main_arg6)
/-- Argument 7 of @main on core c, as launched. -/
abbrev A7 : FVec Ideal S256x256 .f32 := m ((c : Thread nD τ).loc main_arg7)
/-- Argument 8 of @main on core c, as launched. -/
abbrev A8 : FVec Ideal S256 .f32 := m ((c : Thread nD τ).loc main_arg8)
/-- Argument 9 of @main on core c, as launched. -/
abbrev A9 : FVec Ideal S2x256 .f32 := m ((c : Thread nD τ).loc main_arg9)
/-- Argument 10 of @main on core c, as launched. -/
abbrev A10 : FVec Ideal S256 .f32 := m ((c : Thread nD τ).loc main_arg10)
/-- Argument 11 of @main on core c, as launched. -/
abbrev A11 : FVec Ideal S512x512 .f32 := m ((c : Thread nD τ).loc main_arg11)
/-- Argument 12 of @main on core c, as launched. -/
abbrev A12 : FVec Ideal S512 .f32 := m ((c : Thread nD τ).loc main_arg12)
/-- Argument 13 of @main on core c, as launched. -/
abbrev A13 : FVec Ideal S512x2 .f32 := m ((c : Thread nD τ).loc main_arg13)
/-- Argument 14 of @main on core c, as launched. -/
abbrev A14 : FVec Ideal S2 .f32 := m ((c : Thread nD τ).loc main_arg14)

/-- The network's arrays on core c. -/
abbrev H0 : FVec Ideal S100000x128 .f32 := Stage.h0 (A0 m c) (A3 m c) (A4 m c)
abbrev M0 : FVec Ideal S1000000x128 .f32 := Stage.m0 (A0 m c) (A1 m c) (A2 m c) (A3 m c) (A4 m c) (A5 m c) (A6 m c)
abbrev S0 : FVec Ideal S100000x128 .f32 := Stage.s0 (A0 m c) (A1 m c) (A2 m c) (A3 m c) (A4 m c) (A5 m c) (A6 m c)
abbrev H1 : FVec Ideal S100000x256 .f32 := Stage.h1 (A0 m c) (A1 m c) (A2 m c) (A3 m c) (A4 m c) (A5 m c) (A6 m c) (A7 m c) (A8 m c)
abbrev M1 : FVec Ideal S1000000x256 .f32 := Stage.m1 (A0 m c) (A1 m c) (A2 m c) (A3 m c) (A4 m c) (A5 m c) (A6 m c) (A7 m c) (A8 m c) (A9 m c) (A10 m c)
abbrev S1 : FVec Ideal S100000x256 .f32 := Stage.s1 (A0 m c) (A1 m c) (A2 m c) (A3 m c) (A4 m c) (A5 m c) (A6 m c) (A7 m c) (A8 m c) (A9 m c) (A10 m c)
abbrev H2 : FVec Ideal S100000x512 .f32 := Stage.h2 (A0 m c) (A1 m c) (A2 m c) (A3 m c) (A4 m c) (A5 m c) (A6 m c) (A7 m c) (A8 m c) (A9 m c) (A10 m c) (A11 m c) (A12 m c)
abbrev Out : FVec Ideal S100000x2 .f32 := Stage.out (A0 m c) (A1 m c) (A2 m c) (A3 m c) (A4 m c) (A5 m c) (A6 m c) (A7 m c) (A8 m c) (A9 m c) (A10 m c) (A11 m c) (A12 m c) (A13 m c) (A14 m c)

end Cert.KernelIdeal.Run

end
-- ==== Proof.Region0.lean ====
/- The encoder region: the output array after the run is relu (x · W + b) of the region's input arrays, index by index. Each grid point writes back one block of 2000 rows; inside a block an entry is the row sum over the 32 contracted columns plus the bias, clamped at zero; the blocks tile the array, so reading every block back gives the whole-array function. -/
import proofs.«420280_j63763084477189_1_alg».proof.Proof.Gen.KernelIdeal.Frame
import proofs.«420280_j63763084477189_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## One block of the encoder: relu (x · W + b) at an index of the block -/

/-- The product's left operand is read at the output's row ... -/
theorem lhs_encode_0 (i : S2000x128.Idx) (q : dot_S2000x32_S32x128_S2000x128_1_0_0_1_n_n.contr.Idx) :
    (dot_S2000x32_S32x128_S2000x128_1_0_0_1_n_n.lhsIdx i q 0).val = (i 0).val := by
  unfold DotDims.lhsIdx
  rw [dif_neg (show ¬(0 : Fin S2000x32.rank) ∈ dot_S2000x32_S32x128_S2000x128_1_0_0_1_n_n.lhsBatch by decide), dif_pos (show (0 : Fin S2000x32.rank) ∈ dot_S2000x32_S32x128_S2000x128_1_0_0_1_n_n.lhsNonContracting by decide)]
  rfl
/-- ... and the contracted coordinate, -/
theorem lhs_encode_1 (i : S2000x128.Idx) (q : dot_S2000x32_S32x128_S2000x128_1_0_0_1_n_n.contr.Idx) :
    (dot_S2000x32_S32x128_S2000x128_1_0_0_1_n_n.lhsIdx i q 1).val = (q ⟨0, by decide⟩).val :=
  dot_S2000x32_S32x128_S2000x128_1_0_0_1_n_n.lhsIdx_val_of_single rfl i q
/-- the right operand at the contracted coordinate ... -/
theorem rhs_encode_0 (i : S2000x128.Idx) (q : dot_S2000x32_S32x128_S2000x128_1_0_0_1_n_n.contr.Idx) :
    (dot_S2000x32_S32x128_S2000x128_1_0_0_1_n_n.rhsIdx i q 0).val = (q ⟨0, by decide⟩).val :=
  dot_S2000x32_S32x128_S2000x128_1_0_0_1_n_n.rhsIdx_val_of_single rfl i q
/-- ... and the output's column. -/
theorem rhs_encode_1 (i : S2000x128.Idx) (q : dot_S2000x32_S32x128_S2000x128_1_0_0_1_n_n.contr.Idx) :
    (dot_S2000x32_S32x128_S2000x128_1_0_0_1_n_n.rhsIdx i q 1).val = (i 1).val := by
  unfold DotDims.rhsIdx
  rw [dif_neg (show ¬(1 : Fin S32x128.rank) ∈ dot_S2000x32_S32x128_S2000x128_1_0_0_1_n_n.rhsBatch by decide), dif_pos (show (1 : Fin S32x128.rank) ∈ dot_S2000x32_S32x128_S2000x128_1_0_0_1_n_n.rhsNonContracting by decide)]
  rfl

/-- The matrix product into the zero accumulator, at (p, q): the sum over the 32 contracted coordinates of
    x (p, k) · w (k, q). -/
theorem product_encode (x : FVec Ideal S2000x32 .f32) (w : FVec Ideal S32x128 .f32) (p : Fin 2000) (q : Fin 128) :
    matmul dot_S2000x32_S32x128_S2000x128_1_0_0_1_n_n none x w (constant (F := Ideal) S2000x128 .f32 0x00000000#32) (ix2 p q)
      = ∑ k : Fin 32, x (ix2 p k) * w (ix2 k q) := by
  show FloatOps.matmul dot_S2000x32_S32x128_S2000x128_1_0_0_1_n_n none x w (constant S2000x128 .f32 0x00000000#32) (ix2 p q) = _
  rw [Ideal.matmul_constant_zero_apply, ← Equiv.sum_comp (ValueIdx.contrEquiv1 dot_S2000x32_S32x128_S2000x128_1_0_0_1_n_n 32 rfl rfl).symm]
  refine Finset.sum_congr rfl fun k _ => ?_
  have hk := ValueIdx.contrEquiv1_symm_val dot_S2000x32_S32x128_S2000x128_1_0_0_1_n_n 32 rfl rfl k
  have el : dot_S2000x32_S32x128_S2000x128_1_0_0_1_n_n.lhsIdx (ix2 p q) ((ValueIdx.contrEquiv1 dot_S2000x32_S32x128_S2000x128_1_0_0_1_n_n 32 rfl rfl).symm k) = ix2 p k := funext fun a => Fin.ext (by
    match a with
    | ⟨0, _⟩ => exact lhs_encode_0 _ _
    | ⟨1, _⟩ => exact (lhs_encode_1 _ _).trans hk)
  have er : dot_S2000x32_S32x128_S2000x128_1_0_0_1_n_n.rhsIdx (ix2 p q) ((ValueIdx.contrEquiv1 dot_S2000x32_S32x128_S2000x128_1_0_0_1_n_n 32 rfl rfl).symm k) = ix2 k q := funext fun a => Fin.ext (by
    match a with
    | ⟨0, _⟩ => exact (rhs_encode_0 _ _).trans hk
    | ⟨1, _⟩ => exact rhs_encode_1 _ _)
  rw [el, er]

/-- The block the body stores, at (p, q): relu of the row of x times the column of w plus the bias at q. -/
theorem block_encode (x : Vec Ideal S2000x32 .f32) (w : Vec Ideal S32x128 .f32) (b : Vec Ideal S128 .f32) (p : Fin 2000) (q : Fin 128) :
    k0_pay1 (F := Ideal) x w b (ix2 p q) = max ((∑ k : Fin 32, x (ix2 p k) * w (ix2 k q)) + b (ix1 q)) Stage.zero := by
  unfold k0_pay1
  simp only [maximumf_apply, addf_apply, broadcast_apply]
  rw [product_encode, broadcastTo_1b_ab_apply, shapeCast_a_1a_apply]
  rfl

/-! ## From the blocks to the array: the 50 row tiles of 2000 rows fill the 100000 rows -/

theorem origin2 : (![0, 0] : Fin 2 → Nat) = fun _ => 0 := funext fun a => by fin_cases a <;> rfl
theorem origin1 : (![0] : Fin 1 → Nat) = fun _ => 0 := funext fun a => by fin_cases a <;> rfl

/-- The printed index maps over the grid: the rows of x and of the result are tiled by the point, the
    weight and the bias are whole at every point. -/
theorem tiles_encode : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) ≤ 49
    ∧ win0_3.index t (1 : Fin 2) = 0 :=
  (by decide +kernel : ∀ t : Fin grid0.N, _)

/-- Every row tile is some point's. -/
theorem tiles_encode_onto : ∀ (r : Fin 50), ∃ t : Fin cfg0.N, win0_3.index t = ![r.val, 0] :=
  (by decide +kernel : ∀ (r : Fin 50), ∃ t : Fin grid0.N, win0_3.index t = ![r.val, 0])

/-- The block at any index of its shape, coordinates named. -/
theorem block_encode_at (x : Vec Ideal S2000x32 .f32) (w : Vec Ideal S32x128 .f32) (b : Vec Ideal S128 .f32) (j : S2000x128.Idx) :
    k0_pay1 (F := Ideal) x w b j
      = max ((∑ k : Fin 32, x (ix2 ⟨(j 0).val, (j 0).isLt⟩ k) * w (ix2 k ⟨(j 1).val, (j 1).isLt⟩)) + b (ix1 ⟨(j 1).val, (j 1).isLt⟩)) Stage.zero := by
  obtain ⟨p, q, rfl⟩ : ∃ (p : Fin 2000) (q : Fin 128), j = ix2 p q := ⟨j 0, j 1, eq_ix2 j⟩
  exact block_encode x w b p q

/-- A block whose rows are rows of x from row i 0 on, beside the whole weight and bias, holds the encoder's result
    at the array index i, for the block index j that names the same row and column. -/
theorem tile_encode (A : FVec Ideal S100000x32 .f32) (W : FVec Ideal S32x128 .f32) (B : FVec Ideal S128 .f32)
    (x : Vec Ideal S2000x32 .f32) (w : Vec Ideal S32x128 .f32) (b : Vec Ideal S128 .f32)
    (j : S2000x128.Idx) (i : S100000x128.Idx)
    (hx : ∀ k : Fin 32, x (ix2 ⟨(j 0).val, (j 0).isLt⟩ k) = A (ix2 ⟨(i 0).val, (i 0).isLt⟩ k))
    (hw : ∀ k : Fin 32, w (ix2 k ⟨(j 1).val, (j 1).isLt⟩) = W (ix2 k ⟨(i 1).val, (i 1).isLt⟩))
    (hb : b (ix1 ⟨(j 1).val, (j 1).isLt⟩) = B (ix1 ⟨(i 1).val, (i 1).isLt⟩)) :
    k0_pay1 (F := Ideal) x w b j = Stage.encode A W B i := by
  rw [block_encode_at]
  show _ = max ((∑ k : Fin 32, A (ix2 ⟨(i 0).val, (i 0).isLt⟩ k) * W (ix2 k ⟨(i 1).val, (i 1).isLt⟩)) + B (ix1 ⟨(i 1).val, (i 1).isLt⟩)) Stage.zero
  rw [hb]
  refine congrArg (fun s => max (s + _) Stage.zero) (Finset.sum_congr rfl fun k _ => ?_)
  rw [hx k, hw k]

/-- WHAT POINT t WRITES BACK is block t of the encoder's result as a function of the arrays the region finds. -/
theorem flushed_encode (c : Dev nD) (t : Fin cfg0.N) :
    (dat0 (F := Ideal) V c).flushed 3 t
      = ((cfg0.win 3).blk t).view.read (Elt Ideal) (Stage.encode (V c main_arg0) (V c main_arg3) (V c main_arg4)) := by
  show (cfg0.win 3).cut (grid0.coords t) ((dat0 V c).after 3 t) = _
  rw [after0_3]
  unfold out0_3
  rw [View.canon_unit_zero origin2]
  simp only [View.ld_unit_zero (S := S2000x32) origin2, View.ld_unit_zero (S := S32x128) origin2, View.ld_unit_zero (S := S128) origin1]
  obtain ⟨e0, e1, e2, e3, e4, e5, e6⟩ := tiles_encode t
  funext j
  refine tile_encode (V c main_arg0) (V c main_arg3) (V c main_arg4) _ _ _ j (((cfg0.win 3).blk t).view.emb j) (fun k => ?_) (fun k => ?_) ?_
  · show V c main_arg0 (((cfg0.win 0).blk t).view.emb (ix2 ⟨(j 0).val, (j 0).isLt⟩ k)) = _
    refine congrArg _ (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 32 + 1 * k.val = k.val; omega
  · show V c main_arg3 (((cfg0.win 1).blk t).view.emb (ix2 k ⟨(j 1).val, (j 1).isLt⟩)) = _
    refine congrArg _ (funext fun a => Fin.ext ?_)
    match a with
    | ⟨0, _⟩ => show win0_1.index t (0 : Fin 2) * 32 + 1 * k.val = k.val; omega
    | ⟨1, _⟩ => show win0_1.index t (1 : Fin 2) * 128 + 1 * (j 1).val = win0_3.index t (1 : Fin 2) * 128 + 1 * (j 1).val; omega
  · show V c main_arg4 (((cfg0.win 2).blk t).view.emb (ix1 ⟨(j 1).val, (j 1).isLt⟩)) = _
    refine congrArg _ (funext fun a => Fin.ext ?_)
    match a with
    | ⟨0, _⟩ => show win0_2.index t (0 : Fin 1) * 128 + 1 * (j 1).val = win0_3.index t (1 : Fin 2) * 128 + 1 * (j 1).val; omega

/-- An index of the array is in point t's block iff each coordinate is in the block's range on its axis. -/
theorem mem_tile_encode (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v9).slice (win0_3.rect t)).set ↔ _
  rw [View.set_slice_whole, Rect.mem_set_unit]
  exact Iff.rfl

/-- Row r of the array lies in the tile of point r / 2000: the tiles cover the array. -/
theorem cover_encode (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := tiles_encode_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_tile_encode]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem final0 (c : Dev nD) :
    (dat0 (F := Ideal) V c).arrAt 3 cfg0.N = Stage.encode (V c main_arg0) (V c main_arg3) (V c main_arg4) :=
  (dat0 (F := Ideal) V c).arrAt_eq_of_cover 3 _ (fun t _ => flushed_encode V c t) cover_encode

end Cert.KernelIdeal.Region

end
-- ==== Proof.Region1.lean ====
/- The message region of layer 1: the output array after the run is, per edge and column, the gathered source row's entry times (edge_attr · We + be). Each grid point writes back one block of 4000 edge rows; an entry is a product with a two-term sum plus the bias; the blocks tile the array. -/
import proofs.«420280_j63763084477189_1_alg».proof.Proof.Gen.KernelIdeal.Frame
import proofs.«420280_j63763084477189_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's payload at an index -/

/-- The product's operand indices at output index `i` and contraction index `q`: the left operand is read at
    row `i 0`, column `q`; the right operand at row `q`, column `i 1`. -/
theorem lhs_edge1_0 (i : S4000x128.Idx) (q : dot_S4000x2_S2x128_S4000x128_1_0_0_1_n_n.contr.Idx) :
    (dot_S4000x2_S2x128_S4000x128_1_0_0_1_n_n.lhsIdx i q 0).val = (i 0).val := by
  unfold DotDims.lhsIdx
  rw [dif_neg (show ¬(0 : Fin S4000x2.rank) ∈ dot_S4000x2_S2x128_S4000x128_1_0_0_1_n_n.lhsBatch by decide), dif_pos (show (0 : Fin S4000x2.rank) ∈ dot_S4000x2_S2x128_S4000x128_1_0_0_1_n_n.lhsNonContracting by decide)]
  rfl
theorem lhs_edge1_1 (i : S4000x128.Idx) (q : dot_S4000x2_S2x128_S4000x128_1_0_0_1_n_n.contr.Idx) :
    (dot_S4000x2_S2x128_S4000x128_1_0_0_1_n_n.lhsIdx i q 1).val = (q ⟨0, by decide⟩).val :=
  dot_S4000x2_S2x128_S4000x128_1_0_0_1_n_n.lhsIdx_val_of_single rfl i q
theorem rhs_edge1_0 (i : S4000x128.Idx) (q : dot_S4000x2_S2x128_S4000x128_1_0_0_1_n_n.contr.Idx) :
    (dot_S4000x2_S2x128_S4000x128_1_0_0_1_n_n.rhsIdx i q 0).val = (q ⟨0, by decide⟩).val :=
  dot_S4000x2_S2x128_S4000x128_1_0_0_1_n_n.rhsIdx_val_of_single rfl i q
theorem rhs_edge1_1 (i : S4000x128.Idx) (q : dot_S4000x2_S2x128_S4000x128_1_0_0_1_n_n.contr.Idx) :
    (dot_S4000x2_S2x128_S4000x128_1_0_0_1_n_n.rhsIdx i q 1).val = (i 1).val := by
  unfold DotDims.rhsIdx
  rw [dif_neg (show ¬(1 : Fin S2x128.rank) ∈ dot_S4000x2_S2x128_S4000x128_1_0_0_1_n_n.rhsBatch by decide), dif_pos (show (1 : Fin S2x128.rank) ∈ dot_S4000x2_S2x128_S4000x128_1_0_0_1_n_n.rhsNonContracting by decide)]
  rfl

/-- The edge attributes' block times the edge weight, into the zero accumulator, at row `p` and column `q`:
    the sum over the two attribute coordinates. -/
theorem edge_product1_apply (ea : FVec Ideal S4000x2 .f32) (w : FVec Ideal S2x128 .f32) (p : Fin 4000) (q : Fin 128) :
    FloatOps.matmul dot_S4000x2_S2x128_S4000x128_1_0_0_1_n_n none ea w (constant (F := Ideal) S4000x128 .f32 0x00000000#32) (ix2 p q)
      = ∑ k : Fin 2, ea (ix2 p k) * w (ix2 k q) := by
  rw [Ideal.matmul_constant_zero_apply, ← Equiv.sum_comp (ValueIdx.contrEquiv1 dot_S4000x2_S2x128_S4000x128_1_0_0_1_n_n 2 rfl rfl).symm]
  refine Finset.sum_congr rfl fun k _ => ?_
  have hk := ValueIdx.contrEquiv1_symm_val dot_S4000x2_S2x128_S4000x128_1_0_0_1_n_n 2 rfl rfl k
  have el : dot_S4000x2_S2x128_S4000x128_1_0_0_1_n_n.lhsIdx (ix2 p q) ((ValueIdx.contrEquiv1 dot_S4000x2_S2x128_S4000x128_1_0_0_1_n_n 2 rfl rfl).symm k) = ix2 p k := funext fun a => Fin.ext (by
    match a with
    | ⟨0, _⟩ => exact lhs_edge1_0 _ _
    | ⟨1, _⟩ => exact (lhs_edge1_1 _ _).trans hk)
  have er : dot_S4000x2_S2x128_S4000x128_1_0_0_1_n_n.rhsIdx (ix2 p q) ((ValueIdx.contrEquiv1 dot_S4000x2_S2x128_S4000x128_1_0_0_1_n_n 2 rfl rfl).symm k) = ix2 k q := funext fun a => Fin.ext (by
    match a with
    | ⟨0, _⟩ => exact (rhs_edge1_0 _ _).trans hk
    | ⟨1, _⟩ => exact rhs_edge1_1 _ _)
  rw [el, er]

/-- The bias, seen as one row and repeated down the rows, reads the bias at the column. -/
theorem bias_rows1_apply (b : FVec Ideal S128 .f32) (p : Fin 4000) (q : Fin 128) :
    broadcastTo S4000x128 (shapeCast S1x128 b shapeCasts_S128_S1x128) broadcasts_S1x128_S4000x128 (ix2 p q) = b (ix1 q) := by
  rw [broadcastTo_apply _ broadcasts_S1x128_S4000x128 (ix2 p q) (ix2 (0 : Fin 1) q) (fun a => by
    match a with
    | ⟨0, _⟩ => rfl
    | ⟨1, _⟩ => rfl)]
  exact shapeCast_apply b shapeCasts_S128_S1x128 (ix2 (0 : Fin 1) q) (ix1 q)
    (by rewrite [Shape.rowMajor_val_two, Shape.rowMajor_val_one]; show q.val = 0 * 128 + q.val; omega)

/-- The stored block at row `p`, column `q`: the gathered row's entry times the affine map of the edge's attributes. -/
theorem message_block1_apply (ea : Vec Ideal S4000x2 .f32) (w : Vec Ideal S2x128 .f32) (b : Vec Ideal S128 .f32)
    (g : Vec Ideal S4000x128 .f32) (p : Fin 4000) (q : Fin 128) :
    k1_pay1 (F := Ideal) ea w b g (ix2 p q)
      = g (ix2 p q) * ((∑ k : Fin 2, ea (ix2 p k) * w (ix2 k q)) + b (ix1 q)) := by
  unfold k1_pay1
  simp only [matmul]
  rw [mulf_apply, addf_apply, shapeCast_self, edge_product1_apply, bias_rows1_apply]

/-! ## From the blocks to the array -/

/-- The zero offsets, as the constant function. -/
theorem zero_off1_2 : (![0, 0] : Fin 2 → Nat) = fun _ => 0 := funext fun a => by fin_cases a <;> rfl
theorem zero_off1_1 : (![0] : Fin 1 → Nat) = fun _ => 0 := funext fun a => by fin_cases a <;> rfl

/-- The stored block at any index of the block, the index's coordinates spelt out. -/
theorem message_block1_eq (ea : Vec Ideal S4000x2 .f32) (w : Vec Ideal S2x128 .f32) (b : Vec Ideal S128 .f32)
    (g : Vec Ideal S4000x128 .f32) (j : S4000x128.Idx) :
    k1_pay1 (F := Ideal) ea w b g j
      = g j * ((∑ k : Fin 2, ea (ix2 ⟨(j 0).val, (j 0).isLt⟩ k) * w (ix2 k ⟨(j 1).val, (j 1).isLt⟩)) + b (ix1 ⟨(j 1).val, (j 1).isLt⟩)) := by
  obtain ⟨p, q, rfl⟩ : ∃ (p : Fin 4000) (q : Fin 128), j = ix2 p q := ⟨j 0, j 1, eq_ix2 j⟩
  exact message_block1_apply ea w b g p q

/-- The block indices over the grid: the row-tiled windows (gathered rows, edge attributes, messages) are at block
    row `t`, block column 0, at point `t`; the weight and the bias stay at block 0. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Where each input block's entries sit in their arrays, against the place `i` of the output block's entry `j`:
    the gathered rows' block at the same place; -/
theorem gathered_place1 (t : Fin cfg1.N) (j : S4000x128.Idx) :
    ((cfg1.win 0).blk t).view.emb j = ((cfg1.win 4).blk t).view.emb j := by
  obtain ⟨e00, e01, -, -, -, -, -, e40, e41⟩ := block_index1 t
  funext a; apply Fin.ext
  match a with
  | ⟨0, _⟩ => show win1_0.index t (0 : Fin 2) * 4000 + 1 * (j 0).val = win1_4.index t (0 : Fin 2) * 4000 + 1 * (j 0).val; omega
  | ⟨1, _⟩ => show win1_0.index t (1 : Fin 2) * 128 + 1 * (j 1).val = win1_4.index t (1 : Fin 2) * 128 + 1 * (j 1).val; omega

/-- the edge attributes' block at row `i 0`, the attribute coordinate kept; -/
theorem attr_place1 (t : Fin cfg1.N) (j : S4000x128.Idx) (k : Fin 2) :
    ((cfg1.win 1).blk t).view.emb (ix2 ⟨(j 0).val, (j 0).isLt⟩ k)
      = ix2 ⟨((((cfg1.win 4).blk t).view.emb j) 0).val, ((((cfg1.win 4).blk t).view.emb j) 0).isLt⟩ k := by
  obtain ⟨-, -, e10, e11, -, -, -, e40, e41⟩ := block_index1 t
  funext a; apply Fin.ext
  match a with
  | ⟨0, _⟩ => show win1_1.index t (0 : Fin 2) * 4000 + 1 * (j 0).val = win1_4.index t (0 : Fin 2) * 4000 + 1 * (j 0).val; omega
  | ⟨1, _⟩ => show win1_1.index t (1 : Fin 2) * 2 + 1 * k.val = k.val; omega

/-- the weight's block (the whole weight) at column `i 1`; -/
theorem weight_place1 (t : Fin cfg1.N) (j : S4000x128.Idx) (k : Fin 2) :
    ((cfg1.win 2).blk t).view.emb (ix2 k ⟨(j 1).val, (j 1).isLt⟩)
      = ix2 k ⟨((((cfg1.win 4).blk t).view.emb j) 1).val, ((((cfg1.win 4).blk t).view.emb j) 1).isLt⟩ := by
  obtain ⟨-, -, -, -, e20, e21, -, e40, e41⟩ := block_index1 t
  funext a; apply Fin.ext
  match a with
  | ⟨0, _⟩ => show win1_2.index t (0 : Fin 2) * 2 + 1 * k.val = k.val; omega
  | ⟨1, _⟩ => show win1_2.index t (1 : Fin 2) * 128 + 1 * (j 1).val = win1_4.index t (1 : Fin 2) * 128 + 1 * (j 1).val; omega

/-- the bias's block (the whole bias) at column `i 1`. -/
theorem bias_place1 (t : Fin cfg1.N) (j : S4000x128.Idx) :
    ((cfg1.win 3).blk t).view.emb (ix1 ⟨(j 1).val, (j 1).isLt⟩)
      = ix1 ⟨((((cfg1.win 4).blk t).view.emb j) 1).val, ((((cfg1.win 4).blk t).view.emb j) 1).isLt⟩ := by
  obtain ⟨-, -, -, -, -, -, e30, e40, e41⟩ := block_index1 t
  funext a; apply Fin.ext
  match a with
  | ⟨0, _⟩ => show win1_3.index t (0 : Fin 1) * 128 + 1 * (j 1).val = win1_4.index t (1 : Fin 2) * 128 + 1 * (j 1).val; omega

/-- The blocks' entries combined are the message at the output entry's place, for any four arrays. -/
theorem message_at_place1 (t : Fin cfg1.N) (j : S4000x128.Idx)
    (G : FVec Ideal S1000000x128 .f32) (EA : FVec Ideal S1000000x2 .f32) (W : FVec Ideal S2x128 .f32) (B : FVec Ideal S128 .f32) :
    G (((cfg1.win 0).blk t).view.emb j)
      * ((∑ k : Fin 2, EA (((cfg1.win 1).blk t).view.emb (ix2 ⟨(j 0).val, (j 0).isLt⟩ k))
            * W (((cfg1.win 2).blk t).view.emb (ix2 k ⟨(j 1).val, (j 1).isLt⟩)))
          + B (((cfg1.win 3).blk t).view.emb (ix1 ⟨(j 1).val, (j 1).isLt⟩)))
    = Stage.message0 G EA W B (((cfg1.win 4).blk t).view.emb j) := by
  have hs : (∑ k : Fin 2, EA (((cfg1.win 1).blk t).view.emb (ix2 ⟨(j 0).val, (j 0).isLt⟩ k))
        * W (((cfg1.win 2).blk t).view.emb (ix2 k ⟨(j 1).val, (j 1).isLt⟩)))
      = ∑ k : Fin 2, EA (ix2 ⟨((((cfg1.win 4).blk t).view.emb j) 0).val, ((((cfg1.win 4).blk t).view.emb j) 0).isLt⟩ k)
        * W (ix2 k ⟨((((cfg1.win 4).blk t).view.emb j) 1).val, ((((cfg1.win 4).blk t).view.emb j) 1).isLt⟩) :=
    Finset.sum_congr rfl fun k _ =>
      congrArg₂ (· * ·) (congrArg EA (attr_place1 t j k)) (congrArg W (weight_place1 t j k))
  rw [gathered_place1, bias_place1, hs]
  rfl

/-- What point `t` writes back is block `t` of the messages of the whole arrays. -/
theorem flushed1_eq (c : Dev nD) (t : Fin cfg1.N) :
    (dat1 (F := Ideal) V c).flushed 4 t = ((cfg1.win 4).blk t).view.read (Elt Ideal)
      (Stage.message0 (V c main_v10) (V c main_arg1) (V c main_arg5) (V c main_arg6)) := by
  show (cfg1.win 4).cut (grid1.coords t) ((dat1 V c).after 4 t) = _
  rw [after1_4]
  unfold out1_4
  rw [View.canon_unit_zero zero_off1_2]
  simp only [View.ld_unit_zero (S := S4000x2) zero_off1_2, View.ld_unit_zero (S := S2x128) zero_off1_2,
    View.ld_unit_zero (S := S128) zero_off1_1, View.ld_unit_zero (S := S4000x128) zero_off1_2]
  funext j
  refine (message_block1_eq _ _ _ _ j).trans ?_
  exact message_at_place1 t j (V c main_v10) (V c main_arg1) (V c main_arg5) (V c main_arg6)

/-- An index of the array is in point `t`'s block iff each coordinate is in the block's range on its axis. -/
theorem mem_block1 (t : Fin cfg1.N) (i : S1000000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v11).slice (win1_4.rect t)).set ↔ _
  rw [View.set_slice_whole, Rect.mem_set_unit]
  exact Iff.rfl

/-- Every edge row lies in a block: row `r` is written back at point `r / 4000`. -/
theorem cover1 (i : S1000000x128.Idx) :
    ∃ t : Fin cfg1.N, (cfg1.win 4).flush t = true ∧ i ∈ ((cfg1.win 4).blk t).view.set := by
  have hi0 : (i 0).val < 1000000 := (i 0).isLt
  have hi1 : (i 1).val < 128 := (i 1).isLt
  have ht : (i 0).val / 4000 < 250 := by omega
  obtain ⟨-, -, -, -, -, -, -, e40, e41⟩ := block_index1 ⟨(i 0).val / 4000, ht⟩
  have e40' : win1_4.index ⟨(i 0).val / 4000, ht⟩ (0 : Fin 2) = (i 0).val / 4000 := e40
  refine ⟨⟨(i 0).val / 4000, ht⟩, flush1_4 _, ?_⟩
  rw [mem_block1]
  intro a
  match a with
  | ⟨0, _⟩ => show win1_4.index ⟨(i 0).val / 4000, ht⟩ (0 : Fin 2) * 4000 ≤ (i 0).val ∧ (i 0).val < win1_4.index ⟨(i 0).val / 4000, ht⟩ (0 : Fin 2) * 4000 + 4000; omega
  | ⟨1, _⟩ => show win1_4.index ⟨(i 0).val / 4000, ht⟩ (1 : Fin 2) * 128 ≤ (i 1).val ∧ (i 1).val < win1_4.index ⟨(i 0).val / 4000, ht⟩ (1 : Fin 2) * 128 + 128; omega

/-- The messages' array after the region: every edge's gathered row times the affine map of its attributes. -/
theorem final1 (c : Dev nD) :
    (dat1 (F := Ideal) V c).arrAt 4 cfg1.N = Stage.message0 (V c main_v10) (V c main_arg1) (V c main_arg5) (V c main_arg6) :=
  (dat1 (F := Ideal) V c).arrAt_eq_of_cover 4 _ (fun t _ => flushed1_eq V c t) cover1

end Cert.KernelIdeal.Region

end
-- ==== Proof.RunA.lean ====
/- The contents of the buffers the later regions and host stretches read, at the first five segment boundaries. -/
import proofs.«420280_j63763084477189_1_alg».proof.Proof.Gen.KernelIdeal.Frame
import proofs.«420280_j63763084477189_1_alg».proof.Proof.Stages
import proofs.«420280_j63763084477189_1_alg».proof.Proof.RunDefs
import proofs.«420280_j63763084477189_1_alg».proof.Proof.Region0
import proofs.«420280_j63763084477189_1_alg».proof.Proof.Region1
import Idealize.ShloMosaic.Lib.StableHlo.Run

set_option maxRecDepth 16384

noncomputable section

namespace Cert.KernelIdeal.Run

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## Buffers a segment does not write

Every operation of a host stretch writes exactly one reference, so a buffer whose reference differs from each of
them holds after the stretch what it held before; a region rewrites only its windows' arrays. The lemmas of this
section compose these two facts along the first five boundaries, for an arbitrary reference `r`; the side
conditions are comparisons of literal references. -/

/-- No operation of the named host stretch writes the goal's reference: the stretch is a literal list, each
    operation's written set is a singleton, and the references are told apart by their numbers. -/
local macro "not_written " ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

section Carry

variable (r : Ref sig .tc)

/-- From the launch to region 0's entry. -/
theorem at1_of_launch
    (h0 : ∀ op ∈ (hostOps0 : List (HloOp τ sig (Elt Ideal))), Proc.devRef .tc r ∉ op.writes) :
    W1 m ρ c (Proc.devRef .tc r) = W0 m ρ c (Proc.devRef .tc r) :=
  StableHlo.after_of_forall_not_mem _ _ h0

/-- From the launch to region 0's exit. -/
theorem at2_of_launch
    (h0 : ∀ op ∈ (hostOps0 : List (HloOp τ sig (Elt Ideal))), Proc.devRef .tc r ∉ op.writes)
    (n0 : ∀ w, Pipeline.arrRef spec0 w ≠ r) :
    W2 m ρ c (Proc.devRef .tc r) = W0 m ρ c (Proc.devRef .tc r) :=
  (W2_of_ne m ρ c r n0).trans (at1_of_launch m ρ c r h0)

/-- From region 0's exit to region 1's entry. -/
theorem at3_of_2
    (h1 : ∀ op ∈ (hostOps1 : List (HloOp τ sig (Elt Ideal))), Proc.devRef .tc r ∉ op.writes) :
    W3 m ρ c (Proc.devRef .tc r) = W2 m ρ c (Proc.devRef .tc r) :=
  StableHlo.after_of_forall_not_mem _ _ h1

/-- From region 0's exit to region 1's exit. -/
theorem at4_of_2
    (h1 : ∀ op ∈ (hostOps1 : List (HloOp τ sig (Elt Ideal))), Proc.devRef .tc r ∉ op.writes)
    (n1 : ∀ w, Pipeline.arrRef spec1 w ≠ r) :
    W4 m ρ c (Proc.devRef .tc r) = W2 m ρ c (Proc.devRef .tc r) :=
  (W4_of_ne m ρ c r n1).trans (at3_of_2 m ρ c r h1)

/-- From region 1's exit to region 2's entry. -/
theorem at5_of_4
    (h2 : ∀ op ∈ (hostOps2 : List (HloOp τ sig (Elt Ideal))), Proc.devRef .tc r ∉ op.writes) :
    W5 m ρ c (Proc.devRef .tc r) = W4 m ρ c (Proc.devRef .tc r) :=
  StableHlo.after_of_forall_not_mem _ _ h2

/-- From region 0's exit to region 2's entry. -/
theorem at5_of_2
    (h1 : ∀ op ∈ (hostOps1 : List (HloOp τ sig (Elt Ideal))), Proc.devRef .tc r ∉ op.writes)
    (n1 : ∀ w, Pipeline.arrRef spec1 w ≠ r)
    (h2 : ∀ op ∈ (hostOps2 : List (HloOp τ sig (Elt Ideal))), Proc.devRef .tc r ∉ op.writes) :
    W5 m ρ c (Proc.devRef .tc r) = W2 m ρ c (Proc.devRef .tc r) :=
  (at5_of_4 m ρ c r h2).trans (at4_of_2 m ρ c r h1 n1)

/-- From the launch to region 1's entry. -/
theorem at3_of_launch
    (h0 : ∀ op ∈ (hostOps0 : List (HloOp τ sig (Elt Ideal))), Proc.devRef .tc r ∉ op.writes)
    (n0 : ∀ w, Pipeline.arrRef spec0 w ≠ r)
    (h1 : ∀ op ∈ (hostOps1 : List (HloOp τ sig (Elt Ideal))), Proc.devRef .tc r ∉ op.writes) :
    W3 m ρ c (Proc.devRef .tc r) = W0 m ρ c (Proc.devRef .tc r) :=
  (at3_of_2 m ρ c r h1).trans (at2_of_launch m ρ c r h0 n0)

/-- From the launch to region 1's exit. -/
theorem at4_of_launch
    (h0 : ∀ op ∈ (hostOps0 : List (HloOp τ sig (Elt Ideal))), Proc.devRef .tc r ∉ op.writes)
    (n0 : ∀ w, Pipeline.arrRef spec0 w ≠ r)
    (h1 : ∀ op ∈ (hostOps1 : List (HloOp τ sig (Elt Ideal))), Proc.devRef .tc r ∉ op.writes)
    (n1 : ∀ w, Pipeline.arrRef spec1 w ≠ r) :
    W4 m ρ c (Proc.devRef .tc r) = W0 m ρ c (Proc.devRef .tc r) :=
  (at4_of_2 m ρ c r h1 n1).trans (at2_of_launch m ρ c r h0 n0)

/-- From the launch to region 2's entry. -/
theorem at5_of_launch
    (h0 : ∀ op ∈ (hostOps0 : List (HloOp τ sig (Elt Ideal))), Proc.devRef .tc r ∉ op.writes)
    (n0 : ∀ w, Pipeline.arrRef spec0 w ≠ r)
    (h1 : ∀ op ∈ (hostOps1 : List (HloOp τ sig (Elt Ideal))), Proc.devRef .tc r ∉ op.writes)
    (n1 : ∀ w, Pipeline.arrRef spec1 w ≠ r)
    (h2 : ∀ op ∈ (hostOps2 : List (HloOp τ sig (Elt Ideal))), Proc.devRef .tc r ∉ op.writes) :
    W5 m ρ c (Proc.devRef .tc r) = W0 m ρ c (Proc.devRef .tc r) :=
  (at5_of_2 m ρ c r h1 n1 h2).trans (at2_of_launch m ρ c r h0 n0)

end Carry

/-! ## After the first host stretch (region 0's entry) -/

/-- The first host stretch writes no argument, and an argument's buffer at launch is the launched argument. -/
theorem at1_a0 : W1 m ρ c (Proc.devRef .tc main_arg0) = A0 m c :=
  at1_of_launch m ρ c main_arg0 (by not_written hostOps0)
theorem at1_a3 : W1 m ρ c (Proc.devRef .tc main_arg3) = A3 m c :=
  at1_of_launch m ρ c main_arg3 (by not_written hostOps0)
theorem at1_a4 : W1 m ρ c (Proc.devRef .tc main_arg4) = A4 m c :=
  at1_of_launch m ρ c main_arg4 (by not_written hostOps0)
/-- The source and destination rows: a row of the edge list sliced out and flattened; the in-degree column:
    ones added onto zeros at the destinations, as a column. The stretch's operations are the terms of
    `Stage.src`, `Stage.dst` and `Stage.deg`. -/
theorem at1_v1 : W1 m ρ c (Proc.devRef .tc main_v1) = Stage.src (A2 m c) := by
  show StableHlo.after hostOps0 (W0 m ρ c) (Proc.devRef .tc main_v1) = _
  after_results
  rfl
theorem at1_v3 : W1 m ρ c (Proc.devRef .tc main_v3) = Stage.dst (A2 m c) := by
  show StableHlo.after hostOps0 (W0 m ρ c) (Proc.devRef .tc main_v3) = _
  after_results
  rfl
theorem at1_v8 : W1 m ρ c (Proc.devRef .tc main_v8) = Stage.deg (A2 m c) := by
  show StableHlo.after hostOps0 (W0 m ρ c) (Proc.devRef .tc main_v8) = _
  after_results
  rfl

/-! ## After region 0 -/

/-- Region 0 rewrites only its windows' arrays; the two index rows and the in-degree column are not among them. -/
theorem at2_v1 : W2 m ρ c (Proc.devRef .tc main_v1) = Stage.src (A2 m c) :=
  (W2_of_ne m ρ c main_v1 (by decide)).trans (at1_v1 m ρ c)
theorem at2_v3 : W2 m ρ c (Proc.devRef .tc main_v3) = Stage.dst (A2 m c) :=
  (W2_of_ne m ρ c main_v3 (by decide)).trans (at1_v3 m ρ c)
theorem at2_v8 : W2 m ρ c (Proc.devRef .tc main_v8) = Stage.deg (A2 m c) :=
  (W2_of_ne m ρ c main_v8 (by decide)).trans (at1_v8 m ρ c)

/-- The encoder's output window holds the encoder's array over the region's entry contents, which are the
    launched arguments. -/
theorem at2_v9 : W2 m ρ c (Proc.devRef .tc main_v9) = H0 m c := by
  refine (W2_arr m ρ c 3).trans ((Region.final0 (V1 m ρ) c).trans ?_)
  show Stage.encode (W1 m ρ c (Proc.devRef .tc main_arg0)) (W1 m ρ c (Proc.devRef .tc main_arg3))
    (W1 m ρ c (Proc.devRef .tc main_arg4)) = _
  rw [at1_a0, at1_a3, at1_a4]
  rfl

/-! ## After the gather (region 1's entry) -/

/-- Moving a value along an equation of types and back along the converse gives the value. -/
private theorem cast_there_and_back.{u} {α β : Sort u} (h₁ : β = α) (h₂ : α = β) (v : α) :
    cast h₁ (cast h₂ v) = v := by
  subst h₂; rfl

/-- The gather stretch computes, from the source row and the encoder's output, the wrapped index column, the
    in-range mask and the masked gather: the operations of `Stage.take0`. The typed references of the outlined
    function move each result to its buffer's type and each operand back, which cancels; an operand that enters
    the stretch is moved along an equation of a type with itself, which is the identity. -/
theorem at3_v10 : W3 m ρ c (Proc.devRef .tc main_v10) = Stage.take0 (H0 m c) (A2 m c) := by
  show StableHlo.after hostOps1 (W2 m ρ c) (Proc.devRef .tc main_v10) = _
  after_results_simp
  simp only [StableHlo.TRef.ofBuf, StableHlo.TRef.toBuf, cast_there_and_back]
  simp only [cast_eq]
  rw [at2_v1 m ρ c, at2_v9 m ρ c]
  rfl
/-- No segment up to this boundary writes an argument. -/
theorem at3_a1 : W3 m ρ c (Proc.devRef .tc main_arg1) = A1 m c :=
  at3_of_launch m ρ c main_arg1 (by not_written hostOps0) (by decide) (by not_written hostOps1)
theorem at3_a5 : W3 m ρ c (Proc.devRef .tc main_arg5) = A5 m c :=
  at3_of_launch m ρ c main_arg5 (by not_written hostOps0) (by decide) (by not_written hostOps1)
theorem at3_a6 : W3 m ρ c (Proc.devRef .tc main_arg6) = A6 m c :=
  at3_of_launch m ρ c main_arg6 (by not_written hostOps0) (by decide) (by not_written hostOps1)

/-! ## After region 1 -/

/-- The message region's output window holds the message array over the region's entry contents: the gathered
    rows and the launched edge attributes, edge weight and edge bias. -/
theorem at4_v11 : W4 m ρ c (Proc.devRef .tc main_v11) = M0 m c := by
  refine (W4_arr m ρ c 4).trans ((Region.final1 (V3 m ρ) c).trans ?_)
  show Stage.message0 (W3 m ρ c (Proc.devRef .tc main_v10)) (W3 m ρ c (Proc.devRef .tc main_arg1))
    (W3 m ρ c (Proc.devRef .tc main_arg5)) (W3 m ρ c (Proc.devRef .tc main_arg6)) = _
  rw [at3_v10, at3_a1, at3_a5, at3_a6]
  rfl
/-- The destination row passes the gather and the message region. -/
theorem at4_v3 : W4 m ρ c (Proc.devRef .tc main_v3) = Stage.dst (A2 m c) :=
  (at4_of_2 m ρ c main_v3 (by not_written hostOps1) (by decide)).trans (at2_v3 m ρ c)
/-- The first layer's node weight is still as launched. -/
theorem at4_a7 : W4 m ρ c (Proc.devRef .tc main_arg7) = A7 m c :=
  at4_of_launch m ρ c main_arg7 (by not_written hostOps0) (by decide) (by not_written hostOps1) (by decide)

/-! ## After the scatter and the weight slices (region 2's entry) -/

/-- The messages added onto zeros at the destination column: the operations of `Stage.scatter0`. -/
theorem at5_v14 : W5 m ρ c (Proc.devRef .tc main_v14) = S0 m c := by
  show StableHlo.after hostOps2 (W4 m ρ c) (Proc.devRef .tc main_v14) = _
  after_results
  rw [at4_v3, at4_v11]
  rfl
theorem at5_v8 : W5 m ρ c (Proc.devRef .tc main_v8) = Stage.deg (A2 m c) :=
  (at5_of_2 m ρ c main_v8 (by not_written hostOps1) (by decide) (by not_written hostOps2)).trans (at2_v8 m ρ c)
/-- The encoder's output is read, not written, by the gather. -/
theorem at5_v9 : W5 m ρ c (Proc.devRef .tc main_v9) = H0 m c :=
  (at5_of_2 m ρ c main_v9 (by not_written hostOps1) (by decide) (by not_written hostOps2)).trans (at2_v9 m ρ c)
/-- The two halves of the node weight: slices of the launched argument. -/
theorem at5_v15 : W5 m ρ c (Proc.devRef .tc main_v15) = Stage.wa0 (A7 m c) := by
  show StableHlo.after hostOps2 (W4 m ρ c) (Proc.devRef .tc main_v15) = _
  after_results
  rw [at4_a7]
  rfl
theorem at5_v16 : W5 m ρ c (Proc.devRef .tc main_v16) = Stage.wh0 (A7 m c) := by
  show StableHlo.after hostOps2 (W4 m ρ c) (Proc.devRef .tc main_v16) = _
  after_results
  rw [at4_a7]
  rfl
theorem at5_a8 : W5 m ρ c (Proc.devRef .tc main_arg8) = A8 m c :=
  at5_of_launch m ρ c main_arg8 (by not_written hostOps0) (by decide) (by not_written hostOps1) (by decide)
    (by not_written hostOps2)

/-! ## What the second layer still reads, carried to the same boundary -/
theorem at5_v1 : W5 m ρ c (Proc.devRef .tc main_v1) = Stage.src (A2 m c) :=
  (at5_of_2 m ρ c main_v1 (by not_written hostOps1) (by decide) (by not_written hostOps2)).trans (at2_v1 m ρ c)
theorem at5_v3 : W5 m ρ c (Proc.devRef .tc main_v3) = Stage.dst (A2 m c) :=
  (at5_of_4 m ρ c main_v3 (by not_written hostOps2)).trans (at4_v3 m ρ c)
/-- The edge attributes are an input window of the message region, and a region leaves an input window's array
    as it entered. -/
theorem at5_a1 : W5 m ρ c (Proc.devRef .tc main_arg1) = A1 m c :=
  (at5_of_4 m ρ c main_arg1 (by not_written hostOps2)).trans
    (((W4_arr m ρ c 1).trans (((dat1 (V3 m ρ) c).arrAt_in 1 rfl _).trans (A_eq1 (V3 m ρ) c 1))).trans
      (at3_a1 m ρ c))
theorem at5_a9 : W5 m ρ c (Proc.devRef .tc main_arg9) = A9 m c :=
  at5_of_launch m ρ c main_arg9 (by not_written hostOps0) (by decide) (by not_written hostOps1) (by decide)
    (by not_written hostOps2)
theorem at5_a10 : W5 m ρ c (Proc.devRef .tc main_arg10) = A10 m c :=
  at5_of_launch m ρ c main_arg10 (by not_written hostOps0) (by decide) (by not_written hostOps1) (by decide)
    (by not_written hostOps2)
theorem at5_a11 : W5 m ρ c (Proc.devRef .tc main_arg11) = A11 m c :=
  at5_of_launch m ρ c main_arg11 (by not_written hostOps0) (by decide) (by not_written hostOps1) (by decide)
    (by not_written hostOps2)
theorem at5_a12 : W5 m ρ c (Proc.devRef .tc main_arg12) = A12 m c :=
  at5_of_launch m ρ c main_arg12 (by not_written hostOps0) (by decide) (by not_written hostOps1) (by decide)
    (by not_written hostOps2)
theorem at5_a13 : W5 m ρ c (Proc.devRef .tc main_arg13) = A13 m c :=
  at5_of_launch m ρ c main_arg13 (by not_written hostOps0) (by decide) (by not_written hostOps1) (by decide)
    (by not_written hostOps2)
theorem at5_a14 : W5 m ρ c (Proc.devRef .tc main_arg14) = A14 m c :=
  at5_of_launch m ρ c main_arg14 (by not_written hostOps0) (by decide) (by not_written hostOps1) (by decide)
    (by not_written hostOps2)

end Cert.KernelIdeal.Run

end
-- ==== Proof.Region2.lean ====
/- The node-update region of layer 1: the output array after the run is relu ((s · (1 / max deg 1)) · Wa + h · Wh + b), index by index. Each grid point writes back one block of 2000 node rows; the degree column is spread along the columns, each of the two products is a sum over 128 contracted columns; the blocks tile the array. -/
import proofs.«420280_j63763084477189_1_alg».proof.Proof.Gen.KernelIdeal.Frame
import proofs.«420280_j63763084477189_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Sage0

/-! ## The matrix product of a block of rows, read at an entry -/

/-- The left operand's row coordinate is the output's row. -/
theorem lhs_axis0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand's column coordinate is the contracted coordinate. -/
theorem lhs_axis1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's row coordinate is the contracted coordinate. -/
theorem rhs_axis0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The right operand's column coordinate is the output's column. -/
theorem rhs_axis1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A product of a block of rows with a weight, accumulated from zero, is at entry (p, q) the sum over the contracted
    coordinate of row p of the block times column q of the weight. -/
theorem rows_times_weight (a : FVec Ideal S2000x128 .f32) (w : FVec Ideal S128x256 .f32) (p : Fin 2000) (q : Fin 256) :
    matmul dot_S2000x128_S128x256_S2000x256_1_0_0_1_n_n none a w (constant (F := Ideal) S2000x256 .f32 0x00000000#32) (ix2 p q)
      = ∑ k : Fin 128, a (ix2 p k) * w (ix2 k q) := by
  refine (Ideal.matmul_constant_zero_apply dot_S2000x128_S128x256_S2000x256_1_0_0_1_n_n none a w (ix2 p q)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The two broadcasts -/

/-- A column [a, 1] broadcast along the columns to [a, b] reads, at (p, c), the column's entry of row p. -/
theorem column_along_columns {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bias vector, made one row and broadcast down the rows, reads at (p, q) its entry q. -/
theorem bias_down_rows (b : FVec Ideal S256 .f32) (h1 : S256.ShapeCasts S1x256) (h2 : S1x256.Broadcasts S2000x256)
    (p : Fin 2000) (q : Fin 256) :
    broadcastTo S2000x256 (shapeCast S1x256 b h1) h2 (ix2 p q) = b (ix1 q) :=
  (broadcastTo_1b_ab_apply (shapeCast S1x256 b h1) h2 p q).trans (shapeCast_a_1a_apply b h1 0 q)

/-! ## The body's value at an entry of its block -/

/-- The block the body stores, at row p and column q: relu of the scaled aggregate's row times the first weight, plus
    the node's own row times the second weight, plus the bias. The scale of row p is one over the larger of the row's
    degree and one. -/
theorem body_entry (s : Vec Ideal S2000x128 .f32) (d : Vec Ideal S2000x1 .f32) (wa : Vec Ideal S128x256 .f32)
    (h : Vec Ideal S2000x128 .f32) (wh : Vec Ideal S128x256 .f32) (b : Vec Ideal S256 .f32) (p : Fin 2000) (q : Fin 256) :
    k2_pay1 (F := Ideal) s d wa h wh b (ix2 p q)
      = max (((∑ k : Fin 128, (s (ix2 p k) * Ideal.div Stage.one (max (d (ix2 p 0)) Stage.one)) * wa (ix2 k q))
          + (∑ k : Fin 128, h (ix2 p k) * wh (ix2 k q))) + b (ix1 q)) Stage.zero := by
  unfold k2_pay1
  simp only [shapeCast_self]
  refine (maximumf_apply _ _ _).trans ?_
  refine congrArg₂ max ?_ rfl
  refine (addf_apply _ _ _).trans ?_
  refine congrArg₂ (· + ·) ?_ (bias_down_rows b _ _ p q)
  refine (addf_apply _ _ _).trans ?_
  refine congrArg₂ (· + ·) ((rows_times_weight _ _ p q).trans ?_) (rows_times_weight _ _ p q)
  refine Finset.sum_congr rfl fun k _ => ?_
  refine congrArg (· * wa (ix2 k q)) ?_
  refine (mulf_apply _ _ _).trans ?_
  refine congrArg (s (ix2 p k) * ·) ?_
  exact column_along_columns _ _ p k

end Sage0

namespace Sage0

/-! ## From the blocks to the array -/

/-- The origin of a block, as the constant function. -/
theorem origin_rank2 : (![0, 0] : Fin 2 → Nat) = fun _ => 0 := funext fun a => by fin_cases a <;> rfl
theorem origin_rank1 : (![0] : Fin 1 → Nat) = fun _ => 0 := funext fun a => by fin_cases a <;> rfl

/-- The index maps over the grid: the three row-tiled inputs move with the output (block t of rows, the one block of
    columns), the two weights and the bias stay at their one block. -/
theorem block_indices : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The grid has fifty points. -/
theorem point_lt (t : Fin cfg2.N) : t.val < 50 := lt_of_lt_of_eq t.isLt N_2

/-- The layer's update at an index of the array whose row and column are given as numbers. -/
theorem update_at (s : FVec Ideal S100000x128 .f32) (d : FVec Ideal S100000x1 .f32) (h : FVec Ideal S100000x128 .f32)
    (wa wh : FVec Ideal S128x256 .f32) (b : FVec Ideal S256 .f32) (i : S100000x256.Idx) (r : Fin 100000) (q : Fin 256)
    (hr : r.val = (i 0).val) (hq : q.val = (i 1).val) :
    Stage.sage0 s d h wa wh b i
      = max (((∑ k : Fin 128, (s (ix2 r k) * Ideal.div Stage.one (max (d (ix2 r 0)) Stage.one)) * wa (ix2 k q))
          + (∑ k : Fin 128, h (ix2 r k) * wh (ix2 k q))) + b (ix1 q)) Stage.zero := by
  obtain rfl : r = ⟨(i 0).val, (i 0).isLt⟩ := Fin.ext hr
  obtain rfl : q = ⟨(i 1).val, (i 1).isLt⟩ := Fin.ext hq
  rfl

/-- Row p of point t's block of the aggregate is row t · 2000 + p of the array. -/
theorem read_aggregate (c : Dev nD) (t : Fin cfg2.N) (p : Fin 2000) (k : Fin 128) (hrow : win2_6.index t (0 : Fin 2) * 2000 + p.val < 100000) :
    iblk2 V c 0 t (ix2 p k) = V c main_v14 (ix2 ⟨win2_6.index t (0 : Fin 2) * 2000 + p.val, hrow⟩ k) := by
  obtain ⟨e00, e01, e10, e11, e20, e21, e30, e31, e40, e41, e50, e60, e61⟩ := block_indices t
  show V c main_v14 (((cfg2.win 0).blk t).view.emb (ix2 p k)) = _
  refine congrArg (V c main_v14) (funext fun a => Fin.ext ?_)
  match a with
  | ⟨0, _⟩ => show win2_0.index t (0 : Fin 2) * 2000 + 1 * p.val = win2_6.index t (0 : Fin 2) * 2000 + p.val; omega
  | ⟨1, _⟩ => show win2_0.index t (1 : Fin 2) * 128 + 1 * k.val = k.val; omega

/-- Row p of point t's block of the degree column is row t · 2000 + p of the column. -/
theorem read_degree (c : Dev nD) (t : Fin cfg2.N) (p : Fin 2000) (hrow : win2_6.index t (0 : Fin 2) * 2000 + p.val < 100000) :
    iblk2 V c 1 t (ix2 p (0 : Fin 1)) = V c main_v8 (ix2 ⟨win2_6.index t (0 : Fin 2) * 2000 + p.val, hrow⟩ (0 : Fin 1)) := by
  obtain ⟨e00, e01, e10, e11, e20, e21, e30, e31, e40, e41, e50, e60, e61⟩ := block_indices t
  show V c main_v8 (((cfg2.win 1).blk t).view.emb (ix2 p (0 : Fin 1))) = _
  refine congrArg (V c main_v8) (funext fun a => Fin.ext ?_)
  match a with
  | ⟨0, _⟩ => show win2_1.index t (0 : Fin 2) * 2000 + 1 * p.val = win2_6.index t (0 : Fin 2) * 2000 + p.val; omega
  | ⟨1, _⟩ => show win2_1.index t (1 : Fin 2) * 1 + 1 * 0 = 0; omega

/-- Row p of point t's block of the node features is row t · 2000 + p of the array. -/
theorem read_features (c : Dev nD) (t : Fin cfg2.N) (p : Fin 2000) (k : Fin 128) (hrow : win2_6.index t (0 : Fin 2) * 2000 + p.val < 100000) :
    iblk2 V c 2 t (ix2 p k) = V c main_v9 (ix2 ⟨win2_6.index t (0 : Fin 2) * 2000 + p.val, hrow⟩ k) := by
  obtain ⟨e00, e01, e10, e11, e20, e21, e30, e31, e40, e41, e50, e60, e61⟩ := block_indices t
  show V c main_v9 (((cfg2.win 2).blk t).view.emb (ix2 p k)) = _
  refine congrArg (V c main_v9) (funext fun a => Fin.ext ?_)
  match a with
  | ⟨0, _⟩ => show win2_2.index t (0 : Fin 2) * 2000 + 1 * p.val = win2_6.index t (0 : Fin 2) * 2000 + p.val; omega
  | ⟨1, _⟩ => show win2_2.index t (1 : Fin 2) * 128 + 1 * k.val = k.val; omega

/-- The first weight's one block is the weight. -/
theorem read_weight_a (c : Dev nD) (t : Fin cfg2.N) (k : Fin 128) (q : Fin 256) :
    iblk2 V c 3 t (ix2 k q) = V c main_v15 (ix2 k q) := by
  obtain ⟨e00, e01, e10, e11, e20, e21, e30, e31, e40, e41, e50, e60, e61⟩ := block_indices t
  show V c main_v15 (((cfg2.win 3).blk t).view.emb (ix2 k q)) = _
  refine congrArg (V c main_v15) (funext fun a => Fin.ext ?_)
  match a with
  | ⟨0, _⟩ => show win2_3.index t (0 : Fin 2) * 128 + 1 * k.val = k.val; omega
  | ⟨1, _⟩ => show win2_3.index t (1 : Fin 2) * 256 + 1 * q.val = q.val; omega

/-- The second weight's one block is the weight. -/
theorem read_weight_h (c : Dev nD) (t : Fin cfg2.N) (k : Fin 128) (q : Fin 256) :
    iblk2 V c 4 t (ix2 k q) = V c main_v16 (ix2 k q) := by
  obtain ⟨e00, e01, e10, e11, e20, e21, e30, e31, e40, e41, e50, e60, e61⟩ := block_indices t
  show V c main_v16 (((cfg2.win 4).blk t).view.emb (ix2 k q)) = _
  refine congrArg (V c main_v16) (funext fun a => Fin.ext ?_)
  match a with
  | ⟨0, _⟩ => show win2_4.index t (0 : Fin 2) * 128 + 1 * k.val = k.val; omega
  | ⟨1, _⟩ => show win2_4.index t (1 : Fin 2) * 256 + 1 * q.val = q.val; omega

/-- The bias's one block is the bias. -/
theorem read_bias (c : Dev nD) (t : Fin cfg2.N) (q : Fin 256) :
    iblk2 V c 5 t (ix1 q) = V c main_arg8 (ix1 q) := by
  obtain ⟨e00, e01, e10, e11, e20, e21, e30, e31, e40, e41, e50, e60, e61⟩ := block_indices t
  show V c main_arg8 (((cfg2.win 5).blk t).view.emb (ix1 q)) = _
  refine congrArg (V c main_arg8) (funext fun a => Fin.ext ?_)
  match a with
  | ⟨0, _⟩ => show win2_5.index t (0 : Fin 1) * 256 + 1 * q.val = q.val; omega

/-- What point t writes back is block t of the layer's update of the arrays the region finds. -/
theorem flushed_block (c : Dev nD) (t : Fin cfg2.N) :
    (dat2 (F := Ideal) V c).flushed 6 t = ((cfg2.win 6).blk t).view.read (Elt Ideal) (Stage.sage0 (V c main_v14) (V c main_v8) (V c main_v9) (V c main_v15) (V c main_v16) (V c main_arg8)) := by
  show (cfg2.win 6).cut (grid2.coords t) ((dat2 (F := Ideal) V c).after 6 t) = _
  rw [after2_6]
  unfold out2_6
  rw [View.canon_unit_zero origin_rank2]
  simp only [View.ld_unit_zero (S := S2000x128) origin_rank2, View.ld_unit_zero (S := S2000x1) origin_rank2,
    View.ld_unit_zero (S := S128x256) origin_rank2, View.ld_unit_zero (S := S256) origin_rank1]
  obtain ⟨e00, e01, e10, e11, e20, e21, e30, e31, e40, e41, e50, e60, e61⟩ := block_indices t
  have ht := point_lt t
  funext j
  obtain ⟨p, q, rfl⟩ : ∃ (p : Fin 2000) (q : Fin 256), j = ix2 p q := ⟨j 0, j 1, eq_ix2 j⟩
  have hrow : win2_6.index t (0 : Fin 2) * 2000 + p.val < 100000 := by have := p.isLt; omega
  show k2_pay1 (F := Ideal) (iblk2 V c 0 t) (iblk2 V c 1 t) (iblk2 V c 3 t) (iblk2 V c 2 t) (iblk2 V c 4 t) (iblk2 V c 5 t) (ix2 p q)
    = Stage.sage0 (V c main_v14) (V c main_v8) (V c main_v9) (V c main_v15) (V c main_v16) (V c main_arg8) (((cfg2.win 6).blk t).view.emb (ix2 p q))
  refine (body_entry (iblk2 V c 0 t) (iblk2 V c 1 t) (iblk2 V c 3 t) (iblk2 V c 2 t) (iblk2 V c 4 t) (iblk2 V c 5 t) p q).trans ?_
  have hr : (⟨win2_6.index t (0 : Fin 2) * 2000 + p.val, hrow⟩ : Fin 100000).val = ((((cfg2.win 6).blk t).view.emb (ix2 p q)) 0).val := by
    show win2_6.index t (0 : Fin 2) * 2000 + p.val = win2_6.index t (0 : Fin 2) * 2000 + 1 * p.val; omega
  have hq : q.val = ((((cfg2.win 6).blk t).view.emb (ix2 p q)) 1).val := by
    show q.val = win2_6.index t (1 : Fin 2) * 256 + 1 * q.val; omega
  refine Eq.trans ?_ (update_at (V c main_v14) (V c main_v8) (V c main_v9) (V c main_v15) (V c main_v16) (V c main_arg8)
    (((cfg2.win 6).blk t).view.emb (ix2 p q)) ⟨win2_6.index t (0 : Fin 2) * 2000 + p.val, hrow⟩ q hr hq).symm
  refine congrArg₂ max ?_ rfl
  refine congrArg₂ (· + ·) (congrArg₂ (· + ·) (Finset.sum_congr rfl fun k _ => ?_) (Finset.sum_congr rfl fun k _ => ?_)) (read_bias V c t q)
  · rw [read_aggregate V c t p k hrow, read_degree V c t p hrow, read_weight_a V c t k q]
  · rw [read_features V c t p k hrow, read_weight_h V c t k q]

/-- An index of the array is in point t's block iff each coordinate is in the block's range on its axis. -/
theorem mem_block (t : Fin cfg2.N) (i : S100000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v17).slice (win2_6.rect t)).set ↔ _
  rw [View.set_slice_whole, Rect.mem_set_unit]
  exact Iff.rfl

/-- Every index of the array is in some point's block: row r is in the block of point r / 2000. -/
theorem covered (i : S100000x256.Idx) :
    ∃ t : Fin cfg2.N, (cfg2.win 6).flush t = true ∧ i ∈ ((cfg2.win 6).blk t).view.set := by
  have hi0 : (i 0).val < 100000 := (i 0).isLt
  have hi1 : (i 1).val < 256 := (i 1).isLt
  obtain ⟨t, ht⟩ : ∃ t : Fin cfg2.N, t.val = (i 0).val / 2000 :=
    ⟨⟨(i 0).val / 2000, lt_of_lt_of_eq (show (i 0).val / 2000 < 50 by omega) N_2.symm⟩, rfl⟩
  obtain ⟨e00, e01, e10, e11, e20, e21, e30, e31, e40, e41, e50, e60, e61⟩ := block_indices t
  refine ⟨t, flush2_6 t, ?_⟩
  rw [mem_block]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 256 ≤ (i 1).val ∧ (i 1).val < win2_6.index t (1 : Fin 2) * 256 + 256; omega

end Sage0

/-- The array after the region: the layer's update of the arrays the region finds, at every index. -/
theorem final2 (c : Dev nD) :
    (dat2 (F := Ideal) V c).arrAt 6 cfg2.N = Stage.sage0 (V c main_v14) (V c main_v8) (V c main_v9) (V c main_v15) (V c main_v16) (V c main_arg8) :=
  (dat2 (F := Ideal) V c).arrAt_eq_of_cover 6 (Stage.sage0 (V c main_v14) (V c main_v8) (V c main_v9) (V c main_v15) (V c main_v16) (V c main_arg8))
    (fun t _ => Sage0.flushed_block V c t) Sage0.covered

end Cert.KernelIdeal.Region

end
-- ==== Proof.Region3.lean ====
import proofs.«420280_j63763084477189_1_alg».proof.Proof.Gen.KernelIdeal.Frame
import proofs.«420280_j63763084477189_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's payload at an index -/

/-- The product's operand indices at output index `i` and contraction index `q`: the left operand is read at
    row `i 0`, column `q`; the right operand at row `q`, column `i 1`. -/
theorem lhs_edge3_0 (i : S4000x256.Idx) (q : dot_S4000x2_S2x256_S4000x256_1_0_0_1_n_n.contr.Idx) :
    (dot_S4000x2_S2x256_S4000x256_1_0_0_1_n_n.lhsIdx i q 0).val = (i 0).val := by
  unfold DotDims.lhsIdx
  rw [dif_neg (show ¬(0 : Fin S4000x2.rank) ∈ dot_S4000x2_S2x256_S4000x256_1_0_0_1_n_n.lhsBatch by decide), dif_pos (show (0 : Fin S4000x2.rank) ∈ dot_S4000x2_S2x256_S4000x256_1_0_0_1_n_n.lhsNonContracting by decide)]
  rfl
theorem lhs_edge3_1 (i : S4000x256.Idx) (q : dot_S4000x2_S2x256_S4000x256_1_0_0_1_n_n.contr.Idx) :
    (dot_S4000x2_S2x256_S4000x256_1_0_0_1_n_n.lhsIdx i q 1).val = (q ⟨0, by decide⟩).val :=
  dot_S4000x2_S2x256_S4000x256_1_0_0_1_n_n.lhsIdx_val_of_single rfl i q
theorem rhs_edge3_0 (i : S4000x256.Idx) (q : dot_S4000x2_S2x256_S4000x256_1_0_0_1_n_n.contr.Idx) :
    (dot_S4000x2_S2x256_S4000x256_1_0_0_1_n_n.rhsIdx i q 0).val = (q ⟨0, by decide⟩).val :=
  dot_S4000x2_S2x256_S4000x256_1_0_0_1_n_n.rhsIdx_val_of_single rfl i q
theorem rhs_edge3_1 (i : S4000x256.Idx) (q : dot_S4000x2_S2x256_S4000x256_1_0_0_1_n_n.contr.Idx) :
    (dot_S4000x2_S2x256_S4000x256_1_0_0_1_n_n.rhsIdx i q 1).val = (i 1).val := by
  unfold DotDims.rhsIdx
  rw [dif_neg (show ¬(1 : Fin S2x256.rank) ∈ dot_S4000x2_S2x256_S4000x256_1_0_0_1_n_n.rhsBatch by decide), dif_pos (show (1 : Fin S2x256.rank) ∈ dot_S4000x2_S2x256_S4000x256_1_0_0_1_n_n.rhsNonContracting by decide)]
  rfl

/-- The edge attributes' block times the edge weight, into the zero accumulator, at row `p` and column `q`:
    the sum over the two attribute coordinates. -/
theorem edge_product3_apply (ea : FVec Ideal S4000x2 .f32) (w : FVec Ideal S2x256 .f32) (p : Fin 4000) (q : Fin 256) :
    FloatOps.matmul dot_S4000x2_S2x256_S4000x256_1_0_0_1_n_n none ea w (constant (F := Ideal) S4000x256 .f32 0x00000000#32) (ix2 p q)
      = ∑ k : Fin 2, ea (ix2 p k) * w (ix2 k q) := by
  rw [Ideal.matmul_constant_zero_apply, ← Equiv.sum_comp (ValueIdx.contrEquiv1 dot_S4000x2_S2x256_S4000x256_1_0_0_1_n_n 2 rfl rfl).symm]
  refine Finset.sum_congr rfl fun k _ => ?_
  have hk := ValueIdx.contrEquiv1_symm_val dot_S4000x2_S2x256_S4000x256_1_0_0_1_n_n 2 rfl rfl k
  have el : dot_S4000x2_S2x256_S4000x256_1_0_0_1_n_n.lhsIdx (ix2 p q) ((ValueIdx.contrEquiv1 dot_S4000x2_S2x256_S4000x256_1_0_0_1_n_n 2 rfl rfl).symm k) = ix2 p k := funext fun a => Fin.ext (by
    match a with
    | ⟨0, _⟩ => exact lhs_edge3_0 _ _
    | ⟨1, _⟩ => exact (lhs_edge3_1 _ _).trans hk)
  have er : dot_S4000x2_S2x256_S4000x256_1_0_0_1_n_n.rhsIdx (ix2 p q) ((ValueIdx.contrEquiv1 dot_S4000x2_S2x256_S4000x256_1_0_0_1_n_n 2 rfl rfl).symm k) = ix2 k q := funext fun a => Fin.ext (by
    match a with
    | ⟨0, _⟩ => exact (rhs_edge3_0 _ _).trans hk
    | ⟨1, _⟩ => exact rhs_edge3_1 _ _)
  rw [el, er]

/-- The bias, seen as one row and repeated down the rows, reads the bias at the column. -/
theorem bias_rows3_apply (b : FVec Ideal S256 .f32) (p : Fin 4000) (q : Fin 256) :
    broadcastTo S4000x256 (shapeCast S1x256 b shapeCasts_S256_S1x256) broadcasts_S1x256_S4000x256 (ix2 p q) = b (ix1 q) := by
  rw [broadcastTo_apply _ broadcasts_S1x256_S4000x256 (ix2 p q) (ix2 (0 : Fin 1) q) (fun a => by
    match a with
    | ⟨0, _⟩ => rfl
    | ⟨1, _⟩ => rfl)]
  exact shapeCast_apply b shapeCasts_S256_S1x256 (ix2 (0 : Fin 1) q) (ix1 q)
    (by rewrite [Shape.rowMajor_val_two, Shape.rowMajor_val_one]; show q.val = 0 * 256 + q.val; omega)

/-- The stored block at row `p`, column `q`: the gathered row's entry times the affine map of the edge's attributes. -/
theorem message_block3_apply (ea : Vec Ideal S4000x2 .f32) (w : Vec Ideal S2x256 .f32) (b : Vec Ideal S256 .f32)
    (g : Vec Ideal S4000x256 .f32) (p : Fin 4000) (q : Fin 256) :
    k3_pay1 (F := Ideal) ea w b g (ix2 p q)
      = g (ix2 p q) * ((∑ k : Fin 2, ea (ix2 p k) * w (ix2 k q)) + b (ix1 q)) := by
  unfold k3_pay1
  simp only [matmul]
  rw [mulf_apply, addf_apply, shapeCast_self, edge_product3_apply, bias_rows3_apply]

/-! ## From the blocks to the array -/

/-- The zero offsets, as the constant function. -/
theorem zero_off3_2 : (![0, 0] : Fin 2 → Nat) = fun _ => 0 := funext fun a => by fin_cases a <;> rfl
theorem zero_off3_1 : (![0] : Fin 1 → Nat) = fun _ => 0 := funext fun a => by fin_cases a <;> rfl

/-- The stored block at any index of the block, the index's coordinates spelt out. -/
theorem message_block3_eq (ea : Vec Ideal S4000x2 .f32) (w : Vec Ideal S2x256 .f32) (b : Vec Ideal S256 .f32)
    (g : Vec Ideal S4000x256 .f32) (j : S4000x256.Idx) :
    k3_pay1 (F := Ideal) ea w b g j
      = g j * ((∑ k : Fin 2, ea (ix2 ⟨(j 0).val, (j 0).isLt⟩ k) * w (ix2 k ⟨(j 1).val, (j 1).isLt⟩)) + b (ix1 ⟨(j 1).val, (j 1).isLt⟩)) := by
  obtain ⟨p, q, rfl⟩ : ∃ (p : Fin 4000) (q : Fin 256), j = ix2 p q := ⟨j 0, j 1, eq_ix2 j⟩
  exact message_block3_apply ea w b g p q

/-- The block indices over the grid: the row-tiled windows (gathered rows, edge attributes, messages) are at block
    row `t`, block column 0, at point `t`; the weight and the bias stay at block 0. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Where each input block's entries sit in their arrays, against the place `i` of the output block's entry `j`:
    the gathered rows' block at the same place; -/
theorem gathered_place3 (t : Fin cfg3.N) (j : S4000x256.Idx) :
    ((cfg3.win 0).blk t).view.emb j = ((cfg3.win 4).blk t).view.emb j := by
  obtain ⟨e00, e01, -, -, -, -, -, e40, e41⟩ := block_index3 t
  funext a; apply Fin.ext
  match a with
  | ⟨0, _⟩ => show win3_0.index t (0 : Fin 2) * 4000 + 1 * (j 0).val = win3_4.index t (0 : Fin 2) * 4000 + 1 * (j 0).val; omega
  | ⟨1, _⟩ => show win3_0.index t (1 : Fin 2) * 256 + 1 * (j 1).val = win3_4.index t (1 : Fin 2) * 256 + 1 * (j 1).val; omega

/-- the edge attributes' block at row `i 0`, the attribute coordinate kept; -/
theorem attr_place3 (t : Fin cfg3.N) (j : S4000x256.Idx) (k : Fin 2) :
    ((cfg3.win 1).blk t).view.emb (ix2 ⟨(j 0).val, (j 0).isLt⟩ k)
      = ix2 ⟨((((cfg3.win 4).blk t).view.emb j) 0).val, ((((cfg3.win 4).blk t).view.emb j) 0).isLt⟩ k := by
  obtain ⟨-, -, e10, e11, -, -, -, e40, e41⟩ := block_index3 t
  funext a; apply Fin.ext
  match a with
  | ⟨0, _⟩ => show win3_1.index t (0 : Fin 2) * 4000 + 1 * (j 0).val = win3_4.index t (0 : Fin 2) * 4000 + 1 * (j 0).val; omega
  | ⟨1, _⟩ => show win3_1.index t (1 : Fin 2) * 2 + 1 * k.val = k.val; omega

/-- the weight's block (the whole weight) at column `i 1`; -/
theorem weight_place3 (t : Fin cfg3.N) (j : S4000x256.Idx) (k : Fin 2) :
    ((cfg3.win 2).blk t).view.emb (ix2 k ⟨(j 1).val, (j 1).isLt⟩)
      = ix2 k ⟨((((cfg3.win 4).blk t).view.emb j) 1).val, ((((cfg3.win 4).blk t).view.emb j) 1).isLt⟩ := by
  obtain ⟨-, -, -, -, e20, e21, -, e40, e41⟩ := block_index3 t
  funext a; apply Fin.ext
  match a with
  | ⟨0, _⟩ => show win3_2.index t (0 : Fin 2) * 2 + 1 * k.val = k.val; omega
  | ⟨1, _⟩ => show win3_2.index t (1 : Fin 2) * 256 + 1 * (j 1).val = win3_4.index t (1 : Fin 2) * 256 + 1 * (j 1).val; omega

/-- the bias's block (the whole bias) at column `i 1`. -/
theorem bias_place3 (t : Fin cfg3.N) (j : S4000x256.Idx) :
    ((cfg3.win 3).blk t).view.emb (ix1 ⟨(j 1).val, (j 1).isLt⟩)
      = ix1 ⟨((((cfg3.win 4).blk t).view.emb j) 1).val, ((((cfg3.win 4).blk t).view.emb j) 1).isLt⟩ := by
  obtain ⟨-, -, -, -, -, -, e30, e40, e41⟩ := block_index3 t
  funext a; apply Fin.ext
  match a with
  | ⟨0, _⟩ => show win3_3.index t (0 : Fin 1) * 256 + 1 * (j 1).val = win3_4.index t (1 : Fin 2) * 256 + 1 * (j 1).val; omega

/-- The blocks' entries combined are the message at the output entry's place, for any four arrays. -/
theorem message_at_place3 (t : Fin cfg3.N) (j : S4000x256.Idx)
    (G : FVec Ideal S1000000x256 .f32) (EA : FVec Ideal S1000000x2 .f32) (W : FVec Ideal S2x256 .f32) (B : FVec Ideal S256 .f32) :
    G (((cfg3.win 0).blk t).view.emb j)
      * ((∑ k : Fin 2, EA (((cfg3.win 1).blk t).view.emb (ix2 ⟨(j 0).val, (j 0).isLt⟩ k))
            * W (((cfg3.win 2).blk t).view.emb (ix2 k ⟨(j 1).val, (j 1).isLt⟩)))
          + B (((cfg3.win 3).blk t).view.emb (ix1 ⟨(j 1).val, (j 1).isLt⟩)))
    = Stage.message1 G EA W B (((cfg3.win 4).blk t).view.emb j) := by
  have hs : (∑ k : Fin 2, EA (((cfg3.win 1).blk t).view.emb (ix2 ⟨(j 0).val, (j 0).isLt⟩ k))
        * W (((cfg3.win 2).blk t).view.emb (ix2 k ⟨(j 1).val, (j 1).isLt⟩)))
      = ∑ k : Fin 2, EA (ix2 ⟨((((cfg3.win 4).blk t).view.emb j) 0).val, ((((cfg3.win 4).blk t).view.emb j) 0).isLt⟩ k)
        * W (ix2 k ⟨((((cfg3.win 4).blk t).view.emb j) 1).val, ((((cfg3.win 4).blk t).view.emb j) 1).isLt⟩) :=
    Finset.sum_congr rfl fun k _ =>
      congrArg₂ (· * ·) (congrArg EA (attr_place3 t j k)) (congrArg W (weight_place3 t j k))
  rw [gathered_place3, bias_place3, hs]
  rfl

/-- What point `t` writes back is block `t` of the messages of the whole arrays. -/
theorem flushed3_eq (c : Dev nD) (t : Fin cfg3.N) :
    (dat3 (F := Ideal) V c).flushed 4 t = ((cfg3.win 4).blk t).view.read (Elt Ideal)
      (Stage.message1 (V c main_v18) (V c main_arg1) (V c main_arg9) (V c main_arg10)) := by
  show (cfg3.win 4).cut (grid3.coords t) ((dat3 V c).after 4 t) = _
  rw [after3_4]
  unfold out3_4
  rw [View.canon_unit_zero zero_off3_2]
  simp only [View.ld_unit_zero (S := S4000x2) zero_off3_2, View.ld_unit_zero (S := S2x256) zero_off3_2,
    View.ld_unit_zero (S := S256) zero_off3_1, View.ld_unit_zero (S := S4000x256) zero_off3_2]
  funext j
  refine (message_block3_eq _ _ _ _ j).trans ?_
  exact message_at_place3 t j (V c main_v18) (V c main_arg1) (V c main_arg9) (V c main_arg10)

/-- An index of the array is in point `t`'s block iff each coordinate is in the block's range on its axis. -/
theorem mem_block3 (t : Fin cfg3.N) (i : S1000000x256.Idx) :
    i ∈ ((cfg3.win 4).blk t).view.set ↔ ∀ a : Fin 2, win3_4.index t a * S4000x256.size a ≤ (i a).val ∧ (i a).val < win3_4.index t a * S4000x256.size a + S4000x256.size a := by
  show i ∈ ((View.whole main_v19).slice (win3_4.rect t)).set ↔ _
  rw [View.set_slice_whole, Rect.mem_set_unit]
  exact Iff.rfl

/-- Every edge row lies in a block: row `r` is written back at point `r / 4000`. -/
theorem cover3 (i : S1000000x256.Idx) :
    ∃ t : Fin cfg3.N, (cfg3.win 4).flush t = true ∧ i ∈ ((cfg3.win 4).blk t).view.set := by
  have hi0 : (i 0).val < 1000000 := (i 0).isLt
  have hi1 : (i 1).val < 256 := (i 1).isLt
  have ht : (i 0).val / 4000 < 250 := by omega
  obtain ⟨-, -, -, -, -, -, -, e40, e41⟩ := block_index3 ⟨(i 0).val / 4000, ht⟩
  have e40' : win3_4.index ⟨(i 0).val / 4000, ht⟩ (0 : Fin 2) = (i 0).val / 4000 := e40
  refine ⟨⟨(i 0).val / 4000, ht⟩, flush3_4 _, ?_⟩
  rw [mem_block3]
  intro a
  match a with
  | ⟨0, _⟩ => show win3_4.index ⟨(i 0).val / 4000, ht⟩ (0 : Fin 2) * 4000 ≤ (i 0).val ∧ (i 0).val < win3_4.index ⟨(i 0).val / 4000, ht⟩ (0 : Fin 2) * 4000 + 4000; omega
  | ⟨1, _⟩ => show win3_4.index ⟨(i 0).val / 4000, ht⟩ (1 : Fin 2) * 256 ≤ (i 1).val ∧ (i 1).val < win3_4.index ⟨(i 0).val / 4000, ht⟩ (1 : Fin 2) * 256 + 256; omega

/-- The messages' array after the region: every edge's gathered row times the affine map of its attributes. -/
theorem final3 (c : Dev nD) :
    (dat3 (F := Ideal) V c).arrAt 4 cfg3.N = Stage.message1 (V c main_v18) (V c main_arg1) (V c main_arg9) (V c main_arg10) :=
  (dat3 (F := Ideal) V c).arrAt_eq_of_cover 4 _ (fun t _ => flushed3_eq V c t) cover3

end Cert.KernelIdeal.Region

end
-- ==== Proof.Region4.lean ====
/- The node-update region of layer 2: the output array after the run is relu ((s · (1 / max deg 1)) · Wa + h · Wh + b), index by index, at widths 256 to 512. Each grid point writes back one block of 2000 node rows; each of the two products is a sum over 256 contracted columns; the blocks tile the array. -/
import proofs.«420280_j63763084477189_1_alg».proof.Proof.Gen.KernelIdeal.Frame
import proofs.«420280_j63763084477189_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Sage1

/-! ## The matrix product of a block of rows, read at an entry -/

/-- The left operand's row coordinate is the output's row. -/
theorem lhs_axis0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
/-- The left operand's column coordinate is the contracted coordinate. -/
theorem lhs_axis1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
/-- The right operand's row coordinate is the contracted coordinate. -/
theorem rhs_axis0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
/-- The right operand's column coordinate is the output's column. -/
theorem rhs_axis1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- A product of a block of rows with a weight, accumulated from zero, is at entry (p, q) the sum over the contracted
    coordinate of row p of the block times column q of the weight. -/
theorem rows_times_weight (a : FVec Ideal S2000x256 .f32) (w : FVec Ideal S256x512 .f32) (p : Fin 2000) (q : Fin 512) :
    matmul dot_S2000x256_S256x512_S2000x512_1_0_0_1_n_n none a w (constant (F := Ideal) S2000x512 .f32 0x00000000#32) (ix2 p q)
      = ∑ k : Fin 256, a (ix2 p k) * w (ix2 k q) := by
  refine (Ideal.matmul_constant_zero_apply dot_S2000x256_S256x512_S2000x512_1_0_0_1_n_n none a w (ix2 p q)).trans ?_
  rw [← Equiv.sum_comp (ValueIdx.contrEquiv1 dot_S2000x256_S256x512_S2000x512_1_0_0_1_n_n 256 rfl rfl).symm]
  refine Finset.sum_congr rfl fun k _ => ?_
  have hk := ValueIdx.contrEquiv1_symm_val dot_S2000x256_S256x512_S2000x512_1_0_0_1_n_n 256 rfl rfl k
  have el : dot_S2000x256_S256x512_S2000x512_1_0_0_1_n_n.lhsIdx (ix2 p q) ((ValueIdx.contrEquiv1 dot_S2000x256_S256x512_S2000x512_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2000x256_S256x512_S2000x512_1_0_0_1_n_n.rhsIdx (ix2 p q) ((ValueIdx.contrEquiv1 dot_S2000x256_S256x512_S2000x512_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The two broadcasts -/

/-- A column [a, 1] broadcast along the columns to [a, b] reads, at (p, c), the column's entry of row p. -/
theorem column_along_columns {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bias vector, made one row and broadcast down the rows, reads at (p, q) its entry q. -/
theorem bias_down_rows (b : FVec Ideal S512 .f32) (h1 : S512.ShapeCasts S1x512) (h2 : S1x512.Broadcasts S2000x512)
    (p : Fin 2000) (q : Fin 512) :
    broadcastTo S2000x512 (shapeCast S1x512 b h1) h2 (ix2 p q) = b (ix1 q) :=
  (broadcastTo_1b_ab_apply (shapeCast S1x512 b h1) h2 p q).trans (shapeCast_a_1a_apply b h1 0 q)

/-! ## The body's value at an entry of its block -/

/-- The block the body stores, at row p and column q: relu of the scaled aggregate's row times the first weight, plus
    the node's own row times the second weight, plus the bias. The scale of row p is one over the larger of the row's
    degree and one. -/
theorem body_entry (s : Vec Ideal S2000x256 .f32) (d : Vec Ideal S2000x1 .f32) (wa : Vec Ideal S256x512 .f32)
    (h : Vec Ideal S2000x256 .f32) (wh : Vec Ideal S256x512 .f32) (b : Vec Ideal S512 .f32) (p : Fin 2000) (q : Fin 512) :
    k4_pay1 (F := Ideal) s d wa h wh b (ix2 p q)
      = max (((∑ k : Fin 256, (s (ix2 p k) * Ideal.div Stage.one (max (d (ix2 p 0)) Stage.one)) * wa (ix2 k q))
          + (∑ k : Fin 256, h (ix2 p k) * wh (ix2 k q))) + b (ix1 q)) Stage.zero := by
  unfold k4_pay1
  simp only [shapeCast_self]
  refine (maximumf_apply _ _ _).trans ?_
  refine congrArg₂ max ?_ rfl
  refine (addf_apply _ _ _).trans ?_
  refine congrArg₂ (· + ·) ?_ (bias_down_rows b _ _ p q)
  refine (addf_apply _ _ _).trans ?_
  refine congrArg₂ (· + ·) ((rows_times_weight _ _ p q).trans ?_) (rows_times_weight _ _ p q)
  refine Finset.sum_congr rfl fun k _ => ?_
  refine congrArg (· * wa (ix2 k q)) ?_
  refine (mulf_apply _ _ _).trans ?_
  refine congrArg (s (ix2 p k) * ·) ?_
  exact column_along_columns _ _ p k

end Sage1

namespace Sage1

/-! ## From the blocks to the array -/

/-- The origin of a block, as the constant function. -/
theorem origin_rank2 : (![0, 0] : Fin 2 → Nat) = fun _ => 0 := funext fun a => by fin_cases a <;> rfl
theorem origin_rank1 : (![0] : Fin 1 → Nat) = fun _ => 0 := funext fun a => by fin_cases a <;> rfl

/-- The index maps over the grid: the three row-tiled inputs move with the output (block t of rows, the one block of
    columns), the two weights and the bias stay at their one block. -/
theorem block_indices : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = win4_6.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- The grid has fifty points. -/
theorem point_lt (t : Fin cfg4.N) : t.val < 50 := lt_of_lt_of_eq t.isLt N_4

/-- The layer's update at an index of the array whose row and column are given as numbers. -/
theorem update_at (s : FVec Ideal S100000x256 .f32) (d : FVec Ideal S100000x1 .f32) (h : FVec Ideal S100000x256 .f32)
    (wa wh : FVec Ideal S256x512 .f32) (b : FVec Ideal S512 .f32) (i : S100000x512.Idx) (r : Fin 100000) (q : Fin 512)
    (hr : r.val = (i 0).val) (hq : q.val = (i 1).val) :
    Stage.sage1 s d h wa wh b i
      = max (((∑ k : Fin 256, (s (ix2 r k) * Ideal.div Stage.one (max (d (ix2 r 0)) Stage.one)) * wa (ix2 k q))
          + (∑ k : Fin 256, h (ix2 r k) * wh (ix2 k q))) + b (ix1 q)) Stage.zero := by
  obtain rfl : r = ⟨(i 0).val, (i 0).isLt⟩ := Fin.ext hr
  obtain rfl : q = ⟨(i 1).val, (i 1).isLt⟩ := Fin.ext hq
  rfl

/-- Row p of point t's block of the aggregate is row t · 2000 + p of the array. -/
theorem read_aggregate (c : Dev nD) (t : Fin cfg4.N) (p : Fin 2000) (k : Fin 256) (hrow : win4_6.index t (0 : Fin 2) * 2000 + p.val < 100000) :
    iblk4 V c 0 t (ix2 p k) = V c main_v22 (ix2 ⟨win4_6.index t (0 : Fin 2) * 2000 + p.val, hrow⟩ k) := by
  obtain ⟨e00, e01, e10, e11, e20, e21, e30, e31, e40, e41, e50, e60, e61⟩ := block_indices t
  show V c main_v22 (((cfg4.win 0).blk t).view.emb (ix2 p k)) = _
  refine congrArg (V c main_v22) (funext fun a => Fin.ext ?_)
  match a with
  | ⟨0, _⟩ => show win4_0.index t (0 : Fin 2) * 2000 + 1 * p.val = win4_6.index t (0 : Fin 2) * 2000 + p.val; omega
  | ⟨1, _⟩ => show win4_0.index t (1 : Fin 2) * 256 + 1 * k.val = k.val; omega

/-- Row p of point t's block of the degree column is row t · 2000 + p of the column. -/
theorem read_degree (c : Dev nD) (t : Fin cfg4.N) (p : Fin 2000) (hrow : win4_6.index t (0 : Fin 2) * 2000 + p.val < 100000) :
    iblk4 V c 1 t (ix2 p (0 : Fin 1)) = V c main_v8 (ix2 ⟨win4_6.index t (0 : Fin 2) * 2000 + p.val, hrow⟩ (0 : Fin 1)) := by
  obtain ⟨e00, e01, e10, e11, e20, e21, e30, e31, e40, e41, e50, e60, e61⟩ := block_indices t
  show V c main_v8 (((cfg4.win 1).blk t).view.emb (ix2 p (0 : Fin 1))) = _
  refine congrArg (V c main_v8) (funext fun a => Fin.ext ?_)
  match a with
  | ⟨0, _⟩ => show win4_1.index t (0 : Fin 2) * 2000 + 1 * p.val = win4_6.index t (0 : Fin 2) * 2000 + p.val; omega
  | ⟨1, _⟩ => show win4_1.index t (1 : Fin 2) * 1 + 1 * 0 = 0; omega

/-- Row p of point t's block of the node features is row t · 2000 + p of the array. -/
theorem read_features (c : Dev nD) (t : Fin cfg4.N) (p : Fin 2000) (k : Fin 256) (hrow : win4_6.index t (0 : Fin 2) * 2000 + p.val < 100000) :
    iblk4 V c 2 t (ix2 p k) = V c main_v17 (ix2 ⟨win4_6.index t (0 : Fin 2) * 2000 + p.val, hrow⟩ k) := by
  obtain ⟨e00, e01, e10, e11, e20, e21, e30, e31, e40, e41, e50, e60, e61⟩ := block_indices t
  show V c main_v17 (((cfg4.win 2).blk t).view.emb (ix2 p k)) = _
  refine congrArg (V c main_v17) (funext fun a => Fin.ext ?_)
  match a with
  | ⟨0, _⟩ => show win4_2.index t (0 : Fin 2) * 2000 + 1 * p.val = win4_6.index t (0 : Fin 2) * 2000 + p.val; omega
  | ⟨1, _⟩ => show win4_2.index t (1 : Fin 2) * 256 + 1 * k.val = k.val; omega

/-- The first weight's one block is the weight. -/
theorem read_weight_a (c : Dev nD) (t : Fin cfg4.N) (k : Fin 256) (q : Fin 512) :
    iblk4 V c 3 t (ix2 k q) = V c main_v23 (ix2 k q) := by
  obtain ⟨e00, e01, e10, e11, e20, e21, e30, e31, e40, e41, e50, e60, e61⟩ := block_indices t
  show V c main_v23 (((cfg4.win 3).blk t).view.emb (ix2 k q)) = _
  refine congrArg (V c main_v23) (funext fun a => Fin.ext ?_)
  match a with
  | ⟨0, _⟩ => show win4_3.index t (0 : Fin 2) * 256 + 1 * k.val = k.val; omega
  | ⟨1, _⟩ => show win4_3.index t (1 : Fin 2) * 512 + 1 * q.val = q.val; omega

/-- The second weight's one block is the weight. -/
theorem read_weight_h (c : Dev nD) (t : Fin cfg4.N) (k : Fin 256) (q : Fin 512) :
    iblk4 V c 4 t (ix2 k q) = V c main_v24 (ix2 k q) := by
  obtain ⟨e00, e01, e10, e11, e20, e21, e30, e31, e40, e41, e50, e60, e61⟩ := block_indices t
  show V c main_v24 (((cfg4.win 4).blk t).view.emb (ix2 k q)) = _
  refine congrArg (V c main_v24) (funext fun a => Fin.ext ?_)
  match a with
  | ⟨0, _⟩ => show win4_4.index t (0 : Fin 2) * 256 + 1 * k.val = k.val; omega
  | ⟨1, _⟩ => show win4_4.index t (1 : Fin 2) * 512 + 1 * q.val = q.val; omega

/-- The bias's one block is the bias. -/
theorem read_bias (c : Dev nD) (t : Fin cfg4.N) (q : Fin 512) :
    iblk4 V c 5 t (ix1 q) = V c main_arg12 (ix1 q) := by
  obtain ⟨e00, e01, e10, e11, e20, e21, e30, e31, e40, e41, e50, e60, e61⟩ := block_indices t
  show V c main_arg12 (((cfg4.win 5).blk t).view.emb (ix1 q)) = _
  refine congrArg (V c main_arg12) (funext fun a => Fin.ext ?_)
  match a with
  | ⟨0, _⟩ => show win4_5.index t (0 : Fin 1) * 512 + 1 * q.val = q.val; omega

/-- What point t writes back is block t of the layer's update of the arrays the region finds. -/
theorem flushed_block (c : Dev nD) (t : Fin cfg4.N) :
    (dat4 (F := Ideal) V c).flushed 6 t = ((cfg4.win 6).blk t).view.read (Elt Ideal) (Stage.sage1 (V c main_v22) (V c main_v8) (V c main_v17) (V c main_v23) (V c main_v24) (V c main_arg12)) := by
  show (cfg4.win 6).cut (grid4.coords t) ((dat4 (F := Ideal) V c).after 6 t) = _
  rw [after4_6]
  unfold out4_6
  rw [View.canon_unit_zero origin_rank2]
  simp only [View.ld_unit_zero (S := S2000x256) origin_rank2, View.ld_unit_zero (S := S2000x1) origin_rank2,
    View.ld_unit_zero (S := S256x512) origin_rank2, View.ld_unit_zero (S := S512) origin_rank1]
  obtain ⟨e00, e01, e10, e11, e20, e21, e30, e31, e40, e41, e50, e60, e61⟩ := block_indices t
  have ht := point_lt t
  funext j
  obtain ⟨p, q, rfl⟩ : ∃ (p : Fin 2000) (q : Fin 512), j = ix2 p q := ⟨j 0, j 1, eq_ix2 j⟩
  have hrow : win4_6.index t (0 : Fin 2) * 2000 + p.val < 100000 := by have := p.isLt; omega
  show k4_pay1 (F := Ideal) (iblk4 V c 0 t) (iblk4 V c 1 t) (iblk4 V c 3 t) (iblk4 V c 2 t) (iblk4 V c 4 t) (iblk4 V c 5 t) (ix2 p q)
    = Stage.sage1 (V c main_v22) (V c main_v8) (V c main_v17) (V c main_v23) (V c main_v24) (V c main_arg12) (((cfg4.win 6).blk t).view.emb (ix2 p q))
  refine (body_entry (iblk4 V c 0 t) (iblk4 V c 1 t) (iblk4 V c 3 t) (iblk4 V c 2 t) (iblk4 V c 4 t) (iblk4 V c 5 t) p q).trans ?_
  have hr : (⟨win4_6.index t (0 : Fin 2) * 2000 + p.val, hrow⟩ : Fin 100000).val = ((((cfg4.win 6).blk t).view.emb (ix2 p q)) 0).val := by
    show win4_6.index t (0 : Fin 2) * 2000 + p.val = win4_6.index t (0 : Fin 2) * 2000 + 1 * p.val; omega
  have hq : q.val = ((((cfg4.win 6).blk t).view.emb (ix2 p q)) 1).val := by
    show q.val = win4_6.index t (1 : Fin 2) * 512 + 1 * q.val; omega
  refine Eq.trans ?_ (update_at (V c main_v22) (V c main_v8) (V c main_v17) (V c main_v23) (V c main_v24) (V c main_arg12)
    (((cfg4.win 6).blk t).view.emb (ix2 p q)) ⟨win4_6.index t (0 : Fin 2) * 2000 + p.val, hrow⟩ q hr hq).symm
  refine congrArg₂ max ?_ rfl
  refine congrArg₂ (· + ·) (congrArg₂ (· + ·) (Finset.sum_congr rfl fun k _ => ?_) (Finset.sum_congr rfl fun k _ => ?_)) (read_bias V c t q)
  · rw [read_aggregate V c t p k hrow, read_degree V c t p hrow, read_weight_a V c t k q]
  · rw [read_features V c t p k hrow, read_weight_h V c t k q]

/-- An index of the array is in point t's block iff each coordinate is in the block's range on its axis. -/
theorem mem_block (t : Fin cfg4.N) (i : S100000x512.Idx) :
    i ∈ ((cfg4.win 6).blk t).view.set ↔ ∀ a : Fin 2, win4_6.index t a * S2000x512.size a ≤ (i a).val ∧ (i a).val < win4_6.index t a * S2000x512.size a + S2000x512.size a := by
  show i ∈ ((View.whole main_v25).slice (win4_6.rect t)).set ↔ _
  rw [View.set_slice_whole, Rect.mem_set_unit]
  exact Iff.rfl

/-- Every index of the array is in some point's block: row r is in the block of point r / 2000. -/
theorem covered (i : S100000x512.Idx) :
    ∃ t : Fin cfg4.N, (cfg4.win 6).flush t = true ∧ i ∈ ((cfg4.win 6).blk t).view.set := by
  have hi0 : (i 0).val < 100000 := (i 0).isLt
  have hi1 : (i 1).val < 512 := (i 1).isLt
  obtain ⟨t, ht⟩ : ∃ t : Fin cfg4.N, t.val = (i 0).val / 2000 :=
    ⟨⟨(i 0).val / 2000, lt_of_lt_of_eq (show (i 0).val / 2000 < 50 by omega) N_4.symm⟩, rfl⟩
  obtain ⟨e00, e01, e10, e11, e20, e21, e30, e31, e40, e41, e50, e60, e61⟩ := block_indices t
  refine ⟨t, flush4_6 t, ?_⟩
  rw [mem_block]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 512 ≤ (i 1).val ∧ (i 1).val < win4_6.index t (1 : Fin 2) * 512 + 512; omega

end Sage1

/-- The array after the region: the layer's update of the arrays the region finds, at every index. -/
theorem final4 (c : Dev nD) :
    (dat4 (F := Ideal) V c).arrAt 6 cfg4.N = Stage.sage1 (V c main_v22) (V c main_v8) (V c main_v17) (V c main_v23) (V c main_v24) (V c main_arg12) :=
  (dat4 (F := Ideal) V c).arrAt_eq_of_cover 6 (Stage.sage1 (V c main_v22) (V c main_v8) (V c main_v17) (V c main_v23) (V c main_v24) (V c main_arg12))
    (fun t _ => Sage1.flushed_block V c t) Sage1.covered

end Cert.KernelIdeal.Region

end
-- ==== Proof.Region5.lean ====
/- The decoder region: the output array after the run is h · W + b of the region's input arrays, index by index. Each grid point writes back one block of 2000 rows; an entry is the row sum over the 512 contracted columns plus the bias; the blocks tile the array. -/
import proofs.«420280_j63763084477189_1_alg».proof.Proof.Gen.KernelIdeal.Frame
import proofs.«420280_j63763084477189_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## One block of the decoder: h · W + b at an index of the block -/

/-- The product's left operand is read at the output's row ... -/
theorem lhs_decode_0 (i : S2000x2.Idx) (q : dot_S2000x512_S512x2_S2000x2_1_0_0_1_n_n.contr.Idx) :
    (dot_S2000x512_S512x2_S2000x2_1_0_0_1_n_n.lhsIdx i q 0).val = (i 0).val := by
  unfold DotDims.lhsIdx
  rw [dif_neg (show ¬(0 : Fin S2000x512.rank) ∈ dot_S2000x512_S512x2_S2000x2_1_0_0_1_n_n.lhsBatch by decide), dif_pos (show (0 : Fin S2000x512.rank) ∈ dot_S2000x512_S512x2_S2000x2_1_0_0_1_n_n.lhsNonContracting by decide)]
  rfl
/-- ... and the contracted coordinate, -/
theorem lhs_decode_1 (i : S2000x2.Idx) (q : dot_S2000x512_S512x2_S2000x2_1_0_0_1_n_n.contr.Idx) :
    (dot_S2000x512_S512x2_S2000x2_1_0_0_1_n_n.lhsIdx i q 1).val = (q ⟨0, by decide⟩).val :=
  dot_S2000x512_S512x2_S2000x2_1_0_0_1_n_n.lhsIdx_val_of_single rfl i q
/-- the right operand at the contracted coordinate ... -/
theorem rhs_decode_0 (i : S2000x2.Idx) (q : dot_S2000x512_S512x2_S2000x2_1_0_0_1_n_n.contr.Idx) :
    (dot_S2000x512_S512x2_S2000x2_1_0_0_1_n_n.rhsIdx i q 0).val = (q ⟨0, by decide⟩).val :=
  dot_S2000x512_S512x2_S2000x2_1_0_0_1_n_n.rhsIdx_val_of_single rfl i q
/-- ... and the output's column. -/
theorem rhs_decode_1 (i : S2000x2.Idx) (q : dot_S2000x512_S512x2_S2000x2_1_0_0_1_n_n.contr.Idx) :
    (dot_S2000x512_S512x2_S2000x2_1_0_0_1_n_n.rhsIdx i q 1).val = (i 1).val := by
  unfold DotDims.rhsIdx
  rw [dif_neg (show ¬(1 : Fin S512x2.rank) ∈ dot_S2000x512_S512x2_S2000x2_1_0_0_1_n_n.rhsBatch by decide), dif_pos (show (1 : Fin S512x2.rank) ∈ dot_S2000x512_S512x2_S2000x2_1_0_0_1_n_n.rhsNonContracting by decide)]
  rfl

/-- The matrix product into the zero accumulator, at (p, q): the sum over the 512 contracted coordinates of
    h (p, k) · w (k, q). -/
theorem product_decode (h : FVec Ideal S2000x512 .f32) (w : FVec Ideal S512x2 .f32) (p : Fin 2000) (q : Fin 2) :
    matmul dot_S2000x512_S512x2_S2000x2_1_0_0_1_n_n none h w (constant (F := Ideal) S2000x2 .f32 0x00000000#32) (ix2 p q)
      = ∑ k : Fin 512, h (ix2 p k) * w (ix2 k q) := by
  show FloatOps.matmul dot_S2000x512_S512x2_S2000x2_1_0_0_1_n_n none h w (constant S2000x2 .f32 0x00000000#32) (ix2 p q) = _
  rw [Ideal.matmul_constant_zero_apply, ← Equiv.sum_comp (ValueIdx.contrEquiv1 dot_S2000x512_S512x2_S2000x2_1_0_0_1_n_n 512 rfl rfl).symm]
  refine Finset.sum_congr rfl fun k _ => ?_
  have hk := ValueIdx.contrEquiv1_symm_val dot_S2000x512_S512x2_S2000x2_1_0_0_1_n_n 512 rfl rfl k
  have el : dot_S2000x512_S512x2_S2000x2_1_0_0_1_n_n.lhsIdx (ix2 p q) ((ValueIdx.contrEquiv1 dot_S2000x512_S512x2_S2000x2_1_0_0_1_n_n 512 rfl rfl).symm k) = ix2 p k := funext fun a => Fin.ext (by
    match a with
    | ⟨0, _⟩ => exact lhs_decode_0 _ _
    | ⟨1, _⟩ => exact (lhs_decode_1 _ _).trans hk)
  have er : dot_S2000x512_S512x2_S2000x2_1_0_0_1_n_n.rhsIdx (ix2 p q) ((ValueIdx.contrEquiv1 dot_S2000x512_S512x2_S2000x2_1_0_0_1_n_n 512 rfl rfl).symm k) = ix2 k q := funext fun a => Fin.ext (by
    match a with
    | ⟨0, _⟩ => exact (rhs_decode_0 _ _).trans hk
    | ⟨1, _⟩ => exact rhs_decode_1 _ _)
  rw [el, er]

/-- The block the body stores, at (p, q): the row of h times the column of w plus the bias at q (the cast of
    h to its own shape is the identity). -/
theorem block_decode (h : Vec Ideal S2000x512 .f32) (w : Vec Ideal S512x2 .f32) (b : Vec Ideal S2 .f32) (p : Fin 2000) (q : Fin 2) :
    k5_pay1 (F := Ideal) h w b (ix2 p q) = (∑ k : Fin 512, h (ix2 p k) * w (ix2 k q)) + b (ix1 q) := by
  unfold k5_pay1
  simp only [addf_apply]
  rw [shapeCast_self, product_decode, broadcastTo_1b_ab_apply, shapeCast_a_1a_apply]

/-- The block at any index of its shape, coordinates named. -/
theorem block_decode_at (h : Vec Ideal S2000x512 .f32) (w : Vec Ideal S512x2 .f32) (b : Vec Ideal S2 .f32) (j : S2000x2.Idx) :
    k5_pay1 (F := Ideal) h w b j
      = (∑ k : Fin 512, h (ix2 ⟨(j 0).val, (j 0).isLt⟩ k) * w (ix2 k ⟨(j 1).val, (j 1).isLt⟩)) + b (ix1 ⟨(j 1).val, (j 1).isLt⟩) := by
  obtain ⟨p, q, rfl⟩ : ∃ (p : Fin 2000) (q : Fin 2), j = ix2 p q := ⟨j 0, j 1, eq_ix2 j⟩
  exact block_decode h w b p q

/-- A block whose rows are rows of h from row i 0 on, beside the whole weight and bias, holds the decoder's result
    at the array index i, for the block index j that names the same row and column. -/
theorem tile_decode (A : FVec Ideal S100000x512 .f32) (W : FVec Ideal S512x2 .f32) (B : FVec Ideal S2 .f32)
    (h : Vec Ideal S2000x512 .f32) (w : Vec Ideal S512x2 .f32) (b : Vec Ideal S2 .f32)
    (j : S2000x2.Idx) (i : S100000x2.Idx)
    (hh : ∀ k : Fin 512, h (ix2 ⟨(j 0).val, (j 0).isLt⟩ k) = A (ix2 ⟨(i 0).val, (i 0).isLt⟩ k))
    (hw : ∀ k : Fin 512, w (ix2 k ⟨(j 1).val, (j 1).isLt⟩) = W (ix2 k ⟨(i 1).val, (i 1).isLt⟩))
    (hb : b (ix1 ⟨(j 1).val, (j 1).isLt⟩) = B (ix1 ⟨(i 1).val, (i 1).isLt⟩)) :
    k5_pay1 (F := Ideal) h w b j = Stage.decode A W B i := by
  rw [block_decode_at]
  show _ = (∑ k : Fin 512, A (ix2 ⟨(i 0).val, (i 0).isLt⟩ k) * W (ix2 k ⟨(i 1).val, (i 1).isLt⟩)) + B (ix1 ⟨(i 1).val, (i 1).isLt⟩)
  rw [hb]
  refine congrArg (fun s => s + _) (Finset.sum_congr rfl fun k _ => ?_)
  rw [hh k, hw k]

/-! ## From the blocks to the array: the 50 row tiles of 2000 rows fill the 100000 rows -/

theorem zero_offset2 : (![0, 0] : Fin 2 → Nat) = fun _ => 0 := funext fun a => by fin_cases a <;> rfl
theorem zero_offset1 : (![0] : Fin 1 → Nat) = fun _ => 0 := funext fun a => by fin_cases a <;> rfl

/-- The printed index maps over the grid: the rows of h and of the result are tiled by the point, the
    weight and the bias are whole at every point. -/
theorem tiles_decode : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 1) = 0
    ∧ win5_3.index t (0 : Fin 2) ≤ 49
    ∧ win5_3.index t (1 : Fin 2) = 0 :=
  (by decide +kernel : ∀ t : Fin grid5.N, _)

/-- Every row tile is some point's. -/
theorem tiles_decode_onto : ∀ (r : Fin 50), ∃ t : Fin cfg5.N, win5_3.index t = ![r.val, 0] :=
  (by decide +kernel : ∀ (r : Fin 50), ∃ t : Fin grid5.N, win5_3.index t = ![r.val, 0])

/-- WHAT POINT t WRITES BACK is block t of the decoder's result as a function of the arrays the region finds. -/
theorem flushed_decode (c : Dev nD) (t : Fin cfg5.N) :
    (dat5 (F := Ideal) V c).flushed 3 t
      = ((cfg5.win 3).blk t).view.read (Elt Ideal) (Stage.decode (V c main_v25) (V c main_arg13) (V c main_arg14)) := by
  show (cfg5.win 3).cut (grid5.coords t) ((dat5 V c).after 3 t) = _
  rw [after5_3]
  unfold out5_3
  rw [View.canon_unit_zero zero_offset2]
  simp only [View.ld_unit_zero (S := S2000x512) zero_offset2, View.ld_unit_zero (S := S512x2) zero_offset2, View.ld_unit_zero (S := S2) zero_offset1]
  obtain ⟨e0, e1, e2, e3, e4, e5, e6⟩ := tiles_decode t
  funext j
  refine tile_decode (V c main_v25) (V c main_arg13) (V c main_arg14) _ _ _ j (((cfg5.win 3).blk t).view.emb j) (fun k => ?_) (fun k => ?_) ?_
  · show V c main_v25 (((cfg5.win 0).blk t).view.emb (ix2 ⟨(j 0).val, (j 0).isLt⟩ k)) = _
    refine congrArg _ (funext fun a => Fin.ext ?_)
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 512 + 1 * k.val = k.val; omega
  · show V c main_arg13 (((cfg5.win 1).blk t).view.emb (ix2 k ⟨(j 1).val, (j 1).isLt⟩)) = _
    refine congrArg _ (funext fun a => Fin.ext ?_)
    match a with
    | ⟨0, _⟩ => show win5_1.index t (0 : Fin 2) * 512 + 1 * k.val = k.val; omega
    | ⟨1, _⟩ => show win5_1.index t (1 : Fin 2) * 2 + 1 * (j 1).val = win5_3.index t (1 : Fin 2) * 2 + 1 * (j 1).val; omega
  · show V c main_arg14 (((cfg5.win 2).blk t).view.emb (ix1 ⟨(j 1).val, (j 1).isLt⟩)) = _
    refine congrArg _ (funext fun a => Fin.ext ?_)
    match a with
    | ⟨0, _⟩ => show win5_2.index t (0 : Fin 1) * 2 + 1 * (j 1).val = win5_3.index t (1 : Fin 2) * 2 + 1 * (j 1).val; omega

/-- An index of the array is in point t's block iff each coordinate is in the block's range on its axis. -/
theorem mem_tile_decode (t : Fin cfg5.N) (i : S100000x2.Idx) :
    i ∈ ((cfg5.win 3).blk t).view.set ↔ ∀ a : Fin 2, win5_3.index t a * S2000x2.size a ≤ (i a).val ∧ (i a).val < win5_3.index t a * S2000x2.size a + S2000x2.size a := by
  show i ∈ ((View.whole main_v26).slice (win5_3.rect t)).set ↔ _
  rw [View.set_slice_whole, Rect.mem_set_unit]
  exact Iff.rfl

/-- Row r of the array lies in the tile of point r / 2000: the tiles cover the array. -/
theorem cover_decode (i : S100000x2.Idx) :
    ∃ t : Fin cfg5.N, (cfg5.win 3).flush t = true ∧ i ∈ ((cfg5.win 3).blk t).view.set := by
  have hi0 : (i 0).val < 100000 := (i 0).isLt
  have hi1 : (i 1).val < 2 := (i 1).isLt
  obtain ⟨t, ht⟩ := tiles_decode_onto ⟨(i 0).val / 2000, by omega⟩
  have q0 : win5_3.index t (0 : Fin 2) = (i 0).val / 2000 := congrFun ht 0
  have q1 : win5_3.index t (1 : Fin 2) = 0 := congrFun ht 1
  refine ⟨t, flush5_3 t, ?_⟩
  rw [mem_tile_decode]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 2 ≤ (i 1).val ∧ (i 1).val < win5_3.index t (1 : Fin 2) * 2 + 2; omega

theorem final5 (c : Dev nD) :
    (dat5 (F := Ideal) V c).arrAt 3 cfg5.N = Stage.decode (V c main_v25) (V c main_arg13) (V c main_arg14) :=
  (dat5 (F := Ideal) V c).arrAt_eq_of_cover 3 _ (fun t _ => flushed_decode V c t) cover_decode

end Cert.KernelIdeal.Region

end
-- ==== Proof.RunB.lean ====
/- The contents of the buffers read from the sixth segment boundary to the last, and the result. -/
import proofs.«420280_j63763084477189_1_alg».proof.Proof.Gen.KernelIdeal.Frame
import proofs.«420280_j63763084477189_1_alg».proof.Proof.Stages
import proofs.«420280_j63763084477189_1_alg».proof.Proof.RunDefs
import proofs.«420280_j63763084477189_1_alg».proof.Proof.RunA
import proofs.«420280_j63763084477189_1_alg».proof.Proof.Region2
import proofs.«420280_j63763084477189_1_alg».proof.Proof.Region3
import proofs.«420280_j63763084477189_1_alg».proof.Proof.Region4
import proofs.«420280_j63763084477189_1_alg».proof.Proof.Region5
import Idealize.ShloMosaic.Lib.StableHlo.Run

set_option maxRecDepth 16384

noncomputable section

namespace Cert.KernelIdeal.Run

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- A buffer that none of a stretch's host operations writes holds after the stretch what it held before it:
    every operation's result buffer is a reference other than the given one. -/
local macro "host_carry " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- Moving a value to an equal type and back gives the value. -/
theorem cast_cast_cancel.{u} {α β : Sort u} (h₁ : β = α) (h₂ : α = β) (v : α) : cast h₁ (cast h₂ v) = v := by
  subst h₂; rfl

/-! ## After region 2

Region 2 writes its output window only (the node features after the first layer); its input windows and every
buffer outside its windows hold what they held at its entry. -/

theorem at6_v1 : W6 m ρ c (Proc.devRef .tc main_v1) = Stage.src (A2 m c) :=
  (W6_of_ne m ρ c main_v1 (by decide)).trans (at5_v1 m ρ c)
theorem at6_v3 : W6 m ρ c (Proc.devRef .tc main_v3) = Stage.dst (A2 m c) :=
  (W6_of_ne m ρ c main_v3 (by decide)).trans (at5_v3 m ρ c)
theorem at6_a1 : W6 m ρ c (Proc.devRef .tc main_arg1) = A1 m c :=
  (W6_of_ne m ρ c main_arg1 (by decide)).trans (at5_a1 m ρ c)
theorem at6_a9 : W6 m ρ c (Proc.devRef .tc main_arg9) = A9 m c :=
  (W6_of_ne m ρ c main_arg9 (by decide)).trans (at5_a9 m ρ c)
theorem at6_a10 : W6 m ρ c (Proc.devRef .tc main_arg10) = A10 m c :=
  (W6_of_ne m ρ c main_arg10 (by decide)).trans (at5_a10 m ρ c)
theorem at6_a11 : W6 m ρ c (Proc.devRef .tc main_arg11) = A11 m c :=
  (W6_of_ne m ρ c main_arg11 (by decide)).trans (at5_a11 m ρ c)
theorem at6_a12 : W6 m ρ c (Proc.devRef .tc main_arg12) = A12 m c :=
  (W6_of_ne m ρ c main_arg12 (by decide)).trans (at5_a12 m ρ c)
theorem at6_a13 : W6 m ρ c (Proc.devRef .tc main_arg13) = A13 m c :=
  (W6_of_ne m ρ c main_arg13 (by decide)).trans (at5_a13 m ρ c)
theorem at6_a14 : W6 m ρ c (Proc.devRef .tc main_arg14) = A14 m c :=
  (W6_of_ne m ρ c main_arg14 (by decide)).trans (at5_a14 m ρ c)

/-- The in-degree column is an input window of region 2: the pipeline leaves an input as it was entered. -/
theorem at6_v8 : W6 m ρ c (Proc.devRef .tc main_v8) = Stage.deg (A2 m c) :=
  ((W6_arr m ρ c 1).trans (((dat2 (V5 m ρ) c).arrAt_in 1 rfl _).trans (A_eq2 (V5 m ρ) c 1))).trans (at5_v8 m ρ c)

/-- Region 2's output is the first layer's update applied to the entry contents, which are the summed messages,
    the in-degree, the encoder's features and the two halves of the layer's weight. -/
theorem at6_v17 : W6 m ρ c (Proc.devRef .tc main_v17) = H1 m c :=
  calc W6 m ρ c (Proc.devRef .tc main_v17)
    _ = (dat2 (V5 m ρ) c).arrAt 6 cfg2.N := W6_arr m ρ c 6
    _ = Stage.sage0 (V5 m ρ c main_v14) (V5 m ρ c main_v8) (V5 m ρ c main_v9) (V5 m ρ c main_v15) (V5 m ρ c main_v16) (V5 m ρ c main_arg8) :=
        Region.final2 (V5 m ρ) c
    _ = Stage.sage0 (S0 m c) (Stage.deg (A2 m c)) (H0 m c) (Stage.wa0 (A7 m c)) (Stage.wh0 (A7 m c)) (A8 m c) := by
        rw [show V5 m ρ c main_v14 = S0 m c from at5_v14 m ρ c, show V5 m ρ c main_v8 = Stage.deg (A2 m c) from at5_v8 m ρ c,
          show V5 m ρ c main_v9 = H0 m c from at5_v9 m ρ c, show V5 m ρ c main_v15 = Stage.wa0 (A7 m c) from at5_v15 m ρ c,
          show V5 m ρ c main_v16 = Stage.wh0 (A7 m c) from at5_v16 m ρ c, show V5 m ρ c main_arg8 = A8 m c from at5_a8 m ρ c]
    _ = H1 m c := rfl

/-! ## After the second gather (region 3's entry)

The stretch writes the gathered rows and its own temporaries; it reads the source indices and the node features. -/

theorem at7_v3 : W7 m ρ c (Proc.devRef .tc main_v3) = Stage.dst (A2 m c) :=
  (show W7 m ρ c (Proc.devRef .tc main_v3) = W6 m ρ c (Proc.devRef .tc main_v3) by host_carry hostOps3).trans (at6_v3 m ρ c)
theorem at7_v8 : W7 m ρ c (Proc.devRef .tc main_v8) = Stage.deg (A2 m c) :=
  (show W7 m ρ c (Proc.devRef .tc main_v8) = W6 m ρ c (Proc.devRef .tc main_v8) by host_carry hostOps3).trans (at6_v8 m ρ c)
theorem at7_v17 : W7 m ρ c (Proc.devRef .tc main_v17) = H1 m c :=
  (show W7 m ρ c (Proc.devRef .tc main_v17) = W6 m ρ c (Proc.devRef .tc main_v17) by host_carry hostOps3).trans (at6_v17 m ρ c)
theorem at7_a1 : W7 m ρ c (Proc.devRef .tc main_arg1) = A1 m c :=
  (show W7 m ρ c (Proc.devRef .tc main_arg1) = W6 m ρ c (Proc.devRef .tc main_arg1) by host_carry hostOps3).trans (at6_a1 m ρ c)
theorem at7_a9 : W7 m ρ c (Proc.devRef .tc main_arg9) = A9 m c :=
  (show W7 m ρ c (Proc.devRef .tc main_arg9) = W6 m ρ c (Proc.devRef .tc main_arg9) by host_carry hostOps3).trans (at6_a9 m ρ c)
theorem at7_a10 : W7 m ρ c (Proc.devRef .tc main_arg10) = A10 m c :=
  (show W7 m ρ c (Proc.devRef .tc main_arg10) = W6 m ρ c (Proc.devRef .tc main_arg10) by host_carry hostOps3).trans (at6_a10 m ρ c)
theorem at7_a11 : W7 m ρ c (Proc.devRef .tc main_arg11) = A11 m c :=
  (show W7 m ρ c (Proc.devRef .tc main_arg11) = W6 m ρ c (Proc.devRef .tc main_arg11) by host_carry hostOps3).trans (at6_a11 m ρ c)
theorem at7_a12 : W7 m ρ c (Proc.devRef .tc main_arg12) = A12 m c :=
  (show W7 m ρ c (Proc.devRef .tc main_arg12) = W6 m ρ c (Proc.devRef .tc main_arg12) by host_carry hostOps3).trans (at6_a12 m ρ c)
theorem at7_a13 : W7 m ρ c (Proc.devRef .tc main_arg13) = A13 m c :=
  (show W7 m ρ c (Proc.devRef .tc main_arg13) = W6 m ρ c (Proc.devRef .tc main_arg13) by host_carry hostOps3).trans (at6_a13 m ρ c)
theorem at7_a14 : W7 m ρ c (Proc.devRef .tc main_arg14) = A14 m c :=
  (show W7 m ρ c (Proc.devRef .tc main_arg14) = W6 m ρ c (Proc.devRef .tc main_arg14) by host_carry hostOps3).trans (at6_a14 m ρ c)

/-- The gathered rows: the stretch's operations, read off its last result, are the gather of the node features at
    the wrapped source indices with out-of-range rows filled, over the source indices and the features at its entry. -/
theorem at7_v18 : W7 m ρ c (Proc.devRef .tc main_v18) = Stage.take1 (H1 m c) (A2 m c) := by
  show StableHlo.after hostOps3 (W6 m ρ c) (Proc.devRef .tc main_v18) = _
  dsimp only [hostOps3]
  after_results_simp
  simp only [StableHlo.TRef.ofBuf, StableHlo.TRef.toBuf, cast_cast_cancel]
  simp only [cast_eq]
  rw [at6_v1 m ρ c, at6_v17 m ρ c]
  rfl

/-! ## After region 3 -/

theorem at8_v3 : W8 m ρ c (Proc.devRef .tc main_v3) = Stage.dst (A2 m c) :=
  (W8_of_ne m ρ c main_v3 (by decide)).trans (at7_v3 m ρ c)
theorem at8_v8 : W8 m ρ c (Proc.devRef .tc main_v8) = Stage.deg (A2 m c) :=
  (W8_of_ne m ρ c main_v8 (by decide)).trans (at7_v8 m ρ c)
theorem at8_v17 : W8 m ρ c (Proc.devRef .tc main_v17) = H1 m c :=
  (W8_of_ne m ρ c main_v17 (by decide)).trans (at7_v17 m ρ c)
theorem at8_a11 : W8 m ρ c (Proc.devRef .tc main_arg11) = A11 m c :=
  (W8_of_ne m ρ c main_arg11 (by decide)).trans (at7_a11 m ρ c)
theorem at8_a12 : W8 m ρ c (Proc.devRef .tc main_arg12) = A12 m c :=
  (W8_of_ne m ρ c main_arg12 (by decide)).trans (at7_a12 m ρ c)
theorem at8_a13 : W8 m ρ c (Proc.devRef .tc main_arg13) = A13 m c :=
  (W8_of_ne m ρ c main_arg13 (by decide)).trans (at7_a13 m ρ c)
theorem at8_a14 : W8 m ρ c (Proc.devRef .tc main_arg14) = A14 m c :=
  (W8_of_ne m ρ c main_arg14 (by decide)).trans (at7_a14 m ρ c)

/-- Region 3's output is the second layer's messages over the gathered rows, the edge attributes and the edge map. -/
theorem at8_v19 : W8 m ρ c (Proc.devRef .tc main_v19) = M1 m c :=
  calc W8 m ρ c (Proc.devRef .tc main_v19)
    _ = (dat3 (V7 m ρ) c).arrAt 4 cfg3.N := W8_arr m ρ c 4
    _ = Stage.message1 (V7 m ρ c main_v18) (V7 m ρ c main_arg1) (V7 m ρ c main_arg9) (V7 m ρ c main_arg10) :=
        Region.final3 (V7 m ρ) c
    _ = Stage.message1 (Stage.take1 (H1 m c) (A2 m c)) (A1 m c) (A9 m c) (A10 m c) := by
        rw [show V7 m ρ c main_v18 = Stage.take1 (H1 m c) (A2 m c) from at7_v18 m ρ c, show V7 m ρ c main_arg1 = A1 m c from at7_a1 m ρ c,
          show V7 m ρ c main_arg9 = A9 m c from at7_a9 m ρ c, show V7 m ρ c main_arg10 = A10 m c from at7_a10 m ρ c]
    _ = M1 m c := rfl

/-! ## After the second scatter and the weight slices (region 4's entry) -/

theorem at9_v8 : W9 m ρ c (Proc.devRef .tc main_v8) = Stage.deg (A2 m c) :=
  (show W9 m ρ c (Proc.devRef .tc main_v8) = W8 m ρ c (Proc.devRef .tc main_v8) by host_carry hostOps4).trans (at8_v8 m ρ c)
theorem at9_v17 : W9 m ρ c (Proc.devRef .tc main_v17) = H1 m c :=
  (show W9 m ρ c (Proc.devRef .tc main_v17) = W8 m ρ c (Proc.devRef .tc main_v17) by host_carry hostOps4).trans (at8_v17 m ρ c)
theorem at9_a12 : W9 m ρ c (Proc.devRef .tc main_arg12) = A12 m c :=
  (show W9 m ρ c (Proc.devRef .tc main_arg12) = W8 m ρ c (Proc.devRef .tc main_arg12) by host_carry hostOps4).trans (at8_a12 m ρ c)
theorem at9_a13 : W9 m ρ c (Proc.devRef .tc main_arg13) = A13 m c :=
  (show W9 m ρ c (Proc.devRef .tc main_arg13) = W8 m ρ c (Proc.devRef .tc main_arg13) by host_carry hostOps4).trans (at8_a13 m ρ c)
theorem at9_a14 : W9 m ρ c (Proc.devRef .tc main_arg14) = A14 m c :=
  (show W9 m ρ c (Proc.devRef .tc main_arg14) = W8 m ρ c (Proc.devRef .tc main_arg14) by host_carry hostOps4).trans (at8_a14 m ρ c)

/-- The messages summed onto their destinations: the scatter onto zeros at the destination column. -/
theorem at9_v22 : W9 m ρ c (Proc.devRef .tc main_v22) = S1 m c := by
  show StableHlo.after hostOps4 (W8 m ρ c) (Proc.devRef .tc main_v22) = _
  dsimp only [hostOps4]
  after_results
  rw [at8_v3 m ρ c, at8_v19 m ρ c]
  rfl
/-- The upper half of the second layer's weight. -/
theorem at9_v23 : W9 m ρ c (Proc.devRef .tc main_v23) = Stage.wa1 (A11 m c) := by
  show StableHlo.after hostOps4 (W8 m ρ c) (Proc.devRef .tc main_v23) = _
  dsimp only [hostOps4]
  after_results
  rw [at8_a11 m ρ c]
  rfl
/-- The lower half of the second layer's weight. -/
theorem at9_v24 : W9 m ρ c (Proc.devRef .tc main_v24) = Stage.wh1 (A11 m c) := by
  show StableHlo.after hostOps4 (W8 m ρ c) (Proc.devRef .tc main_v24) = _
  dsimp only [hostOps4]
  after_results
  rw [at8_a11 m ρ c]
  rfl

/-! ## After region 4 (region 5's entry) -/

theorem at10_a13 : W10 m ρ c (Proc.devRef .tc main_arg13) = A13 m c :=
  (W10_of_ne m ρ c main_arg13 (by decide)).trans (at9_a13 m ρ c)
theorem at10_a14 : W10 m ρ c (Proc.devRef .tc main_arg14) = A14 m c :=
  (W10_of_ne m ρ c main_arg14 (by decide)).trans (at9_a14 m ρ c)

/-- Region 4's output is the second layer's update applied to its entry contents. -/
theorem at10_v25 : W10 m ρ c (Proc.devRef .tc main_v25) = H2 m c :=
  calc W10 m ρ c (Proc.devRef .tc main_v25)
    _ = (dat4 (V9 m ρ) c).arrAt 6 cfg4.N := W10_arr m ρ c 6
    _ = Stage.sage1 (V9 m ρ c main_v22) (V9 m ρ c main_v8) (V9 m ρ c main_v17) (V9 m ρ c main_v23) (V9 m ρ c main_v24) (V9 m ρ c main_arg12) :=
        Region.final4 (V9 m ρ) c
    _ = Stage.sage1 (S1 m c) (Stage.deg (A2 m c)) (H1 m c) (Stage.wa1 (A11 m c)) (Stage.wh1 (A11 m c)) (A12 m c) := by
        rw [show V9 m ρ c main_v22 = S1 m c from at9_v22 m ρ c, show V9 m ρ c main_v8 = Stage.deg (A2 m c) from at9_v8 m ρ c,
          show V9 m ρ c main_v17 = H1 m c from at9_v17 m ρ c, show V9 m ρ c main_v23 = Stage.wa1 (A11 m c) from at9_v23 m ρ c,
          show V9 m ρ c main_v24 = Stage.wh1 (A11 m c) from at9_v24 m ρ c, show V9 m ρ c main_arg12 = A12 m c from at9_a12 m ρ c]
    _ = H2 m c := rfl

/-! ## After region 5: the result -/

/-- Region 5's output is the decoder applied to the second layer's features. -/
theorem at11_v26 : W11 m ρ c (Proc.devRef .tc main_v26) = Out m c :=
  calc W11 m ρ c (Proc.devRef .tc main_v26)
    _ = (dat5 (V10 m ρ) c).arrAt 3 cfg5.N := W11_arr m ρ c 3
    _ = Stage.decode (V10 m ρ c main_v25) (V10 m ρ c main_arg13) (V10 m ρ c main_arg14) := Region.final5 (V10 m ρ) c
    _ = Stage.decode (H2 m c) (A13 m c) (A14 m c) := by
        rw [show V10 m ρ c main_v25 = H2 m c from at10_v25 m ρ c, show V10 m ρ c main_arg13 = A13 m c from at10_a13 m ρ c,
          show V10 m ρ c main_arg14 = A14 m c from at10_a14 m ρ c]
    _ = Out m c := rfl

end Cert.KernelIdeal.Run

end
-- ==== Proof.BridgeLinear.lean ====
/- The two linear regions and the two message regions against the reference's operations: the same finite sums. -/
import proofs.«420280_j63763084477189_1_alg».proof.Proof.Stages
import proofs.«420280_j63763084477189_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx

/-- Two rank-2 indices with the same coordinates are the same index. -/
theorem idx2_ext {n0 n1 : Nat} (p q : (⟨2, ![n0, n1]⟩ : Shape).Idx)
    (h0 : (p 0).val = (q 0).val) (h1 : (p 1).val = (q 1).val) : p = q :=
  funext fun a => Fin.ext (by match a with | ⟨0, _⟩ => exact h0 | ⟨1, _⟩ => exact h1)

/-- Two rank-1 indices with the same coordinate are the same index. -/
theorem idx1_ext {n0 : Nat} (p q : (⟨1, ![n0]⟩ : Shape).Idx)
    (h0 : (p 0).val = (q 0).val) : p = q :=
  funext fun a => Fin.ext (by match a with | ⟨0, _⟩ => exact h0)

/-- The encoder: the reference's relu (dot_general x W + broadcast b) read at an index is the kernel's row sum. -/
theorem encode_eq (x : FVec Ideal Cert.KernelIdeal.S100000x32 .f32) (w : FVec Ideal Cert.KernelIdeal.S32x128 .f32) (b : FVec Ideal Cert.KernelIdeal.S128 .f32) :
    Cert.KernelIdeal.Stage.encode x w b = Cert.ReferenceIdeal.Read.val_main_v8 (F := Ideal) x w b := by
  funext i
  rw [Cert.ReferenceIdeal.Read.val_main_v8_apply, Cert.ReferenceIdeal.Read.val_main_v7_apply,
    Cert.ReferenceIdeal.Read.val_main_v4_apply, Cert.ReferenceIdeal.Read.val_main_v6_apply,
    Cert.ReferenceIdeal.Read.val_main_v5_apply, Cert.ReferenceIdeal.Read.val_main_call0_v0_apply]
  have el : ∀ k : Fin 32, Cert.ReferenceIdeal.Read.lidx_main_v4 i k = ix2 ⟨(i 0).val, (i 0).isLt⟩ k :=
    fun k => idx2_ext _ _ rfl rfl
  have er : ∀ k : Fin 32, Cert.ReferenceIdeal.Read.ridx_main_v4 i k = ix2 k ⟨(i 1).val, (i 1).isLt⟩ :=
    fun k => idx2_ext _ _ rfl rfl
  have eb : Cert.ReferenceIdeal.Read.idx_main_v5 (Cert.ReferenceIdeal.Read.idx_main_v6 i) = ix1 ⟨(i 1).val, (i 1).isLt⟩ :=
    idx1_ext _ _ rfl
  simp only [el, er, eb]
  rfl

/-- The decoder's matrix product read at an index, for an arbitrary left operand: the sum over the contracted
    coordinate of the left operand's row entry times the right operand's column entry. -/
theorem decode_dot_apply (h : FVec Ideal Cert.ReferenceIdeal.S100000x512 .f32) (w : FVec Ideal Cert.ReferenceIdeal.S512x2 .f32)
    (i : Cert.ReferenceIdeal.S100000x2.Idx) :
    Host.dotGeneral Cert.ReferenceIdeal.dot_S100000x512_S512x2_S100000x2_1_0_0_1_n_n none h w i
      = ∑ k : Fin 512, h (Cert.ReferenceIdeal.Read.lidx_main_v67 i k) * w (Cert.ReferenceIdeal.Read.ridx_main_v67 i k) := by
  simp only [Host.dotGeneral]
  rw [Ideal.dotGeneral_apply, ← Equiv.sum_comp (ValueIdx.contrEquiv1 Cert.ReferenceIdeal.dot_S100000x512_S512x2_S100000x2_1_0_0_1_n_n 512 rfl rfl).symm]
  refine Finset.sum_congr rfl fun k _ => ?_
  have hk := ValueIdx.contrEquiv1_symm_val Cert.ReferenceIdeal.dot_S100000x512_S512x2_S100000x2_1_0_0_1_n_n 512 rfl rfl k
  have el : Cert.ReferenceIdeal.dot_S100000x512_S512x2_S100000x2_1_0_0_1_n_n.lhsIdx i ((ValueIdx.contrEquiv1 Cert.ReferenceIdeal.dot_S100000x512_S512x2_S100000x2_1_0_0_1_n_n 512 rfl rfl).symm k) = Cert.ReferenceIdeal.Read.lidx_main_v67 i k := funext fun a => Fin.ext (by
    match a with
    | ⟨0, _⟩ => exact Cert.ReferenceIdeal.Read.lhs_main_v67_0 _ _
    | ⟨1, _⟩ => exact (Cert.ReferenceIdeal.Read.lhs_main_v67_1 _ _).trans hk)
  have er : Cert.ReferenceIdeal.dot_S100000x512_S512x2_S100000x2_1_0_0_1_n_n.rhsIdx i ((ValueIdx.contrEquiv1 Cert.ReferenceIdeal.dot_S100000x512_S512x2_S100000x2_1_0_0_1_n_n 512 rfl rfl).symm k) = Cert.ReferenceIdeal.Read.ridx_main_v67 i k := funext fun a => Fin.ext (by
    match a with
    | ⟨0, _⟩ => exact (Cert.ReferenceIdeal.Read.rhs_main_v67_0 _ _).trans hk
    | ⟨1, _⟩ => exact Cert.ReferenceIdeal.Read.rhs_main_v67_1 _ _)
  rw [el, er]

/-- The decoder. -/
theorem decode_eq (h : FVec Ideal Cert.KernelIdeal.S100000x512 .f32) (w : FVec Ideal Cert.KernelIdeal.S512x2 .f32) (b : FVec Ideal Cert.KernelIdeal.S2 .f32) :
    Cert.KernelIdeal.Stage.decode h w b
      = addf (Host.dotGeneral Cert.ReferenceIdeal.dot_S100000x512_S512x2_S100000x2_1_0_0_1_n_n none h w) (Cert.ReferenceIdeal.Read.val_main_v69 (F := Ideal) b) := by
  funext i
  rw [addf_apply, decode_dot_apply, Cert.ReferenceIdeal.Read.val_main_v69_apply, Cert.ReferenceIdeal.Read.val_main_v68_apply]
  have el : ∀ k : Fin 512, Cert.ReferenceIdeal.Read.lidx_main_v67 i k = ix2 ⟨(i 0).val, (i 0).isLt⟩ k :=
    fun k => idx2_ext _ _ rfl rfl
  have er : ∀ k : Fin 512, Cert.ReferenceIdeal.Read.ridx_main_v67 i k = ix2 k ⟨(i 1).val, (i 1).isLt⟩ :=
    fun k => idx2_ext _ _ rfl rfl
  have eb : Cert.ReferenceIdeal.Read.idx_main_v68 (Cert.ReferenceIdeal.Read.idx_main_v69 i) = ix1 ⟨(i 1).val, (i 1).isLt⟩ :=
    idx1_ext _ _ rfl
  simp only [el, er, eb]
  rfl

/-- Layer 1's message: the gathered rows times the reference's affine map of the edge attributes. -/
theorem message0_eq (g : FVec Ideal Cert.KernelIdeal.S1000000x128 .f32) (ea : FVec Ideal Cert.KernelIdeal.S1000000x2 .f32) (ew : FVec Ideal Cert.KernelIdeal.S2x128 .f32) (eb : FVec Ideal Cert.KernelIdeal.S128 .f32) :
    Cert.KernelIdeal.Stage.message0 g ea ew eb = mulf g (Cert.ReferenceIdeal.Read.val_main_v12 (F := Ideal) ea ew eb) := by
  funext i
  rw [mulf_apply, Cert.ReferenceIdeal.Read.val_main_v12_apply, Cert.ReferenceIdeal.Read.val_main_v9_apply,
    Cert.ReferenceIdeal.Read.val_main_v11_apply, Cert.ReferenceIdeal.Read.val_main_v10_apply]
  have el : ∀ k : Fin 2, Cert.ReferenceIdeal.Read.lidx_main_v9 i k = ix2 ⟨(i 0).val, (i 0).isLt⟩ k :=
    fun k => idx2_ext _ _ rfl rfl
  have er : ∀ k : Fin 2, Cert.ReferenceIdeal.Read.ridx_main_v9 i k = ix2 k ⟨(i 1).val, (i 1).isLt⟩ :=
    fun k => idx2_ext _ _ rfl rfl
  have ebi : Cert.ReferenceIdeal.Read.idx_main_v10 (Cert.ReferenceIdeal.Read.idx_main_v11 i) = ix1 ⟨(i 1).val, (i 1).isLt⟩ :=
    idx1_ext _ _ rfl
  simp only [el, er, ebi]
  rfl

/-- Layer 2's message. -/
theorem message1_eq (g : FVec Ideal Cert.KernelIdeal.S1000000x256 .f32) (ea : FVec Ideal Cert.KernelIdeal.S1000000x2 .f32) (ew : FVec Ideal Cert.KernelIdeal.S2x256 .f32) (eb : FVec Ideal Cert.KernelIdeal.S256 .f32) :
    Cert.KernelIdeal.Stage.message1 g ea ew eb = mulf g (Cert.ReferenceIdeal.Read.val_main_v41 (F := Ideal) ea ew eb) := by
  funext i
  rw [mulf_apply, Cert.ReferenceIdeal.Read.val_main_v41_apply, Cert.ReferenceIdeal.Read.val_main_v38_apply,
    Cert.ReferenceIdeal.Read.val_main_v40_apply, Cert.ReferenceIdeal.Read.val_main_v39_apply]
  have el : ∀ k : Fin 2, Cert.ReferenceIdeal.Read.lidx_main_v38 i k = ix2 ⟨(i 0).val, (i 0).isLt⟩ k :=
    fun k => idx2_ext _ _ rfl rfl
  have er : ∀ k : Fin 2, Cert.ReferenceIdeal.Read.ridx_main_v38 i k = ix2 k ⟨(i 1).val, (i 1).isLt⟩ :=
    fun k => idx2_ext _ _ rfl rfl
  have ebi : Cert.ReferenceIdeal.Read.idx_main_v39 (Cert.ReferenceIdeal.Read.idx_main_v40 i) = ix1 ⟨(i 1).val, (i 1).isLt⟩ :=
    idx1_ext _ _ rfl
  simp only [el, er, ebi]
  rfl

end Cert.Bridge

end
-- ==== Proof.BridgeSage.lean ====
/- The node update: a product with the concatenation [agg, h] splits into two products with the weight's two halves, and s times the reciprocal of the clamped degree is s divided by it. -/
import proofs.«420280_j63763084477189_1_alg».proof.Proof.Stages
import proofs.«420280_j63763084477189_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Bridge

open Idealize.ShloMosaic Idealize.ShloMosaic.ValueIdx

/-! ## The clamped degree is not zero, so a product with its reciprocal is the quotient -/

/-- The larger of any extended real and one is at least one, hence not zero. -/
theorem max_one_ne_zero (x : EReal) : max x (Ideal.ofBits .f32 0x3F800000#32) ≠ 0 := by
  rw [Ideal.ofBits_one_f32]
  intro e
  have h1 : (1 : EReal) ≤ max x 1 := le_max_right _ _
  rw [e] at h1
  exact absurd h1 (by simp)

/-- s · (1 / D) = s / D for D = max x 1: D is not zero, so both sides are s · D⁻¹. -/
theorem mul_recip_clamped (a x : EReal) :
    a * Ideal.div (Ideal.ofBits .f32 0x3F800000#32) (max x (Ideal.ofBits .f32 0x3F800000#32))
      = Ideal.div a (max x (Ideal.ofBits .f32 0x3F800000#32)) := by
  have h := Ideal.mul_one_div (x := a) (max_one_ne_zero x)
  rw [Ideal.ofBits_one_f32] at h ⊢
  exact h

/-- A sum over 256 indices is the sum over the first 128 plus the sum over the last 128. -/
theorem sum_split_256 (f : Fin 256 → EReal) :
    ∑ k : Fin 256, f k = ∑ k : Fin 128, f (Fin.castAdd 128 k) + ∑ k : Fin 128, f (Fin.natAdd 128 k) :=
  @Fin.sum_univ_add EReal _ 128 128 f

/-- A sum over 512 indices is the sum over the first 256 plus the sum over the last 256. -/
theorem sum_split_512 (f : Fin 512 → EReal) :
    ∑ k : Fin 512, f k = ∑ k : Fin 256, f (Fin.castAdd 256 k) + ∑ k : Fin 256, f (Fin.natAdd 256 k) :=
  @Fin.sum_univ_add EReal _ 256 256 f

/-! ## Layer 1: widths 128 + 128 against a 256-row weight -/

section Layer1

local notation "D0" => Cert.ReferenceIdeal.dot_S100000x256_S256x256_S100000x256_1_0_0_1_n_n

/-- The reference's product at an index is the sum over the contracted coordinate, for any left operand. -/
theorem dot0_apply (y : FVec Ideal Cert.ReferenceIdeal.S100000x256 .f32) (w : FVec Ideal Cert.ReferenceIdeal.S256x256 .f32)
    (i : Cert.ReferenceIdeal.S100000x256.Idx) :
    Host.dotGeneral D0 none y w i
      = ∑ k : Fin 256, y (Cert.ReferenceIdeal.Read.lidx_main_v33 i k) * w (Cert.ReferenceIdeal.Read.ridx_main_v33 i k) := by
  simp only [Host.dotGeneral]
  rw [Ideal.dotGeneral_apply, ← Equiv.sum_comp (ValueIdx.contrEquiv1 D0 256 rfl rfl).symm]
  refine Finset.sum_congr rfl fun k _ => ?_
  have hk := ValueIdx.contrEquiv1_symm_val D0 256 rfl rfl k
  have el : DotDims.lhsIdx D0 i ((ValueIdx.contrEquiv1 D0 256 rfl rfl).symm k) = Cert.ReferenceIdeal.Read.lidx_main_v33 i k :=
    funext fun a => Fin.ext (by
      match a with
      | ⟨0, _⟩ => exact Cert.ReferenceIdeal.Read.lhs_main_v33_0 _ _
      | ⟨1, _⟩ => exact (Cert.ReferenceIdeal.Read.lhs_main_v33_1 _ _).trans hk)
  have er : DotDims.rhsIdx D0 i ((ValueIdx.contrEquiv1 D0 256 rfl rfl).symm k) = Cert.ReferenceIdeal.Read.ridx_main_v33 i k :=
    funext fun a => Fin.ext (by
      match a with
      | ⟨0, _⟩ => exact (Cert.ReferenceIdeal.Read.rhs_main_v33_0 _ _).trans hk
      | ⟨1, _⟩ => exact Cert.ReferenceIdeal.Read.rhs_main_v33_1 _ _)
  rw [el, er]

/-- The concatenation along the columns, read at row i₀ in one of its first 128 columns, is the first piece there. -/
theorem cat0_left (A B : FVec Ideal Cert.ReferenceIdeal.S100000x128 .f32) (i : Cert.ReferenceIdeal.S100000x256.Idx) (k : Fin 128) :
    concatenate Cert.ReferenceIdeal.S100000x256 1 [⟨Cert.ReferenceIdeal.S100000x128, A⟩, ⟨Cert.ReferenceIdeal.S100000x128, B⟩]
        Cert.ReferenceIdeal.Gen.concatenates_S100000x128_S100000x128_S100000x256_d1 (Cert.ReferenceIdeal.Read.lidx_main_v33 i (Fin.castAdd 128 k))
      = A (ix2 ⟨(i 0).val, (i 0).isLt⟩ k) :=
  concatenate_pair_apply_left (t := Cert.ReferenceIdeal.S100000x256) (s₁ := Cert.ReferenceIdeal.S100000x128) (s₂ := Cert.ReferenceIdeal.S100000x128)
    (1 : Fin 2) A B Cert.ReferenceIdeal.Gen.concatenates_S100000x128_S100000x128_S100000x256_d1 (Cert.ReferenceIdeal.Read.lidx_main_v33 i (Fin.castAdd 128 k)) rfl
    (ix2 ⟨(i 0).val, (i 0).isLt⟩ k) (fun b => match b with
    | ⟨0, _⟩ => rfl
    | ⟨1, _⟩ => rfl)

/-- Read in one of its last 128 columns it is the second piece, 128 columns back. -/
theorem cat0_right (A B : FVec Ideal Cert.ReferenceIdeal.S100000x128 .f32) (i : Cert.ReferenceIdeal.S100000x256.Idx) (k : Fin 128) :
    concatenate Cert.ReferenceIdeal.S100000x256 1 [⟨Cert.ReferenceIdeal.S100000x128, A⟩, ⟨Cert.ReferenceIdeal.S100000x128, B⟩]
        Cert.ReferenceIdeal.Gen.concatenates_S100000x128_S100000x128_S100000x256_d1 (Cert.ReferenceIdeal.Read.lidx_main_v33 i (Fin.natAdd 128 k))
      = B (ix2 ⟨(i 0).val, (i 0).isLt⟩ k) :=
  concatenate_pair_apply_right (t := Cert.ReferenceIdeal.S100000x256) (s₁ := Cert.ReferenceIdeal.S100000x128) (s₂ := Cert.ReferenceIdeal.S100000x128)
    (1 : Fin 2) A B Cert.ReferenceIdeal.Gen.concatenates_S100000x128_S100000x128_S100000x256_d1 (Cert.ReferenceIdeal.Read.lidx_main_v33 i (Fin.natAdd 128 k)) rfl rfl
    (ix2 ⟨(i 0).val, (i 0).isLt⟩ k) (fun b => match b with
    | ⟨0, _⟩ => fun _ => rfl
    | ⟨1, _⟩ => fun hb => absurd rfl hb) (by show k.val + 128 = 128 + k.val; omega)

/-- Rows [0, 128) of the weight: row k of the upper half is row k of the whole. -/
theorem wa0_apply (w : FVec Ideal Cert.KernelIdeal.S256x256 .f32) (i : Cert.ReferenceIdeal.S100000x256.Idx) (k : Fin 128) :
    Cert.KernelIdeal.Stage.wa0 w (ix2 k ⟨(i 1).val, (i 1).isLt⟩)
      = w (Cert.ReferenceIdeal.Read.ridx_main_v33 i (Fin.castAdd 128 k)) := by
  unfold Cert.KernelIdeal.Stage.wa0
  exact extractStridedSlice_apply ![0, 0] w _ _ _ (fun a => match a with
    | ⟨0, _⟩ => by show k.val = 0 + k.val; omega
    | ⟨1, _⟩ => by show (i 1).val = 0 + (i 1).val; omega)

/-- Rows [128, 256) of the weight: row k of the lower half is row 128 + k of the whole. -/
theorem wh0_apply (w : FVec Ideal Cert.KernelIdeal.S256x256 .f32) (i : Cert.ReferenceIdeal.S100000x256.Idx) (k : Fin 128) :
    Cert.KernelIdeal.Stage.wh0 w (ix2 k ⟨(i 1).val, (i 1).isLt⟩)
      = w (Cert.ReferenceIdeal.Read.ridx_main_v33 i (Fin.natAdd 128 k)) := by
  unfold Cert.KernelIdeal.Stage.wh0
  exact extractStridedSlice_apply ![128, 0] w _ _ _ (fun a => match a with
    | ⟨0, _⟩ => by show 128 + k.val = 128 + k.val; rfl
    | ⟨1, _⟩ => by show (i 1).val = 0 + (i 1).val; omega)

/-- The reference's scaled aggregate at an index: s divided by the clamped degree of its row, which is s times the
    reciprocal of that clamped degree. -/
theorem agg0_apply (s : FVec Ideal Cert.KernelIdeal.S100000x128 .f32) (d : FVec Ideal Cert.KernelIdeal.S100000x1 .f32)
    (r : Fin 100000) (k : Fin 128) :
    Host.divf s (broadcastInDim Cert.ReferenceIdeal.S100000x128 ![0, 1] Cert.ReferenceIdeal.Gen.bcast_S100000x1_S100000x128_0_1
        (maximumf d (Cert.ReferenceIdeal.Read.val_main_v28 (F := Ideal)))) (ix2 r k)
      = s (ix2 r k) * Ideal.div Cert.KernelIdeal.Stage.one (max (d (ix2 r 0)) Cert.KernelIdeal.Stage.one) := by
  rw [hostDivf_apply]
  rw [broadcastInDim_apply _ Cert.ReferenceIdeal.Gen.bcast_S100000x1_S100000x128_0_1 _ (ix2 r k) (ix2 r 0) (fun a => match a with
    | ⟨0, _⟩ => by show r.val = if (100000 : Nat) = 1 then 0 else r.val; rw [if_neg (by decide)]
    | ⟨1, _⟩ => by show 0 = if (1 : Nat) = 1 then 0 else k.val; rw [if_pos rfl])]
  rw [maximumf_apply, Cert.ReferenceIdeal.Read.val_main_v28_apply]
  exact (mul_recip_clamped _ _).symm

/-- Layer 1 (128 + 128 columns against a 256-row weight). -/
theorem sage0_eq (s : FVec Ideal Cert.KernelIdeal.S100000x128 .f32) (d : FVec Ideal Cert.KernelIdeal.S100000x1 .f32) (h : FVec Ideal Cert.KernelIdeal.S100000x128 .f32) (w : FVec Ideal Cert.KernelIdeal.S256x256 .f32) (b : FVec Ideal Cert.KernelIdeal.S256 .f32) :
    Cert.KernelIdeal.Stage.sage0 s d h (Cert.KernelIdeal.Stage.wa0 w) (Cert.KernelIdeal.Stage.wh0 w) b
      = maximumf (addf (Host.dotGeneral Cert.ReferenceIdeal.dot_S100000x256_S256x256_S100000x256_1_0_0_1_n_n none
            (concatenate Cert.ReferenceIdeal.S100000x256 1 [⟨Cert.ReferenceIdeal.S100000x128, Host.divf s (broadcastInDim Cert.ReferenceIdeal.S100000x128 ![0, 1] Cert.ReferenceIdeal.Gen.bcast_S100000x1_S100000x128_0_1 (maximumf d (Cert.ReferenceIdeal.Read.val_main_v28 (F := Ideal))))⟩, ⟨Cert.ReferenceIdeal.S100000x128, h⟩] Cert.ReferenceIdeal.Gen.concatenates_S100000x128_S100000x128_S100000x256_d1) w)
          (Cert.ReferenceIdeal.Read.val_main_v35 (F := Ideal) b)) (Cert.ReferenceIdeal.Read.val_main_call1_v0 (F := Ideal)) := by
  funext i
  rw [maximumf_apply, addf_apply, dot0_apply, sum_split_256]
  rw [Cert.ReferenceIdeal.Read.val_main_v35_apply, Cert.ReferenceIdeal.Read.val_main_v34_apply,
    Cert.ReferenceIdeal.Read.val_main_call1_v0_apply, Cert.ReferenceIdeal.Read.val_main_call1_cst_apply]
  unfold Cert.KernelIdeal.Stage.sage0
  refine congrArg₂ max (congrArg₂ HAdd.hAdd (congrArg₂ HAdd.hAdd (Finset.sum_congr rfl fun k _ => ?_)
    (Finset.sum_congr rfl fun k _ => ?_)) ?_) ?_
  · -- a column of the aggregate half: the scaled aggregate times row k of the weight
    exact congrArg₂ HMul.hMul ((cat0_left _ _ i k).trans (agg0_apply s d _ k)).symm (wa0_apply w i k)
  · -- a column of the node's own half: h times row 128 + k of the weight
    exact congrArg₂ HMul.hMul (cat0_right _ _ i k).symm (wh0_apply w i k)
  · -- the bias, broadcast down the rows
    exact congrArg b (funext fun a => match a with
      | ⟨0, _⟩ => rfl)
  · -- the zero of the rectifier
    rfl

end Layer1

/-! ## Layer 2: widths 256 + 256 against a 512-row weight -/

section Layer2

local notation "D1" => Cert.ReferenceIdeal.dot_S100000x512_S512x512_S100000x512_1_0_0_1_n_n

/-- The reference's product at an index is the sum over the contracted coordinate, for any left operand. -/
theorem dot1_apply (y : FVec Ideal Cert.ReferenceIdeal.S100000x512 .f32) (w : FVec Ideal Cert.ReferenceIdeal.S512x512 .f32)
    (i : Cert.ReferenceIdeal.S100000x512.Idx) :
    Host.dotGeneral D1 none y w i
      = ∑ k : Fin 512, y (Cert.ReferenceIdeal.Read.lidx_main_v62 i k) * w (Cert.ReferenceIdeal.Read.ridx_main_v62 i k) := by
  simp only [Host.dotGeneral]
  rw [Ideal.dotGeneral_apply, ← Equiv.sum_comp (ValueIdx.contrEquiv1 D1 512 rfl rfl).symm]
  refine Finset.sum_congr rfl fun k _ => ?_
  have hk := ValueIdx.contrEquiv1_symm_val D1 512 rfl rfl k
  have el : DotDims.lhsIdx D1 i ((ValueIdx.contrEquiv1 D1 512 rfl rfl).symm k) = Cert.ReferenceIdeal.Read.lidx_main_v62 i k :=
    funext fun a => Fin.ext (by
      match a with
      | ⟨0, _⟩ => exact Cert.ReferenceIdeal.Read.lhs_main_v62_0 _ _
      | ⟨1, _⟩ => exact (Cert.ReferenceIdeal.Read.lhs_main_v62_1 _ _).trans hk)
  have er : DotDims.rhsIdx D1 i ((ValueIdx.contrEquiv1 D1 512 rfl rfl).symm k) = Cert.ReferenceIdeal.Read.ridx_main_v62 i k :=
    funext fun a => Fin.ext (by
      match a with
      | ⟨0, _⟩ => exact (Cert.ReferenceIdeal.Read.rhs_main_v62_0 _ _).trans hk
      | ⟨1, _⟩ => exact Cert.ReferenceIdeal.Read.rhs_main_v62_1 _ _)
  rw [el, er]

/-- The concatenation along the columns, read at row i₀ in one of its first 256 columns, is the first piece there. -/
theorem cat1_left (A B : FVec Ideal Cert.ReferenceIdeal.S100000x256 .f32) (i : Cert.ReferenceIdeal.S100000x512.Idx) (k : Fin 256) :
    concatenate Cert.ReferenceIdeal.S100000x512 1 [⟨Cert.ReferenceIdeal.S100000x256, A⟩, ⟨Cert.ReferenceIdeal.S100000x256, B⟩]
        Cert.ReferenceIdeal.Gen.concatenates_S100000x256_S100000x256_S100000x512_d1 (Cert.ReferenceIdeal.Read.lidx_main_v62 i (Fin.castAdd 256 k))
      = A (ix2 ⟨(i 0).val, (i 0).isLt⟩ k) :=
  concatenate_pair_apply_left (t := Cert.ReferenceIdeal.S100000x512) (s₁ := Cert.ReferenceIdeal.S100000x256) (s₂ := Cert.ReferenceIdeal.S100000x256)
    (1 : Fin 2) A B Cert.ReferenceIdeal.Gen.concatenates_S100000x256_S100000x256_S100000x512_d1 (Cert.ReferenceIdeal.Read.lidx_main_v62 i (Fin.castAdd 256 k)) rfl
    (ix2 ⟨(i 0).val, (i 0).isLt⟩ k) (fun b => match b with
    | ⟨0, _⟩ => rfl
    | ⟨1, _⟩ => rfl)

/-- Read in one of its last 256 columns it is the second piece, 256 columns back. -/
theorem cat1_right (A B : FVec Ideal Cert.ReferenceIdeal.S100000x256 .f32) (i : Cert.ReferenceIdeal.S100000x512.Idx) (k : Fin 256) :
    concatenate Cert.ReferenceIdeal.S100000x512 1 [⟨Cert.ReferenceIdeal.S100000x256, A⟩, ⟨Cert.ReferenceIdeal.S100000x256, B⟩]
        Cert.ReferenceIdeal.Gen.concatenates_S100000x256_S100000x256_S100000x512_d1 (Cert.ReferenceIdeal.Read.lidx_main_v62 i (Fin.natAdd 256 k))
      = B (ix2 ⟨(i 0).val, (i 0).isLt⟩ k) :=
  concatenate_pair_apply_right (t := Cert.ReferenceIdeal.S100000x512) (s₁ := Cert.ReferenceIdeal.S100000x256) (s₂ := Cert.ReferenceIdeal.S100000x256)
    (1 : Fin 2) A B Cert.ReferenceIdeal.Gen.concatenates_S100000x256_S100000x256_S100000x512_d1 (Cert.ReferenceIdeal.Read.lidx_main_v62 i (Fin.natAdd 256 k)) rfl rfl
    (ix2 ⟨(i 0).val, (i 0).isLt⟩ k) (fun b => match b with
    | ⟨0, _⟩ => fun _ => rfl
    | ⟨1, _⟩ => fun hb => absurd rfl hb) (by show k.val + 256 = 256 + k.val; omega)

/-- Rows [0, 256) of the weight: row k of the upper half is row k of the whole. -/
theorem wa1_apply (w : FVec Ideal Cert.KernelIdeal.S512x512 .f32) (i : Cert.ReferenceIdeal.S100000x512.Idx) (k : Fin 256) :
    Cert.KernelIdeal.Stage.wa1 w (ix2 k ⟨(i 1).val, (i 1).isLt⟩)
      = w (Cert.ReferenceIdeal.Read.ridx_main_v62 i (Fin.castAdd 256 k)) := by
  unfold Cert.KernelIdeal.Stage.wa1
  exact extractStridedSlice_apply ![0, 0] w _ _ _ (fun a => match a with
    | ⟨0, _⟩ => by show k.val = 0 + k.val; omega
    | ⟨1, _⟩ => by show (i 1).val = 0 + (i 1).val; omega)

/-- Rows [256, 512) of the weight: row k of the lower half is row 256 + k of the whole. -/
theorem wh1_apply (w : FVec Ideal Cert.KernelIdeal.S512x512 .f32) (i : Cert.ReferenceIdeal.S100000x512.Idx) (k : Fin 256) :
    Cert.KernelIdeal.Stage.wh1 w (ix2 k ⟨(i 1).val, (i 1).isLt⟩)
      = w (Cert.ReferenceIdeal.Read.ridx_main_v62 i (Fin.natAdd 256 k)) := by
  unfold Cert.KernelIdeal.Stage.wh1
  exact extractStridedSlice_apply ![256, 0] w _ _ _ (fun a => match a with
    | ⟨0, _⟩ => by show 256 + k.val = 256 + k.val; rfl
    | ⟨1, _⟩ => by show (i 1).val = 0 + (i 1).val; omega)

/-- The reference's scaled aggregate at an index: s divided by the clamped degree of its row, which is s times the
    reciprocal of that clamped degree. -/
theorem agg1_apply (s : FVec Ideal Cert.KernelIdeal.S100000x256 .f32) (d : FVec Ideal Cert.KernelIdeal.S100000x1 .f32)
    (r : Fin 100000) (k : Fin 256) :
    Host.divf s (broadcastInDim Cert.ReferenceIdeal.S100000x256 ![0, 1] Cert.ReferenceIdeal.Gen.bcast_S100000x1_S100000x256_0_1
        (maximumf d (Cert.ReferenceIdeal.Read.val_main_v57 (F := Ideal)))) (ix2 r k)
      = s (ix2 r k) * Ideal.div Cert.KernelIdeal.Stage.one (max (d (ix2 r 0)) Cert.KernelIdeal.Stage.one) := by
  rw [hostDivf_apply]
  rw [broadcastInDim_apply _ Cert.ReferenceIdeal.Gen.bcast_S100000x1_S100000x256_0_1 _ (ix2 r k) (ix2 r 0) (fun a => match a with
    | ⟨0, _⟩ => by show r.val = if (100000 : Nat) = 1 then 0 else r.val; rw [if_neg (by decide)]
    | ⟨1, _⟩ => by show 0 = if (1 : Nat) = 1 then 0 else k.val; rw [if_pos rfl])]
  rw [maximumf_apply, Cert.ReferenceIdeal.Read.val_main_v57_apply]
  exact (mul_recip_clamped _ _).symm

/-- Layer 2 (256 + 256 columns against a 512-row weight). -/
theorem sage1_eq (s : FVec Ideal Cert.KernelIdeal.S100000x256 .f32) (d : FVec Ideal Cert.KernelIdeal.S100000x1 .f32) (h : FVec Ideal Cert.KernelIdeal.S100000x256 .f32) (w : FVec Ideal Cert.KernelIdeal.S512x512 .f32) (b : FVec Ideal Cert.KernelIdeal.S512 .f32) :
    Cert.KernelIdeal.Stage.sage1 s d h (Cert.KernelIdeal.Stage.wa1 w) (Cert.KernelIdeal.Stage.wh1 w) b
      = maximumf (addf (Host.dotGeneral Cert.ReferenceIdeal.dot_S100000x512_S512x512_S100000x512_1_0_0_1_n_n none
            (concatenate Cert.ReferenceIdeal.S100000x512 1 [⟨Cert.ReferenceIdeal.S100000x256, Host.divf s (broadcastInDim Cert.ReferenceIdeal.S100000x256 ![0, 1] Cert.ReferenceIdeal.Gen.bcast_S100000x1_S100000x256_0_1 (maximumf d (Cert.ReferenceIdeal.Read.val_main_v57 (F := Ideal))))⟩, ⟨Cert.ReferenceIdeal.S100000x256, h⟩] Cert.ReferenceIdeal.Gen.concatenates_S100000x256_S100000x256_S100000x512_d1) w)
          (Cert.ReferenceIdeal.Read.val_main_v64 (F := Ideal) b)) (Cert.ReferenceIdeal.Read.val_main_call2_v0 (F := Ideal)) := by
  funext i
  rw [maximumf_apply, addf_apply, dot1_apply, sum_split_512]
  rw [Cert.ReferenceIdeal.Read.val_main_v64_apply, Cert.ReferenceIdeal.Read.val_main_v63_apply,
    Cert.ReferenceIdeal.Read.val_main_call2_v0_apply, Cert.ReferenceIdeal.Read.val_main_call2_cst_apply]
  unfold Cert.KernelIdeal.Stage.sage1
  refine congrArg₂ max (congrArg₂ HAdd.hAdd (congrArg₂ HAdd.hAdd (Finset.sum_congr rfl fun k _ => ?_)
    (Finset.sum_congr rfl fun k _ => ?_)) ?_) ?_
  · -- a column of the aggregate half: the scaled aggregate times row k of the weight
    exact congrArg₂ HMul.hMul ((cat1_left _ _ i k).trans (agg1_apply s d _ k)).symm (wa1_apply w i k)
  · -- a column of the node's own half: h times row 256 + k of the weight
    exact congrArg₂ HMul.hMul (cat1_right _ _ i k).symm (wh1_apply w i k)
  · -- the bias, broadcast down the rows
    exact congrArg b (funext fun a => match a with
      | ⟨0, _⟩ => rfl)
  · -- the zero of the rectifier
    rfl

end Layer2

end Cert.Bridge

end
-- ==== Proof.BridgeTake.lean ====
/- The gather with out-of-range rows filled is the plain gather when every source index, read as a signed integer, lies in [-100000, 100000): a negative index is wrapped once into range, so the in-range test passes on every edge. -/
import proofs.«420280_j63763084477189_1_alg».proof.Proof.Stages
import proofs.«420280_j63763084477189_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx

namespace Take

/-- A 32-bit sum read signed is the integer sum when that sum fits in the signed range. -/
theorem bmod_word {n : Int} (h₁ : -2 ^ 31 ≤ n) (h₂ : n < 2 ^ 31) : n.bmod (2 ^ 32) = n :=
  Int.bmod_eq_of_le (by omega) (by omega)

/-- The splat constants of the wrap and of the range test, read signed. -/
theorem zero_toInt : (0#32 : BitVec 32).toInt = 0 := by decide
theorem n_toInt : (100000#32 : BitVec 32).toInt = 100000 := by decide
theorem nm1_toInt : (99999#32 : BitVec 32).toInt = 99999 := by decide

/-- One word: a source index in [-100000, 100000), wrapped once (a negative value has 100000 added), lies in [0, 99999].
    A negative value plus 100000 stays far inside the signed range, so the 32-bit sum is the integer sum. -/
theorem wrap_range (x : BitVec 32) (h₁ : -100000 ≤ x.toInt) (h₂ : x.toInt < 100000) :
    0 ≤ (Scalar.select (IntOp.cmpi .slt x 0#32) (IntOp.addi x 100000#32) x).toInt
      ∧ (Scalar.select (IntOp.cmpi .slt x 0#32) (IntOp.addi x 100000#32) x).toInt ≤ 99999 := by
  by_cases hc : IntOp.cmpi .slt x 0#32 = 1#1
  · have hneg : x.toInt < 0 := by have := IntOp.cmpi_slt.1 hc; rwa [zero_toInt] at this
    have hadd : (IntOp.addi x 100000#32).toInt = x.toInt + 100000 := by
      show (x + 100000#32).toInt = _
      rw [BitVec.toInt_add, n_toInt]
      exact bmod_word (by omega) (by omega)
    rw [hc, select_one, hadd]
    omega
  · have hnn : 0 ≤ x.toInt := by
      by_contra hlt
      exact hc (IntOp.cmpi_slt.2 (by rw [zero_toInt]; omega))
    rw [eq_zero_of_ne_one hc, select_zero]
    omega

/-- A left fold by "and" that starts at 1 and meets only 1s ends at 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- The range test passes at every entry of the column of wrapped source indices. -/
theorem mask_one (a2 : IVec Cert.KernelIdeal.S2x1000000 32)
    (hr : ∀ i : Cert.KernelIdeal.S1000000.Idx, -100000 ≤ (Cert.KernelIdeal.Stage.src a2 i).toInt ∧ (Cert.KernelIdeal.Stage.src a2 i).toInt < 100000)
    (n : Cert.KernelIdeal.S1000000x1.Idx) :
    IntOp.andi (IntOp.cmpi .sge (Cert.KernelIdeal.Stage.srcCol a2 n) 0#32) (IntOp.cmpi .sle (Cert.KernelIdeal.Stage.srcCol a2 n) 99999#32) = 1#1 := by
  obtain ⟨j, hj⟩ : ∃ j : Cert.KernelIdeal.S1000000.Idx, Cert.KernelIdeal.Stage.srcCol a2 n
      = Scalar.select (IntOp.cmpi .slt (Cert.KernelIdeal.Stage.src a2 j) 0#32) (IntOp.addi (Cert.KernelIdeal.Stage.src a2 j) 100000#32) (Cert.KernelIdeal.Stage.src a2 j) :=
    ⟨_, rfl⟩
  obtain ⟨h0, h1⟩ := wrap_range _ (hr j).1 (hr j).2
  rw [hj]
  refine IntOp.andi_eq_one.2 ⟨IntOp.cmpi_sge.2 ?_, IntOp.cmpi_sle.2 ?_⟩
  · rw [zero_toInt]; exact h0
  · rw [nm1_toInt]; exact h1

/-- Every edge's wrapped source index is in range: the per-edge test (an "and" over the one column) is 1. -/
theorem srcOk_one (a2 : IVec Cert.KernelIdeal.S2x1000000 32)
    (hr : ∀ i : Cert.KernelIdeal.S1000000.Idx, -100000 ≤ (Cert.KernelIdeal.Stage.src a2 i).toInt ∧ (Cert.KernelIdeal.Stage.src a2 i).toInt < 100000)
    (i : Cert.KernelIdeal.S1000000.Idx) : Cert.KernelIdeal.Stage.srcOk a2 i = 1#1 := by
  unfold Cert.KernelIdeal.Stage.srcOk
  rw [Host.reduce_eq_foldl]
  exact foldl_andi_one _ _ (fun n _ => mask_one a2 hr n)

/-- The kernel side's column of wrapped source indices is the reference's: the same operations on the same edge list. -/
theorem srcCol_eq0 (a2 : IVec Cert.KernelIdeal.S2x1000000 32) :
    Cert.KernelIdeal.Stage.srcCol a2 = Cert.ReferenceIdeal.Read.val_main_v18 (F := Ideal) a2 := rfl
theorem srcCol_eq1 (a2 : IVec Cert.KernelIdeal.S2x1000000 32) :
    Cert.KernelIdeal.Stage.srcCol a2 = Cert.ReferenceIdeal.Read.val_main_v47 (F := Ideal) a2 := rfl

/-- The two programs' gather records hold the same data. -/
theorem gather_rec0 : Cert.KernelIdeal.gather_S100000x128_S1000000x1_S1000000x128_1_0_n_n_0_1_1128
    = Cert.ReferenceIdeal.gather_S100000x128_S1000000x1_S1000000x128_1_0_n_n_0_1_1128 := rfl
theorem gather_rec1 : Cert.KernelIdeal.gather_S100000x256_S1000000x1_S1000000x256_1_0_n_n_0_1_1256
    = Cert.ReferenceIdeal.gather_S100000x256_S1000000x1_S1000000x256_1_0_n_n_0_1_1256 := rfl

end Take

open Take in
/-- Layer 1 (rows of width 128). -/
theorem take0_eq (h : FVec Ideal Cert.KernelIdeal.S100000x128 .f32) (a2 : IVec Cert.KernelIdeal.S2x1000000 32) (hr : ∀ i : Cert.KernelIdeal.S1000000.Idx, -100000 ≤ (Cert.KernelIdeal.Stage.src a2 i).toInt ∧ (Cert.KernelIdeal.Stage.src a2 i).toInt < 100000) :
    Cert.KernelIdeal.Stage.take0 h a2 = Host.gather Cert.ReferenceIdeal.gather_S100000x128_S1000000x1_S1000000x128_1_0_n_n_0_1_1128 h (Cert.ReferenceIdeal.Read.val_main_v18 (F := Ideal) a2) := by
  funext i
  have hc : broadcastInDim Cert.KernelIdeal.S1000000x128 ![0] Cert.KernelIdeal.Gen.bcast_S1000000_S1000000x128_0 (Cert.KernelIdeal.Stage.srcOk a2) i = 1#1 :=
    srcOk_one a2 hr _
  unfold Cert.KernelIdeal.Stage.take0
  rw [select_apply, hc, select_one, srcCol_eq0, gather_rec0]

open Take in
/-- Layer 2 (rows of width 256). -/
theorem take1_eq (h : FVec Ideal Cert.KernelIdeal.S100000x256 .f32) (a2 : IVec Cert.KernelIdeal.S2x1000000 32) (hr : ∀ i : Cert.KernelIdeal.S1000000.Idx, -100000 ≤ (Cert.KernelIdeal.Stage.src a2 i).toInt ∧ (Cert.KernelIdeal.Stage.src a2 i).toInt < 100000) :
    Cert.KernelIdeal.Stage.take1 h a2 = Host.gather Cert.ReferenceIdeal.gather_S100000x256_S1000000x1_S1000000x256_1_0_n_n_0_1_1256 h (Cert.ReferenceIdeal.Read.val_main_v47 (F := Ideal) a2) := by
  funext i
  have hc : broadcastInDim Cert.KernelIdeal.S1000000x256 ![0] Cert.KernelIdeal.Gen.bcast_S1000000_S1000000x256_0 (Cert.KernelIdeal.Stage.srcOk a2) i = 1#1 :=
    srcOk_one a2 hr _
  unfold Cert.KernelIdeal.Stage.take1
  rw [select_apply, hc, select_one, srcCol_eq1, gather_rec1]

end Cert.Bridge

end
-- ==== Proof.BridgeDegree.lean ====
/- The in-degree: ones scattered onto a vector of zeros and then laid out as a column equal ones scattered onto a column of zeros; both count the edges whose destination is the node. -/
import proofs.«420280_j63763084477189_1_alg».proof.Proof.Stages
import proofs.«420280_j63763084477189_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx

namespace Degree

/-- An update lands on operand index i exactly when, on every operand axis, the start plus the window coordinate is
    i's coordinate on that axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro e a
      have e1 := congrArg (fun f => (f a).val) (Option.some.inj e)
      have h1 := (h a).1
      simp only at e1
      omega
    · intro e
      refine congrArg some (funext fun a => Fin.ext ?_)
      show (d.start j idx a + d.window j a).toNat = (i a).val
      rw [e a]; exact Int.toNat_natCast _
  · rw [dif_neg h]
    constructor
    · intro e; cases e
    · intro e
      exfalso; apply h; intro a
      rw [e a]
      exact ⟨Int.natCast_nonneg _, by exact_mod_cast (i a).isLt⟩

/-- A float scatter-add over the extended reals, read at one operand index: the operand's element plus the sum of
    the updates that land there. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-! ## The vector scatter (no window axis): update j reads row (j 0) of the index column -/

/-- The dimension numbers of the vector scatter and of the column scatter. -/
abbrev dK := Cert.KernelIdeal.scatter_S100000_S1000000x1_S1000000_n_0_0_1
abbrev dR := Cert.ReferenceIdeal.scatter_S100000x1_S1000000x1_S1000000x1_1_0_0_1

/-- Position j of the update vector, as a position in the column of destination indices. -/
abbrev colOf (j : Cert.KernelIdeal.S1000000.Idx) : Cert.KernelIdeal.S1000000x1.Idx :=
  ix2 (n0 := 1000000) (n1 := 1) ⟨(j 0).val, (j 0).isLt⟩ 0

theorem siIdxK (j : Cert.KernelIdeal.S1000000.Idx) (c : Fin dK.scatterDimsToOperandDims.length) :
    dK.siIdx j c = colOf j := by
  funext b
  match b with
  | ⟨0, _⟩ => rfl
  | ⟨1, _⟩ =>
    apply Fin.ext
    have := c.isLt
    show c.val = 0
    have h : dK.scatterDimsToOperandDims.length = 1 := rfl
    omega

theorem startK (j : Cert.KernelIdeal.S1000000.Idx) (idx : IVec Cert.KernelIdeal.S1000000x1 32) :
    dK.start j idx 0 = (idx (colOf j)).toInt := by
  unfold ScatterDims.start
  rw [dif_pos (show (0 : Fin Cert.KernelIdeal.S100000.rank) ∈ dK.scatterDimsToOperandDims by decide), siIdxK]

theorem windowK (j : Cert.KernelIdeal.S1000000.Idx) : dK.window j 0 = 0 := by
  unfold ScatterDims.window
  rw [dif_neg (show ¬ (0 : Fin Cert.KernelIdeal.S100000.rank) ∈ dK.sKept by decide)]

/-- Update j of the vector scatter lands on node n exactly when the destination index in row (j 0) is n. -/
theorem resK (j : Cert.KernelIdeal.S1000000.Idx) (idx : IVec Cert.KernelIdeal.S1000000x1 32) (i : Cert.KernelIdeal.S100000.Idx) :
    dK.resultIdx? j idx = some i ↔ (idx (colOf j)).toInt = ((i 0).val : Int) := by
  rw [resultIdx?_eq_some_iff]
  constructor
  · intro e
    have := e 0
    rw [startK, windowK] at this
    simpa using this
  · intro e a
    match a with
    | ⟨0, _⟩ =>
      show dK.start j idx 0 + (dK.window j 0 : Int) = _
      rw [startK, windowK, e]; simp

/-! ## The column scatter: axis 1 of the updates is a window axis of extent one -/

/-- Row (j 0) of the index column, for an update index of the column of ones. -/
abbrev rowOf (j : Cert.ReferenceIdeal.S1000000x1.Idx) : Cert.ReferenceIdeal.S1000000x1.Idx :=
  ix2 (n0 := 1000000) (n1 := 1) ⟨(j 0).val, (j 0).isLt⟩ 0

theorem siIdxR (j : Cert.ReferenceIdeal.S1000000x1.Idx) (c : Fin dR.scatterDimsToOperandDims.length) :
    dR.siIdx j c = rowOf j := by
  funext b
  match b with
  | ⟨0, _⟩ => rfl
  | ⟨1, _⟩ =>
    apply Fin.ext
    have := c.isLt
    show c.val = 0
    have h : dR.scatterDimsToOperandDims.length = 1 := rfl
    omega

theorem startR0 (j : Cert.ReferenceIdeal.S1000000x1.Idx) (idx : IVec Cert.ReferenceIdeal.S1000000x1 32) :
    dR.start j idx 0 = (idx (rowOf j)).toInt := by
  unfold ScatterDims.start
  rw [dif_pos (show (0 : Fin Cert.ReferenceIdeal.S100000x1.rank) ∈ dR.scatterDimsToOperandDims by decide), siIdxR]

theorem startR1 (j : Cert.ReferenceIdeal.S1000000x1.Idx) (idx : IVec Cert.ReferenceIdeal.S1000000x1 32) :
    dR.start j idx 1 = 0 := by
  unfold ScatterDims.start
  rw [dif_neg (show ¬ (1 : Fin Cert.ReferenceIdeal.S100000x1.rank) ∈ dR.scatterDimsToOperandDims by decide)]

theorem windowR0 (j : Cert.ReferenceIdeal.S1000000x1.Idx) : dR.window j 0 = 0 := by
  unfold ScatterDims.window
  rw [dif_neg (show ¬ (0 : Fin Cert.ReferenceIdeal.S100000x1.rank) ∈ dR.sKept by decide)]

/-- On the window axis the coordinate is the update's own second coordinate, which is 0 (the axis has extent one). -/
theorem windowR1 (j : Cert.ReferenceIdeal.S1000000x1.Idx) : dR.window j 1 = 0 := by
  unfold ScatterDims.window
  rw [dif_pos (show (1 : Fin Cert.ReferenceIdeal.S100000x1.rank) ∈ dR.sKept by decide)]
  have h := idx2_lt1 j
  show (j 1).val = 0
  omega

/-- Update j of the column scatter lands on (n, 0) exactly when the destination index in row (j 0) is n. -/
theorem resR (j : Cert.ReferenceIdeal.S1000000x1.Idx) (idx : IVec Cert.ReferenceIdeal.S1000000x1 32) (i : Cert.ReferenceIdeal.S100000x1.Idx) :
    dR.resultIdx? j idx = some i ↔ (idx (rowOf j)).toInt = ((i 0).val : Int) := by
  rw [resultIdx?_eq_some_iff]
  constructor
  · intro e
    have := e 0
    rw [startR0, windowR0] at this
    simpa using this
  · intro e a
    match a with
    | ⟨0, _⟩ =>
      show dR.start j idx 0 + (dR.window j 0 : Int) = _
      rw [startR0, windowR0, e]; simp
    | ⟨1, _⟩ =>
      show dR.start j idx 1 + (dR.window j 1 : Int) = (((i 1).val : Nat) : Int)
      rw [startR1, windowR1]
      have h := idx2_lt1 i
      omega

/-! ## The two update index sets correspond -/

/-- Positions of the vector of ones and positions of the column of ones: j ↦ (j 0, 0). -/
def colEquiv : Cert.KernelIdeal.S1000000.Idx ≃ Cert.ReferenceIdeal.S1000000x1.Idx where
  toFun j := ix2 (n0 := 1000000) (n1 := 1) ⟨(j 0).val, (j 0).isLt⟩ 0
  invFun k := ix1 (n := 1000000) ⟨(k 0).val, (k 0).isLt⟩
  left_inv j := by funext a; match a with | ⟨0, _⟩ => rfl
  right_inv k := by
    funext a
    match a with
    | ⟨0, _⟩ => rfl
    | ⟨1, _⟩ =>
      apply Fin.ext
      have h := idx2_lt1 k
      show 0 = (k 1).val
      omega

/-- The in-degree column, read at (n, 0), on either side: zero plus one for every edge whose destination is n. -/
theorem deg_eq_scatter (a2 : IVec Cert.KernelIdeal.S2x1000000 32) :
    Cert.KernelIdeal.Stage.deg a2 =
      Host.scatterAdd dR
        (broadcastInDim Cert.ReferenceIdeal.S100000x1 ![] Cert.ReferenceIdeal.Gen.bcast_S_S100000x1 (constant (F := Ideal) Cert.ReferenceIdeal.S_ .f32 0x00000000#32))
        (Cert.KernelIdeal.Stage.dstCol a2)
        (broadcastInDim Cert.ReferenceIdeal.S1000000x1 ![] Cert.ReferenceIdeal.Gen.bcast_S_S1000000x1 (constant (F := Ideal) Cert.ReferenceIdeal.S_ .f32 0x3F800000#32)) := by
  funext i
  unfold Cert.KernelIdeal.Stage.deg
  rw [broadcastInDim_apply _ Cert.KernelIdeal.Gen.bcast_S100000_S100000x1_0 _ i (ix1 (n := 100000) ⟨(i 0).val, (i 0).isLt⟩)
    (fun a => match a with
      | ⟨0, _⟩ => by show (i 0).val = if (100000 : Nat) = 1 then 0 else (i 0).val; rw [if_neg (by decide)])]
  rw [scatterAdd_apply, scatterAdd_apply]
  refine congrArg₂ (· + ·) rfl ?_
  refine Finset.sum_equiv colEquiv (fun j => ?_) (fun j _ => rfl)
  simp only [Finset.mem_filter, Finset.mem_univ, true_and]
  rw [resK, resR]
  exact Iff.rfl

end Degree

/-- Against the reference's first count (layer 1). -/
theorem deg_eq (a2 : IVec Cert.KernelIdeal.S2x1000000 32) : Cert.KernelIdeal.Stage.deg a2 = Cert.ReferenceIdeal.Read.val_main_v27 (F := Ideal) a2 := by
  rw [Degree.deg_eq_scatter]; rfl

/-- Against the reference's second count (layer 2 recomputes it). -/
theorem deg_eq' (a2 : IVec Cert.KernelIdeal.S2x1000000 32) : Cert.KernelIdeal.Stage.deg a2 = Cert.ReferenceIdeal.Read.val_main_v56 (F := Ideal) a2 := by
  rw [Degree.deg_eq_scatter]; rfl

end Cert.Bridge

end
-- ==== Proof.Value.lean ====
/-
  The kernel program's network and the reference's are one function of the arguments when every source index of the
  edge list lies in [-100000, 100000): stage by stage the kernel's whole-array functions are the reference's operations.
  The encoder, the messages and the decoder are the same finite sums; the gather with out-of-range rows filled is the plain
  gather on in-range indices; the in-degree counted on a vector is the in-degree counted on a column; a product with
  the concatenation [agg, h] splits over the weight's two halves, and s · (1 / D) = s / D for D = max deg 1 ≥ 1.
-/
import proofs.«420280_j63763084477189_1_alg».proof.Proof.Stages
import proofs.«420280_j63763084477189_1_alg».proof.Proof.Gen.ReferenceIdeal.Read
import proofs.«420280_j63763084477189_1_alg».proof.Proof.BridgeLinear
import proofs.«420280_j63763084477189_1_alg».proof.Proof.BridgeSage
import proofs.«420280_j63763084477189_1_alg».proof.Proof.BridgeTake
import proofs.«420280_j63763084477189_1_alg».proof.Proof.BridgeDegree

set_option maxRecDepth 16384

noncomputable section

namespace Cert.Bridge

open Idealize.ShloMosaic

section
variable (a0 : FVec Ideal Cert.KernelIdeal.S100000x32 .f32) (a1 : FVec Ideal Cert.KernelIdeal.S1000000x2 .f32) (a2 : IVec Cert.KernelIdeal.S2x1000000 32) (a3 : FVec Ideal Cert.KernelIdeal.S32x128 .f32) (a4 : FVec Ideal Cert.KernelIdeal.S128 .f32) (a5 : FVec Ideal Cert.KernelIdeal.S2x128 .f32) (a6 : FVec Ideal Cert.KernelIdeal.S128 .f32) (a7 : FVec Ideal Cert.KernelIdeal.S256x256 .f32) (a8 : FVec Ideal Cert.KernelIdeal.S256 .f32) (a9 : FVec Ideal Cert.KernelIdeal.S2x256 .f32) (a10 : FVec Ideal Cert.KernelIdeal.S256 .f32) (a11 : FVec Ideal Cert.KernelIdeal.S512x512 .f32) (a12 : FVec Ideal Cert.KernelIdeal.S512 .f32) (a13 : FVec Ideal Cert.KernelIdeal.S512x2 .f32) (a14 : FVec Ideal Cert.KernelIdeal.S2 .f32)
variable (hr : ∀ i : Cert.KernelIdeal.S1000000.Idx, -100000 ≤ (Cert.KernelIdeal.Stage.src a2 i).toInt ∧ (Cert.KernelIdeal.Stage.src a2 i).toInt < 100000)

/-- Node features after the encoder. -/
theorem h0_eq : Cert.KernelIdeal.Stage.h0 a0 a3 a4 = Cert.ReferenceIdeal.Read.val_main_v8 (F := Ideal) a0 a3 a4 := by
  unfold Cert.KernelIdeal.Stage.h0
  exact encode_eq a0 a3 a4

include hr in
/-- Layer 1's messages. -/
theorem m0_eq : Cert.KernelIdeal.Stage.m0 a0 a1 a2 a3 a4 a5 a6 = Cert.ReferenceIdeal.Read.val_main_v20 (F := Ideal) a0 a1 a2 a3 a4 a5 a6 := by
  unfold Cert.KernelIdeal.Stage.m0
  rw [message0_eq, h0_eq, take0_eq _ a2 hr]
  unfold Cert.ReferenceIdeal.Read.val_main_v20 Cert.ReferenceIdeal.Read.val_main_v19
  rfl

include hr in
/-- Their sums per node. -/
theorem s0_eq : Cert.KernelIdeal.Stage.s0 a0 a1 a2 a3 a4 a5 a6 = Cert.ReferenceIdeal.Read.val_main_v23 (F := Ideal) a0 a1 a2 a3 a4 a5 a6 := by
  unfold Cert.KernelIdeal.Stage.s0
  rw [m0_eq a0 a1 a2 a3 a4 a5 a6 hr]
  unfold Cert.KernelIdeal.Stage.scatter0 Cert.ReferenceIdeal.Read.val_main_v23
  rfl

include hr in
/-- Node features after layer 1. -/
theorem h1_eq : Cert.KernelIdeal.Stage.h1 a0 a1 a2 a3 a4 a5 a6 a7 a8 = Cert.ReferenceIdeal.Read.val_main_v37 (F := Ideal) a0 a1 a2 a3 a4 a5 a6 a7 a8 := by
  unfold Cert.KernelIdeal.Stage.h1
  rw [sage0_eq, s0_eq a0 a1 a2 a3 a4 a5 a6 hr, h0_eq, deg_eq]
  unfold Cert.ReferenceIdeal.Read.val_main_v37 Cert.ReferenceIdeal.Read.val_main_v36 Cert.ReferenceIdeal.Read.val_main_v33 Cert.ReferenceIdeal.Read.val_main_v32 Cert.ReferenceIdeal.Read.val_main_v31 Cert.ReferenceIdeal.Read.val_main_v30 Cert.ReferenceIdeal.Read.val_main_v29
  rfl

include hr in
/-- Layer 2's messages. -/
theorem m1_eq : Cert.KernelIdeal.Stage.m1 a0 a1 a2 a3 a4 a5 a6 a7 a8 a9 a10 = Cert.ReferenceIdeal.Read.val_main_v49 (F := Ideal) a0 a1 a2 a3 a4 a5 a6 a7 a8 a9 a10 := by
  unfold Cert.KernelIdeal.Stage.m1
  rw [message1_eq, h1_eq a0 a1 a2 a3 a4 a5 a6 a7 a8 hr, take1_eq _ a2 hr]
  unfold Cert.ReferenceIdeal.Read.val_main_v49 Cert.ReferenceIdeal.Read.val_main_v48
  rfl

include hr in
theorem s1_eq : Cert.KernelIdeal.Stage.s1 a0 a1 a2 a3 a4 a5 a6 a7 a8 a9 a10 = Cert.ReferenceIdeal.Read.val_main_v52 (F := Ideal) a0 a1 a2 a3 a4 a5 a6 a7 a8 a9 a10 := by
  unfold Cert.KernelIdeal.Stage.s1
  rw [m1_eq a0 a1 a2 a3 a4 a5 a6 a7 a8 a9 a10 hr]
  unfold Cert.KernelIdeal.Stage.scatter1 Cert.ReferenceIdeal.Read.val_main_v52
  rfl

include hr in
/-- Node features after layer 2. -/
theorem h2_eq : Cert.KernelIdeal.Stage.h2 a0 a1 a2 a3 a4 a5 a6 a7 a8 a9 a10 a11 a12 = Cert.ReferenceIdeal.Read.val_main_v66 (F := Ideal) a0 a1 a2 a3 a4 a5 a6 a7 a8 a9 a10 a11 a12 := by
  unfold Cert.KernelIdeal.Stage.h2
  rw [sage1_eq, s1_eq a0 a1 a2 a3 a4 a5 a6 a7 a8 a9 a10 hr, h1_eq a0 a1 a2 a3 a4 a5 a6 a7 a8 hr, deg_eq']
  unfold Cert.ReferenceIdeal.Read.val_main_v66 Cert.ReferenceIdeal.Read.val_main_v65 Cert.ReferenceIdeal.Read.val_main_v62 Cert.ReferenceIdeal.Read.val_main_v61 Cert.ReferenceIdeal.Read.val_main_v60 Cert.ReferenceIdeal.Read.val_main_v59 Cert.ReferenceIdeal.Read.val_main_v58
  rfl

include hr in
/-- The result. -/
theorem out_eq : Cert.KernelIdeal.Stage.out a0 a1 a2 a3 a4 a5 a6 a7 a8 a9 a10 a11 a12 a13 a14 = Cert.ReferenceIdeal.Read.val_main_v70 (F := Ideal) a0 a1 a2 a3 a4 a5 a6 a7 a8 a9 a10 a11 a12 a13 a14 := by
  unfold Cert.KernelIdeal.Stage.out
  rw [decode_eq, h2_eq a0 a1 a2 a3 a4 a5 a6 a7 a8 a9 a10 a11 a12 hr]
  unfold Cert.ReferenceIdeal.Read.val_main_v70 Cert.ReferenceIdeal.Read.val_main_v67
  rfl

end

end Cert.Bridge

end
-- ==== Proof.PreRange.lean ====
/- The precondition's two integer conjuncts, read: every source index of the edge list, as a signed integer, lies in [-100000, 100000). -/
import proofs.«420280_j63763084477189_1_alg».proof.Defs
import proofs.«420280_j63763084477189_1_alg».proof.Proof.Gen.Pre_finite_inputs
import proofs.«420280_j63763084477189_1_alg».proof.Proof.Gen.KernelIdeal
import proofs.«420280_j63763084477189_1_alg».proof.Proof.Stages
import Idealize.ShloMosaic.Lib.ReduceAll
import Idealize.ShloMosaic.Lib.StableHlo.Predicate
import Idealize.ShloMosaic.Lib.ValueIdx

set_option maxRecDepth 16384

noncomputable section

namespace Cert.Bridge

open Idealize.ShloMosaic Idealize.ShloMosaic.ValueIdx Idealize.SL.Sem

namespace PreRange

/-- The rank-0 shape has exactly one index. -/
theorem subsingleton_scalar_idx : Subsingleton Cert.Pre_finite_inputs.S_.Idx :=
  ⟨fun a b => funext fun d => d.elim0⟩

/-- The lower-bound conjunct: the conjunction over all edges of (-100000 ≤ source index), signed. -/
def lowAll (a2 : IVec Cert.Pre_finite_inputs.S2x1000000 32) : IVec Cert.Pre_finite_inputs.S_ 1 :=
  Host.reduce IntOp.andi
    (cmpi .sge (Cert.KernelIdeal.Stage.src a2)
      (broadcastInDim Cert.Pre_finite_inputs.S1000000 ![] Cert.Pre_finite_inputs.Gen.bcast_S_S1000000
        (constantI Cert.Pre_finite_inputs.S_ 32 4294867296#32)))
    (constantI Cert.Pre_finite_inputs.S_ 1 1#1)
    Cert.Pre_finite_inputs.Gen.reducesTo_S1000000_S_d0 Cert.Pre_finite_inputs.Gen.h_S_

/-- The upper-bound conjunct: the conjunction over all edges of (source index < 100000), signed. -/
def highAll (a2 : IVec Cert.Pre_finite_inputs.S2x1000000 32) : IVec Cert.Pre_finite_inputs.S_ 1 :=
  Host.reduce IntOp.andi
    (cmpi .slt (Cert.KernelIdeal.Stage.src a2)
      (broadcastInDim Cert.Pre_finite_inputs.S1000000 ![] Cert.Pre_finite_inputs.Gen.bcast_S_S1000000
        (constantI Cert.Pre_finite_inputs.S_ 32 100000#32)))
    (constantI Cert.Pre_finite_inputs.S_ 1 1#1)
    Cert.Pre_finite_inputs.Gen.reducesTo_S1000000_S_d0 Cert.Pre_finite_inputs.Gen.h_S_

/-- The last part of the predicate is a conjunction whose two outermost conjuncts are the two range tests. -/
theorem part4_eq (a2 : IVec Cert.Pre_finite_inputs.S2x1000000 32) (p q : IVec Cert.Pre_finite_inputs.S_ 1) :
    Cert.Pre_finite_inputs.fn_part4 (F := Ideal) a2 p q = andi (andi (andi p q) (lowAll a2)) (highAll a2) := rfl

/-- The whole predicate ends in its last part (the earlier conjuncts are carried in as the two bits p and q). -/
theorem fn_ends (a0 : FVec Ideal Cert.Pre_finite_inputs.S100000x32 .f32) (a1 : FVec Ideal Cert.Pre_finite_inputs.S1000000x2 .f32)
    (a2 : IVec Cert.Pre_finite_inputs.S2x1000000 32) (a3 : FVec Ideal Cert.Pre_finite_inputs.S32x128 .f32)
    (a4 : FVec Ideal Cert.Pre_finite_inputs.S128 .f32) (a5 : FVec Ideal Cert.Pre_finite_inputs.S2x128 .f32)
    (a6 : FVec Ideal Cert.Pre_finite_inputs.S128 .f32) (a7 : FVec Ideal Cert.Pre_finite_inputs.S256x256 .f32)
    (a8 : FVec Ideal Cert.Pre_finite_inputs.S256 .f32) (a9 : FVec Ideal Cert.Pre_finite_inputs.S2x256 .f32)
    (a10 : FVec Ideal Cert.Pre_finite_inputs.S256 .f32) (a11 : FVec Ideal Cert.Pre_finite_inputs.S512x512 .f32)
    (a12 : FVec Ideal Cert.Pre_finite_inputs.S512 .f32) (a13 : FVec Ideal Cert.Pre_finite_inputs.S512x2 .f32)
    (a14 : FVec Ideal Cert.Pre_finite_inputs.S2 .f32) :
    ∃ p q : IVec Cert.Pre_finite_inputs.S_ 1,
      Cert.Pre_finite_inputs.fn (F := Ideal) a0 a1 a2 a3 a4 a5 a6 a7 a8 a9 a10 a11 a12 a13 a14
        = Cert.Pre_finite_inputs.fn_part4 (F := Ideal) a2 p q :=
  ⟨_, _, rfl⟩

/-- The two splat constants as signed integers. -/
theorem low_toInt : (4294867296#32 : BitVec 32).toInt = -100000 := by decide
theorem high_toInt : (100000#32 : BitVec 32).toInt = 100000 := by decide

/-- Both range tests hold at every edge when the predicate's one bit is set. -/
theorem range_of_bit (a2 : IVec Cert.Pre_finite_inputs.S2x1000000 32) (p q : IVec Cert.Pre_finite_inputs.S_ 1)
    (e : Cert.Pre_finite_inputs.fn_part4 (F := Ideal) a2 p q ix0 = 1#1) (i : Cert.KernelIdeal.S1000000.Idx) :
    -100000 ≤ (Cert.KernelIdeal.Stage.src a2 i).toInt ∧ (Cert.KernelIdeal.Stage.src a2 i).toInt < 100000 := by
  haveI := subsingleton_scalar_idx
  rw [part4_eq] at e
  obtain ⟨e74, e79⟩ := IntOp.andi_eq_one.1 (show IntOp.andi _ _ = 1#1 from e)
  obtain ⟨-, e73⟩ := IntOp.andi_eq_one.1 (show IntOp.andi _ _ = 1#1 from e74)
  have hlo := Host.reduce_andi_all _ _ _ _ _ e73 i
  have hhi := Host.reduce_andi_all _ _ _ _ _ e79 i
  have hlo' := IntOp.cmpi_sge.1 (show IntOp.cmpi .sge (Cert.KernelIdeal.Stage.src a2 i) (4294867296#32) = 1#1 from hlo)
  have hhi' := IntOp.cmpi_slt.1 (show IntOp.cmpi .slt (Cert.KernelIdeal.Stage.src a2 i) (100000#32) = 1#1 from hhi)
  rw [low_toInt] at hlo'
  rw [high_toInt] at hhi'
  exact ⟨hlo', hhi'⟩

end PreRange

open PreRange in
/-- Under the kernel program's precondition every edge's source index is in [-100000, 100000). -/
theorem src_range_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : Cert.KernelIdeal.S1000000.Idx,
      -100000 ≤ (Cert.KernelIdeal.Stage.src (m ((c.tc : Thread Cert.KernelIdeal.nD Cert.KernelIdeal.τ).loc Cert.KernelIdeal.main_arg2)) i).toInt
      ∧ (Cert.KernelIdeal.Stage.src (m ((c.tc : Thread Cert.KernelIdeal.nD Cert.KernelIdeal.τ).loc Cert.KernelIdeal.main_arg2)) i).toInt < 100000 := by
  intro i
  have e := congrFun (hpre c) ix0
  obtain ⟨p, q, hpq⟩ := fn_ends
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
  rw [hpq] at e
  exact range_of_bit _ p q e i

end Cert.Bridge

end
-- ==== Proof.lean ====
/-
  The certificate of a graph network on the TensorCore (an encoder, two message-passing layers, a decoder: six kernel
  regions among host gathers and scatters) against its plain reference, over the extended reals.
  The three frames: the two kernel programs' are the generated launch over @main's eleven segments; the reference's is its
  run with the result dropped. Nothing is idealized but the float formats, so the ledger of rewrites is empty.
  The value claim: the kernel program ends with its result buffer at the network's value of the launch arguments (the
  segments' fold read back stage by stage), the reference at its operations' composed term, and the two are one function
  wherever every source index of the edge list lies in [-100000, 100000) — which the precondition states — because the
  filled gather is then the plain gather, the in-degree counted on a vector is the one counted on a column, a product with
  a concatenation splits over the two halves of the weight, and s · (1 / D) = s / D for D = max deg 1.
-/
import proofs.«420280_j63763084477189_1_alg».proof.Defs
import proofs.«420280_j63763084477189_1_alg».proof.Proof.Gen.Kernel
import proofs.«420280_j63763084477189_1_alg».proof.Proof.Gen.Kernel.Skeleton
import proofs.«420280_j63763084477189_1_alg».proof.Proof.Gen.Kernel.Launch
import proofs.«420280_j63763084477189_1_alg».proof.Proof.Gen.Kernel.Points
import proofs.«420280_j63763084477189_1_alg».proof.Proof.Gen.Kernel.Frame
import proofs.«420280_j63763084477189_1_alg».proof.Proof.Gen.KernelIdeal
import proofs.«420280_j63763084477189_1_alg».proof.Proof.Gen.KernelIdeal.Skeleton
import proofs.«420280_j63763084477189_1_alg».proof.Proof.Gen.KernelIdeal.Launch
import proofs.«420280_j63763084477189_1_alg».proof.Proof.Gen.KernelIdeal.Points
import proofs.«420280_j63763084477189_1_alg».proof.Proof.Gen.KernelIdeal.Frame
import proofs.«420280_j63763084477189_1_alg».proof.Proof.Gen.ReferenceIdeal
import proofs.«420280_j63763084477189_1_alg».proof.Proof.Gen.ReferenceIdeal.Run
import proofs.«420280_j63763084477189_1_alg».proof.Proof.Gen.ReferenceIdeal.Read
import proofs.«420280_j63763084477189_1_alg».proof.Proof.Gen.Pre_finite_inputs
import proofs.«420280_j63763084477189_1_alg».proof.Proof.KernelRun
import proofs.«420280_j63763084477189_1_alg».proof.Proof.Value
import proofs.«420280_j63763084477189_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs run to the network's value of arguments that agree. -/
theorem algebraic : Cert.algebraic_KernelIdeal_ReferenceIdeal := by
  intro m ρ m' ρ' hpre hagree
  refine ⟨fun c => Cert.KernelIdeal.Run.Out m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v70_eq, e0, e1, e2, e3, e4, e5, e6, e7, e8, e9, e10, e11, e12, e13, e14]
  exact (Cert.Bridge.out_eq _ _ _ _ _ _ _ _ _ _ _ _ _ _ _ (Cert.Bridge.src_range_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
